-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096 : Shape := ⟨2, ![128, 4096]⟩
abbrev S128x512 : Shape := ⟨2, ![128, 512]⟩
abbrev S2048x512 : Shape := ⟨2, ![2048, 512]⟩
abbrev S4096x4096 : Shape := ⟨2, ![4096, 4096]⟩
abbrev S4096 : Shape := ⟨1, ![4096]⟩
abbrev S512x4096 : Shape := ⟨2, ![512, 4096]⟩
abbrev S512 : Shape := ⟨1, ![512]⟩
abbrev S_ : Shape := ⟨0, ![]⟩

class Facts : Prop where
  bcast_S_S128x4096 : S_.BroadcastsInDim S128x4096 (![] : Fin 0 → Fin S128x4096.rank)
  reducesTo_S128x4096_S_d0_1 : S128x4096.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S2048x512 : S_.BroadcastsInDim S2048x512 (![] : Fin 0 → Fin S2048x512.rank)
  reducesTo_S2048x512_S_d0_1 : S2048x512.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S512x4096 : S_.BroadcastsInDim S512x4096 (![] : Fin 0 → Fin S512x4096.rank)
  reducesTo_S512x4096_S_d0_1 : S512x4096.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S4096 .f32) (main_arg5 : FVec F S512x4096 .f32) (main_arg6 : FVec F S512 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S512x4096 .f32 := Host.absf main_arg5
  let main_cst_8 : FVec F S_ .f32 := constant S_ .f32 0x7F800000#32
  let main_v25 : FVec F S512x4096 .f32 := broadcastInDim S512x4096 ![] bcast_S_S512x4096 main_cst_8
  let main_v26 : IVec S512x4096 1 := cmpf .olt main_v24 main_v25
  let main_c_9 : IVec S_ 1 := constantI S_ 1 1#1
  let main_v27 : IVec S_ 1 := (fun x v => Host.reduce IntOp.andi x v reducesTo_S512x4096_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S128x4096 .f32) (main_arg1 : FVec F S128x512 .f32) (main_arg2 : FVec F S2048x512 .f32) (main_arg3 : FVec F S4096x4096 .f32) (main_arg4 : FVec F S4096 .f32) (main_arg5 : FVec F S512x4096 .f32) (main_arg6 : FVec F S512 .f32) : IVec S_ 1 :=
  let main_v0 : FVec F S128x4096 .f32 := Host.absf main_arg0
  let main_cst : FVec F S_ .f32 := constant S_ .f32 0x7F800000#32
  let main_v1 : FVec F S128x4096 .f32 := broadcastInDim S128x4096 ![] bcast_S_S128x4096 main_cst
  let main_v2 : IVec S128x4096 1 := cmpf .olt main_v0 main_v1
  let main_c : IVec S_ 1 := constantI S_ 1 1#1
  let main_v3 : IVec S_ 1 := (fun x v => Host.reduce IntOp.andi x v reducesTo_S128x4096_S_d0_1 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S128x4096 : Shape := ⟨2, ![128, 4096]⟩
abbrev S128x512 : Shape := ⟨2, ![128, 512]⟩
abbrev S2048x512 : Shape := ⟨2, ![2048, 512]⟩
abbrev S4096x4096 : Shape := ⟨2, ![4096, 4096]⟩
abbrev S4096 : Shape := ⟨1, ![4096]⟩
abbrev S512x4096 : Shape := ⟨2, ![512, 4096]⟩
abbrev S512 : Shape := ⟨1, ![512]⟩
abbrev S1x4096 : Shape := ⟨2, ![1, 4096]⟩
abbrev S1x512 : Shape := ⟨2, ![1, 512]⟩
abbrev S1024x4096 : Shape := ⟨2, ![1024, 4096]⟩
abbrev S1x1024 : Shape := ⟨2, ![1, 1024]⟩
abbrev S512x1024 : Shape := ⟨2, ![512, 1024]⟩
abbrev S128x1024 : Shape := ⟨2, ![128, 1024]⟩
abbrev S128x1 : Shape := ⟨2, ![128, 1]⟩
abbrev S128 : Shape := ⟨1, ![128]⟩
abbrev S128x2048 : Shape := ⟨2, ![128, 2048]⟩
abbrev S16x512 : Shape := ⟨2, ![16, 512]⟩
abbrev S16x128 : Shape := ⟨2, ![16, 128]⟩
abbrev S1x128x512 : Shape := ⟨3, ![1, 128, 512]⟩
abbrev S16x1x512 : Shape := ⟨3, ![16, 1, 512]⟩
abbrev S16x128x512 : Shape := ⟨3, ![16, 128, 512]⟩
abbrev S128x2049 : Shape := ⟨2, ![128, 2049]⟩

abbrev nBuf : Space → Nat
  | .hbm => 16
  | .vmem => 19
  | .smem => 0
  | _ => 0

abbrev bufTy : (tb : Table) → Fin (tcTables nBuf tb) → BufTy
  | .hbm, ⟨0, _⟩ => ⟨S128x4096, .f32⟩
  | .hbm, ⟨1, _⟩ => ⟨S128x512, .f32⟩
  | .hbm, ⟨2, _⟩ => ⟨S2048x512, .f32⟩
  | .hbm, ⟨3, _⟩ => ⟨S4096x4096, .f32⟩
  | .hbm, ⟨4, _⟩ => ⟨S4096, .f32⟩
  | .hbm, ⟨5, _⟩ => ⟨S512x4096, .f32⟩
  | .hbm, ⟨6, _⟩ => ⟨S512, .f32⟩
  | .hbm, ⟨7, _⟩ => ⟨S128x4096, .bf16⟩
  | .hbm, ⟨8, _⟩ => ⟨S4096x4096, .bf16⟩
  | .hbm, ⟨9, _⟩ => ⟨S512x4096, .bf16⟩
  | .hbm, ⟨10, _⟩ => ⟨S1x4096, .f32⟩
  | .hbm, ⟨11, _⟩ => ⟨S1x512, .f32⟩
  | .hbm, ⟨12, _⟩ => ⟨S128x512, .f32⟩
  | .hbm, ⟨13, _⟩ => ⟨S128x1, .f32⟩
  | .hbm, ⟨14, _⟩ => ⟨S128x2048, .f32⟩
  | .hbm, ⟨15, _⟩ => ⟨S128x2049, .f32⟩
  | .local _ .vmem, ⟨0, _⟩ => ⟨S128x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x1, .f32⟩
  | .local _ .vmem, ⟨13, _⟩ => ⟨S16x512, .f32⟩
  | .local _ .vmem, ⟨14, _⟩ => ⟨S16x512, .f32⟩
  | .local _ .vmem, ⟨15, _⟩ => ⟨S128x512, .f32⟩
  | .local _ .vmem, ⟨16, _⟩ => ⟨S128x512, .f32⟩
  | .local _ .vmem, ⟨17, _⟩ => ⟨S16x128, .f32⟩
  | .local _ .vmem, ⟨18, _⟩ => ⟨S16x128, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc1_sem0_0 : DmaSem sig := 9
abbrev cc1_sem1_0 : DmaSem sig := 10
abbrev cc1_sem2_0 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v21 : BitVec 1 := Scalar.cmpi .eq arg0 c3_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨2, ![8, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S16x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S128x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S16x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bitsLt_bf16_f32 : FTy.bits .bf16 < FTy.bits .f32
  shapeCasts_S4096_S1x4096 : S4096.ShapeCasts S1x4096
  shapeCasts_S512_S1x512 : S512.ShapeCasts S1x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  reduces_S128x512_S128 : S128x512.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  inb_S16x512_S16x512_0_0 : ∀ a, (![0, 0] : Fin 2 → Nat) a + S16x512.size a ≤ S16x512.size a
  h_S16x512 : 0 < S16x512.numel
  shapeCasts_S16x512_S16x512 : S16x512.ShapeCasts S16x512
  shapeCasts_S128x512_S1x128x512 : S128x512.ShapeCasts S1x128x512
  shapeCasts_S16x512_S16x1x512 : S16x512.ShapeCasts S16x1x512
  broadcasts_S1x128x512_S16x128x512 : S1x128x512.Broadcasts S16x128x512
  broadcasts_S16x1x512_S16x128x512 : S16x1x512.Broadcasts S16x128x512
  reduces_S16x128x512_S16x128 : S16x128x512.Reduces [2] S16x128
  inb_S16x128_S16x128_0_0 : ∀ a, (![0, 0] : Fin 2 → Nat) a + S16x128.size a ≤ S16x128.size a
  h_S16x128 : 0 < S16x128.numel
  concatenates_S128x1_S128x2048_S128x2049_d1 : Shape.Concatenates [S128x1, S128x2048] S128x2049 1
  dot_S128x4096_S1024x4096_S128x1024_1_1_0_0_n_n_wf : DotDims.WF S128x4096 S1024x4096 S128x1024 [1] [1] [0] [0] [] []
  dot_S128x1024_S512x1024_S128x512_1_1_0_0_n_n_wf : DotDims.WF S128x1024 S512x1024 S128x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S128x4096.size a
  hwx0_0 : ∀ i : grid0.Coords, EltTy.bits .bf16 = 32 ∨ (Rect.block (s := S128x4096) S128x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x4096.size a
  hwx0_3 : ∀ i : grid0.Coords, EltTy.bits .bf16 = 32 ∨ (Rect.block (s := S512x4096) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .f32 = 32 ∨ (Rect.block (s := S128x512) S128x512.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x512.size a ≤ S128x512.size a
  hwx1_0 : ∀ i : grid1.Coords, EltTy.bits .f32 = 32 ∨ (Rect.block (s := S128x512) S128x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .f32 = 32 ∨ (Rect.block (s := S128x512) S128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S128x1.size a
  hwx1_2 : ∀ i : grid1.Coords, EltTy.bits .f32 = 32 ∨ (Rect.block (s := S128x1) S128x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16x512.size a ≤ S128x512.size a
  hwx2_0 : ∀ i : grid2.Coords, EltTy.bits .f32 = 32 ∨ (Rect.block (s := S128x512) S16x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x512.size a ≤ S2048x512.size a
  hwx2_1 : ∀ i : grid2.Coords, EltTy.bits .f32 = 32 ∨ (Rect.block (s := S2048x512) S128x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16x128.size a ≤ S128x2048.size a
  hwx2_2 : ∀ i : grid2.Coords, EltTy.bits .f32 = 32 ∨ (Rect.block (s := S128x2048) S16x128.size (cc2_transform_2 i) (hinb2_2 i)).WholeWords (EltTy.packing .f32)

variable [Facts₀]

def dot_S128x4096_S1024x4096_S128x1024_1_1_0_0_n_n : DotDims S128x4096 S1024x4096 S128x1024 where
  lhsContracting := [1]
  rhsContracting := [1]
  lhsNonContracting := [0]
  rhsNonContracting := [0]
  lhsBatch := []
  rhsBatch := []
  wf := dot_S128x4096_S1024x4096_S128x1024_1_1_0_0_n_n_wf
def dot_S128x1024_S512x1024_S128x512_1_1_0_0_n_n : DotDims S128x1024 S512x1024 S128x512 where
  lhsContracting := [1]
  rhsContracting := [1]
  lhsNonContracting := [0]
  rhsNonContracting := [0]
  lhsBatch := []
  rhsBatch := []
  wf := dot_S128x1024_S512x1024_S128x512_1_1_0_0_n_n_wf

abbrev win0_0 : Pipeline.Window sig grid0 :=
  Pipeline.Window.ofSpec (Memref.whole main_v0) S128x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S128x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg1) S128x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v5) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v5) S16x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S128x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S16x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S128x4096 : Shape := ⟨2, ![128, 4096]⟩
abbrev S128x512 : Shape := ⟨2, ![128, 512]⟩
abbrev S2048x512 : Shape := ⟨2, ![2048, 512]⟩
abbrev S4096x4096 : Shape := ⟨2, ![4096, 4096]⟩
abbrev S4096 : Shape := ⟨1, ![4096]⟩
abbrev S512x4096 : Shape := ⟨2, ![512, 4096]⟩
abbrev S512 : Shape := ⟨1, ![512]⟩
abbrev S1x4096 : Shape := ⟨2, ![1, 4096]⟩
abbrev S4096x512 : Shape := ⟨2, ![4096, 512]⟩
abbrev S1x512 : Shape := ⟨2, ![1, 512]⟩
abbrev S_ : Shape := ⟨0, ![]⟩
abbrev S128 : Shape := ⟨1, ![128]⟩
abbrev S1x2048x512 : Shape := ⟨3, ![1, 2048, 512]⟩
abbrev S128x1x512 : Shape := ⟨3, ![128, 1, 512]⟩
abbrev S128x2048x512 : Shape := ⟨3, ![128, 2048, 512]⟩
abbrev S128x2048 : Shape := ⟨2, ![128, 2048]⟩
abbrev S128x1 : Shape := ⟨2, ![128, 1]⟩
abbrev S128x2049 : Shape := ⟨2, ![128, 2049]⟩

abbrev nBuf : Space → Nat
  | .hbm => 41
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S128x512, .f32⟩
  | .hbm, ⟨2, _⟩ => ⟨S2048x512, .f32⟩
  | .hbm, ⟨3, _⟩ => ⟨S4096x4096, .f32⟩
  | .hbm, ⟨4, _⟩ => ⟨S4096, .f32⟩
  | .hbm, ⟨5, _⟩ => ⟨S512x4096, .f32⟩
  | .hbm, ⟨6, _⟩ => ⟨S512, .f32⟩
  | .hbm, ⟨7, _⟩ => ⟨S4096x4096, .f32⟩
  | .hbm, ⟨8, _⟩ => ⟨S128x4096, .f32⟩
  | .hbm, ⟨9, _⟩ => ⟨S1x4096, .f32⟩
  | .hbm, ⟨10, _⟩ => ⟨S128x4096, .f32⟩
  | .hbm, ⟨11, _⟩ => ⟨S128x4096, .f32⟩
  | .hbm, ⟨12, _⟩ => ⟨S4096x512, .f32⟩
  | .hbm, ⟨13, _⟩ => ⟨S128x512, .f32⟩
  | .hbm, ⟨14, _⟩ => ⟨S1x512, .f32⟩
  | .hbm, ⟨15, _⟩ => ⟨S128x512, .f32⟩
  | .hbm, ⟨16, _⟩ => ⟨S128x512, .f32⟩
  | .hbm, ⟨17, _⟩ => ⟨S128x512, .f32⟩
  | .hbm, ⟨18, _⟩ => ⟨S_, .f32⟩
  | .hbm, ⟨19, _⟩ => ⟨S128x512, .f32⟩
  | .hbm, ⟨20, _⟩ => ⟨S128x512, .f32⟩
  | .hbm, ⟨21, _⟩ => ⟨S128x512, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S1x2048x512, .f32⟩
  | .hbm, ⟨27, _⟩ => ⟨S128x1x512, .f32⟩
  | .hbm, ⟨28, _⟩ => ⟨S128x2048x512, .f32⟩
  | .hbm, ⟨29, _⟩ => ⟨S128x2048x512, .f32⟩
  | .hbm, ⟨30, _⟩ => ⟨S128x2048x512, .f32⟩
  | .hbm, ⟨31, _⟩ => ⟨S_, .f32⟩
  | .hbm, ⟨32, _⟩ => ⟨S128x2048x512, .f32⟩
  | .hbm, ⟨33, _⟩ => ⟨S128x2048x512, .f32⟩
  | .hbm, ⟨34, _⟩ => ⟨S128x2048x512, .f32⟩
  | .hbm, ⟨35, _⟩ => ⟨S_, .f32⟩
  | .hbm, ⟨36, _⟩ => ⟨S128x2048, .f32⟩
  | .hbm, ⟨37, _⟩ => ⟨S128x2048, .f32⟩
  | .hbm, ⟨38, _⟩ => ⟨S128x2048, .f32⟩
  | .hbm, ⟨39, _⟩ => ⟨S128x1, .f32⟩
  | .hbm, ⟨40, _⟩ => ⟨S128x2049, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_cst : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call1_cst : Ref sig .tc := ⟨.hbm, 31, rfl⟩
abbrev main_call1_v0 : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S128x4096_0_1 : S1x4096.BroadcastsInDim S128x4096 (![0, 1] : Fin 2 → Fin S128x4096.rank)
  transposes_S512x4096_S4096x512_1_0 : S512x4096.Transposes [1, 0] S4096x512
  bcast_S512_S1x512_1 : S512.BroadcastsInDim S1x512 (![1] : Fin 1 → Fin S1x512.rank)
  bcast_S1x512_S128x512_0_1 : S1x512.BroadcastsInDim S128x512 (![0, 1] : Fin 2 → Fin S128x512.rank)
  bcast_S_S128x512 : S_.BroadcastsInDim S128x512 (![] : Fin 0 → Fin S128x512.rank)
  reducesTo_S128x512_S128_d1 : S128x512.ReducesTo [1] S128
  h_S_ : 0 < S_.numel
  bcast_S2048x512_S1x2048x512_1_2 : S2048x512.BroadcastsInDim S1x2048x512 (![1, 2] : Fin 2 → Fin S1x2048x512.rank)
  bcast_S128x512_S128x1x512_0_2 : S128x512.BroadcastsInDim S128x1x512 (![0, 2] : Fin 2 → Fin S128x1x512.rank)
  bcast_S1x2048x512_S128x2048x512_0_1_2 : S1x2048x512.BroadcastsInDim S128x2048x512 (![0, 1, 2] : Fin 3 → Fin S128x2048x512.rank)
  bcast_S128x1x512_S128x2048x512_0_1_2 : S128x1x512.BroadcastsInDim S128x2048x512 (![0, 1, 2] : Fin 3 → Fin S128x2048x512.rank)
  bcast_S_S128x2048x512 : S_.BroadcastsInDim S128x2048x512 (![] : Fin 0 → Fin S128x2048x512.rank)
  reducesTo_S128x2048x512_S128x2048_d2 : S128x2048x512.ReducesTo [2] S128x2048
  bcast_S128_S128x1_0 : S128.BroadcastsInDim S128x1 (![0] : Fin 1 → Fin S128x1.rank)
  concatenates_S128x1_S128x2048_S128x2049_d1 : Shape.Concatenates [S128x1, S128x2048] S128x2049 1
  dot_S128x4096_S4096x4096_S128x4096_1_0_0_1_n_n_wf : DotDims.WF S128x4096 S4096x4096 S128x4096 [1] [0] [0] [1] [] []
  dot_S128x4096_S4096x512_S128x512_1_0_0_1_n_n_wf : DotDims.WF S128x4096 S4096x512 S128x512 [1] [0] [0] [1] [] []

variable [Facts₀]

def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf
def dot_S128x4096_S4096x512_S128x512_1_0_0_1_n_n : DotDims S128x4096 S4096x512 S128x512 where
  lhsContracting := [1]
  rhsContracting := [0]
  lhsNonContracting := [0]
  rhsNonContracting := [1]
  lhsBatch := []
  rhsBatch := []
  wf := dot_S128x4096_S4096x512_S128x512_1_0_0_1_n_n_wf

class Facts : Prop extends Facts₀ where

variable [Facts]
-- ==== Proof.Fr.R0Runs.lean ====
/-
  The embedding call (grid of 4 points over the hidden axis, 1024 hidden units a point).  The body keeps a 128 x 512
  accumulator in a scratch buffer across the points: at the first point it is reset to zero; at every point the
  1024-wide slab of the hidden layer  x . wh_k^T + bh_k  is formed and its product with the slab we_k^T is added to the
  accumulator; at the last point the accumulator plus the output bias is stored into the output block (the output
  window is untouched at the other points).  Here: the body's triple in each of its three cases (first point, middle
  points, last point), what the accumulator and the output block hold after each point, and the pipeline's proof data
  and body obligation at any contents `V` of the core's buffers at the call's entry, the invariant carrying the
  accumulator's contents from point to point.
-/
import proofs.«161488_j35158602285671_1_alg».proof.Proof.Gen.KernelIdeal.Launch
import proofs.«161488_j35158602285671_1_alg».proof.Proof.Gen.KernelIdeal.Skeleton
import proofs.«161488_j35158602285671_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, fetched there or not, for any proof data over `V`
    that leaves it in place (x and the output bias are fetched once: their block index never moves). -/
theorem before0_0_of {c : Dev nD} (dat : Dat τ (Elt F) Unit ℕ (Pipeline.UD sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-! ## The body's two conditions over the grid -/

/-- "This is the first point": the accumulator is reset. -/
abbrev cond0_1 (i : grid0.Coords) : Prop := (Scalar.cmpi .ne (Scalar.extui (Scalar.cmpi .eq (BitVec.ofNat 32 (i 0).val) 0#32)) 0#32) = 1#1
theorem hcond0_1 : ∀ t : Fin cfg0.N, cond0_1 (grid0.coords t) ↔ t.val % 4 = 0 :=
  (by decide +kernel : ∀ t : Fin grid0.N, cond0_1 (grid0.coords t) ↔ t.val % 4 = 0)
/-- "This is the last point": the output block is stored. -/
abbrev cond0_2 (i : grid0.Coords) : Prop := k0_cond2 i = 1#1
theorem hcond0_2 : ∀ t : Fin cfg0.N, cond0_2 (grid0.coords t) ↔ t.val % 4 = 3 :=
  (by decide +kernel : ∀ t : Fin grid0.N, cond0_2 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Before the last point nothing is stored into the output block and it is not written back; -/
theorem idleAt0_5 : ∀ t : Fin cfg0.N, ¬cond0_2 (grid0.coords t) → cfg0.idle 5 (grid0.coords t) = true := by decide +kernel
theorem noFlush0_5 : ∀ t : Fin cfg0.N, ¬cond0_2 (grid0.coords t) → (cfg0.win 5).flush t = false := by decide +kernel
/-- at the last point it is. -/
theorem liveAt0_5 : ∀ t : Fin cfg0.N, cond0_2 (grid0.coords t) → cfg0.idle 5 (grid0.coords t) = false := by decide +kernel

/-! ## The memrefs the body is called with -/

abbrev VO0 : View sig .tc .vmem S128x512 .f32 := (Memref.whole cc0_stg5_0 : Memref sig .tc .vmem S128x512 .f32).view
abbrev ms0_0 (t : Fin cfg0.N) : Memref sig .tc .vmem S128x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x512 .f32 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev scM0 : Memref sig .tc .vmem S128x512 .f32 := Memref.whole cc0_scratch0
abbrev VS0 : View sig .tc .vmem S128x512 .f32 := scM0.view

/-- The core's other scoped buffers that are no staging buffer of this call (the later calls' staging buffers), each
    at some contents: the body never names them. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

/-- The class invariant, with the accumulator as a memref owned at some contents. -/
theorem PhiA0_eq (c : Dev nD) :
    (Pipeline.ΦA spec0 c : sProp 𝕄)
      = iprop(iprop((∃ d, owns (c : Thread nD τ) scM0 fullShare d) ∗ otherScoped0 c) ∗ (∃ r, prngReg c r)) := by
  unfold Pipeline.ΦA otherScoped0; rw [scopedRest0_eq]; simp only [scM0, owns_whole]; try rfl

/-! ## The body in each case: a subtype the run finds -/

set_option maxHeartbeats 1000000 in
/-- THE FIRST POINT (reset taken, output not stored): the inputs' buffers and the untouched output's handed back as
    they were; the accumulator, entered at anything, left with its pieces written (the reset, then the first slab's
    contribution). -/
noncomputable def kernelRun0_A (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : cond0_1 i) (hc2 : ¬cond0_2 i)
    (x0 : Vec F S128x4096 .bf16) (x1 : Vec F S1024x4096 .bf16) (x2 : Vec F S1x1024 .f32) (x3 : Vec F S512x1024 .bf16) :
    { LS0 : List (View.Piece (Elt F) S128x512 .f32) //
      ∀ (x4 : Vec F S1x512 .f32) (xi5 : Vec F S128x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__mlp_kernel i arg1 harg1 arg2 harg2 arg3 harg3 arg4 harg4 arg5 harg5 arg6 harg6 arg7 harg7) K } := by
  refine ⟨?_, fun x4 xi5 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 1000000 in
/-- A MIDDLE POINT (no reset, output not stored): as above, the accumulator entered at what the point before left. -/
noncomputable def kernelRun0_B (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : ¬cond0_1 i) (hc2 : ¬cond0_2 i)
    (x0 : Vec F S128x4096 .bf16) (x1 : Vec F S1024x4096 .bf16) (x2 : Vec F S1x1024 .f32) (x3 : Vec F S512x1024 .bf16) (xs0 : Vec F S128x512 .f32) :
    { LS0 : List (View.Piece (Elt F) S128x512 .f32) //
      ∀ (x4 : Vec F S1x512 .f32) (xi5 : Vec F S128x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__mlp_kernel i arg1 harg1 arg2 harg2 arg3 harg3 arg4 harg4 arg5 harg5 arg6 harg6 arg7 harg7) K } := by
  refine ⟨?_, fun x4 xi5 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hfs0
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 1000000 in
/-- THE LAST POINT (no reset, output stored): the inputs' buffers handed back as they were; the output's, entered at
    anything, and the accumulator's, entered at what the point before left, left with their pieces written. -/
noncomputable def kernelRun0_C (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : ¬cond0_1 i) (hc2 : cond0_2 i)
    (x0 : Vec F S128x4096 .bf16) (x1 : Vec F S1024x4096 .bf16) (x2 : Vec F S1x1024 .f32) (x3 : Vec F S512x1024 .bf16) (x4 : Vec F S1x512 .f32) (xs0 : Vec F S128x512 .f32) :
    Σ' (L5 : List (View.Piece (Elt F) S128x512 .f32)), { LS0 : List (View.Piece (Elt F) S128x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__mlp_kernel i arg1 harg1 arg2 harg2 arg3 harg3 arg4 harg4 arg5 harg5 arg6 harg6 arg7 harg7) K } := by
  refine ⟨?_, ?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hfs0
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Fr

end
-- ==== Proof.Fr.R0.lean ====
/-
  The embedding call, continued: what the accumulator and the output block hold after each of the 4 points (the
  accumulation), the invariant that carries the accumulator from point to point, the pipeline's proof data at any
  contents `V` of the core's buffers at the call's entry, and the body obligation point by point.
-/
import proofs.«161488_j35158602285671_1_alg».proof.Proof.Gen.KernelIdeal.Launch
import proofs.«161488_j35158602285671_1_alg».proof.Proof.Gen.KernelIdeal.Skeleton
import proofs.«161488_j35158602285671_1_alg».proof.Proof.Gen.KernelIdeal.Points
import proofs.«161488_j35158602285671_1_alg».proof.Proof.Fr.R0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each case leaves: its pieces read back -/

theorem scover0_A (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : cond0_1 i) (hc2 : ¬cond0_2 i) (x0 : Vec F S128x4096 .bf16) (x1 : Vec F S1024x4096 .bf16) (x2 : Vec F S1x1024 .f32) (x3 : Vec F S512x1024 .bf16) (y : S128x512.Idx) :
    ∃ pc ∈ (kernelRun0_A c i arg1 harg1 arg2 harg2 arg3 harg3 arg4 harg4 arg5 harg5 arg6 harg6 arg7 harg7 hc1 hc2 x0 x1 x2 x3).1, y ∈ pc.1.set :=
  View.cover_of_wholeMem (kernelRun0_A c i arg1 harg1 arg2 harg2 arg3 harg3 arg4 harg4 arg5 harg5 arg6 harg6 arg7 harg7 hc1 hc2 x0 x1 x2 x3).1 (by sl_whole_mem) y
/-- The accumulator after the first point. -/
def sout0_A (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : cond0_1 i) (hc2 : ¬cond0_2 i) (x0 : Vec F S128x4096 .bf16) (x1 : Vec F S1024x4096 .bf16) (x2 : Vec F S1x1024 .f32) (x3 : Vec F S512x1024 .bf16) : Vec F S128x512 .f32 :=
  VS0.read (Elt F) (VS0.writes (Elt F) VS0.junk (kernelRun0_A c i arg1 harg1 arg2 harg2 arg3 harg3 arg4 harg4 arg5 harg5 arg6 harg6 arg7 harg7 hc1 hc2 x0 x1 x2 x3).1)

theorem scover0_B (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : ¬cond0_1 i) (hc2 : ¬cond0_2 i) (x0 : Vec F S128x4096 .bf16) (x1 : Vec F S1024x4096 .bf16) (x2 : Vec F S1x1024 .f32) (x3 : Vec F S512x1024 .bf16) (xs0 : Vec F S128x512 .f32) (y : S128x512.Idx) :
    ∃ pc ∈ (kernelRun0_B c i arg1 harg1 arg2 harg2 arg3 harg3 arg4 harg4 arg5 harg5 arg6 harg6 arg7 harg7 hc1 hc2 x0 x1 x2 x3 xs0).1, y ∈ pc.1.set :=
  View.cover_of_wholeMem (kernelRun0_B c i arg1 harg1 arg2 harg2 arg3 harg3 arg4 harg4 arg5 harg5 arg6 harg6 arg7 harg7 hc1 hc2 x0 x1 x2 x3 xs0).1 (by sl_whole_mem) y
/-- The accumulator after a middle point, over what the point before left. -/
def sout0_B (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : ¬cond0_1 i) (hc2 : ¬cond0_2 i) (x0 : Vec F S128x4096 .bf16) (x1 : Vec F S1024x4096 .bf16) (x2 : Vec F S1x1024 .f32) (x3 : Vec F S512x1024 .bf16) (xs0 : Vec F S128x512 .f32) : Vec F S128x512 .f32 :=
  VS0.read (Elt F) (VS0.writes (Elt F) VS0.junk (kernelRun0_B c i arg1 harg1 arg2 harg2 arg3 harg3 arg4 harg4 arg5 harg5 arg6 harg6 arg7 harg7 hc1 hc2 x0 x1 x2 x3 xs0).1)

theorem cover0_C (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : ¬cond0_1 i) (hc2 : cond0_2 i) (x0 : Vec F S128x4096 .bf16) (x1 : Vec F S1024x4096 .bf16) (x2 : Vec F S1x1024 .f32) (x3 : Vec F S512x1024 .bf16) (x4 : Vec F S1x512 .f32) (xs0 : Vec F S128x512 .f32) (y : S128x512.Idx) :
    ∃ pc ∈ (kernelRun0_C c i arg1 harg1 arg2 harg2 arg3 harg3 arg4 harg4 arg5 harg5 arg6 harg6 arg7 harg7 hc1 hc2 x0 x1 x2 x3 x4 xs0).1, y ∈ pc.1.set :=
  View.cover_of_wholeMem (kernelRun0_C c i arg1 harg1 arg2 harg2 arg3 harg3 arg4 harg4 arg5 harg5 arg6 harg6 arg7 harg7 hc1 hc2 x0 x1 x2 x3 x4 xs0).1 (by sl_whole_mem) y
/-- The output block after the last point. -/
def out0_C (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : ¬cond0_1 i) (hc2 : cond0_2 i) (x0 : Vec F S128x4096 .bf16) (x1 : Vec F S1024x4096 .bf16) (x2 : Vec F S1x1024 .f32) (x3 : Vec F S512x1024 .bf16) (x4 : Vec F S1x512 .f32) (xs0 : Vec F S128x512 .f32) : Vec F S128x512 .f32 :=
  VO0.read (Elt F) (VO0.writes (Elt F) VO0.junk (kernelRun0_C c i arg1 harg1 arg2 harg2 arg3 harg3 arg4 harg4 arg5 harg5 arg6 harg6 arg7 harg7 hc1 hc2 x0 x1 x2 x3 x4 xs0).1)
theorem scover0_C (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : ¬cond0_1 i) (hc2 : cond0_2 i) (x0 : Vec F S128x4096 .bf16) (x1 : Vec F S1024x4096 .bf16) (x2 : Vec F S1x1024 .f32) (x3 : Vec F S512x1024 .bf16) (x4 : Vec F S1x512 .f32) (xs0 : Vec F S128x512 .f32) (y : S128x512.Idx) :
    ∃ pc ∈ (kernelRun0_C c i arg1 harg1 arg2 harg2 arg3 harg3 arg4 harg4 arg5 harg5 arg6 harg6 arg7 harg7 hc1 hc2 x0 x1 x2 x3 x4 xs0).2.1, y ∈ pc.1.set :=
  View.cover_of_wholeMem (kernelRun0_C c i arg1 harg1 arg2 harg2 arg3 harg3 arg4 harg4 arg5 harg5 arg6 harg6 arg7 harg7 hc1 hc2 x0 x1 x2 x3 x4 xs0).2.1 (by sl_whole_mem) y
/-- The accumulator after the last point. -/
def sout0_C (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : ¬cond0_1 i) (hc2 : cond0_2 i) (x0 : Vec F S128x4096 .bf16) (x1 : Vec F S1024x4096 .bf16) (x2 : Vec F S1x1024 .f32) (x3 : Vec F S512x1024 .bf16) (x4 : Vec F S1x512 .f32) (xs0 : Vec F S128x512 .f32) : Vec F S128x512 .f32 :=
  VS0.read (Elt F) (VS0.writes (Elt F) VS0.junk (kernelRun0_C c i arg1 harg1 arg2 harg2 arg3 harg3 arg4 harg4 arg5 harg5 arg6 harg6 arg7 harg7 hc1 hc2 x0 x1 x2 x3 x4 xs0).2.1)

/-! ## The accumulation -/

/-- What the output block (first component; a placeholder nothing consults before the last point, where the window
    is idle) and the accumulator (second component) hold after the body at position `n`: the case the position is
    in, run at the point's memrefs and input blocks over what the position before left in the accumulator. -/
def outsAt0 (c : Dev nD) : (n : ℕ) → n < cfg0.N → Vec F S128x512 .f32 × Vec F S128x512 .f32
  | 0, hn => (VO0.read (Elt F) VO0.junk,
      sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) ((hcond0_1 ⟨0, hn⟩).mpr (Nat.zero_mod _)) (fun h => (fun h => by (try dsimp only at h); omega) ((hcond0_2 ⟨0, hn⟩).mp h)) (blk0 V c 0 ⟨0, hn⟩) (blk0 V c 1 ⟨0, hn⟩) (blk0 V c 2 ⟨0, hn⟩) (blk0 V c 3 ⟨0, hn⟩))
  | n + 1, hn =>
    if h3 : (n + 1) % 4 = 3 then
      (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => by have h' := (hcond0_1 ⟨n + 1, hn⟩).mp h; (try dsimp only at h'); omega) ((hcond0_2 ⟨n + 1, hn⟩).mpr h3) (blk0 V c 0 ⟨n + 1, hn⟩) (blk0 V c 1 ⟨n + 1, hn⟩) (blk0 V c 2 ⟨n + 1, hn⟩) (blk0 V c 3 ⟨n + 1, hn⟩) (blk0 V c 4 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => by have h' := (hcond0_1 ⟨n + 1, hn⟩).mp h; (try dsimp only at h'); omega) ((hcond0_2 ⟨n + 1, hn⟩).mpr h3) (blk0 V c 0 ⟨n + 1, hn⟩) (blk0 V c 1 ⟨n + 1, hn⟩) (blk0 V c 2 ⟨n + 1, hn⟩) (blk0 V c 3 ⟨n + 1, hn⟩) (blk0 V c 4 ⟨n + 1, hn⟩) (outsAt0 c n (Nat.lt_of_succ_lt hn)).2)
    else
      (VO0.read (Elt F) VO0.junk,
       sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => by have h' := (hcond0_1 ⟨n + 1, hn⟩).mp h; have hN : n + 1 < 4 := lt_of_lt_of_eq hn (show cfg0.N = 4 from N_0); (try dsimp only at h'); omega) (fun h => h3 ((hcond0_2 ⟨n + 1, hn⟩).mp h)) (blk0 V c 0 ⟨n + 1, hn⟩) (blk0 V c 1 ⟨n + 1, hn⟩) (blk0 V c 2 ⟨n + 1, hn⟩) (blk0 V c 3 ⟨n + 1, hn⟩) (outsAt0 c n (Nat.lt_of_succ_lt hn)).2)

theorem outsAt0_A (c : Dev nD) (t : Fin cfg0.N) (h0 : t.val % 4 = 0) (h3 : ¬t.val % 4 = 3) :
    outsAt0 V c t.val t.isLt = (VO0.read (Elt F) VO0.junk,
      sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_1 t).mpr h0) (fun h => h3 ((hcond0_2 t).mp h)) (blk0 V c 0 t) (blk0 V c 1 t) (blk0 V c 2 t) (blk0 V c 3 t)) := by
  obtain ⟨n, hn⟩ := t
  cases n with
  | zero => exact rfl
  | succ n => exact (by exfalso; have hN : n + 1 < 4 := lt_of_lt_of_eq hn (show cfg0.N = 4 from N_0); (try dsimp only at h0); omega)

theorem outsAt0_B (c : Dev nD) (t : Fin cfg0.N) (h0 : ¬t.val % 4 = 0) (h3 : ¬t.val % 4 = 3) :
    outsAt0 V c t.val t.isLt = (VO0.read (Elt F) VO0.junk,
      sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_1 t).mp h)) (fun h => h3 ((hcond0_2 t).mp h)) (blk0 V c 0 t) (blk0 V c 1 t) (blk0 V c 2 t) (blk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h3).trans rfl

theorem outsAt0_C (c : Dev nD) (t : Fin cfg0.N) (h0 : ¬t.val % 4 = 0) (h3 : t.val % 4 = 3) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_1 t).mp h)) ((hcond0_2 t).mpr h3) (blk0 V c 0 t) (blk0 V c 1 t) (blk0 V c 2 t) (blk0 V c 3 t) (blk0 V c 4 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_1 t).mp h)) ((hcond0_2 t).mpr h3) (blk0 V c 0 t) (blk0 V c 1 t) (blk0 V c 2 t) (blk0 V c 3 t) (blk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h3).trans rfl

/-! ## The invariant -/

/-- Before position `n`: before the first point the class's (the accumulator at anything); afterwards the accumulator
    at what the point before left, the other scoped buffers and the generator register as they were. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ otherScoped0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2) ∗ otherScoped0 c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2) ∗ otherScoped0 c) ∗ (∃ r, prngReg c r)) := by
  cases n with
  | zero => exact absurd rfl hz
  | succ n => rfl

/-! ## The proof data -/

def dat0 (c : Dev nD) : Dat τ (Elt F) Unit ℕ (Pipeline.UD sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = (outsAt0 V c t.val t.isLt).1 := by dsimp only [dat0]
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d
theorem before0_4 (c : Dev nD) (t : Fin cfg0.N) (d) : (dat0 V c).before 4 t d = blk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks; the position says which case the point is in; the
    invariant hands the body the accumulator (at anything at the first point, else at what the point before left) and
    takes it back at this point's contents; before the last point the output's buffer goes in and comes back untouched;
    the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 4 := lt_of_lt_of_eq t.isLt (show cfg0.N = 4 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 4 = 0
  · have h3 : ¬t.val % 4 = 3 := by omega
    have hz : t.val = 0 := by omega
    rw [Dat.leavesExact_idle (dat0 V c) 5 t (idleAt0_5 t (fun h => h3 ((hcond0_2 t).mp h))) (noFlush0_5 t (fun h => h3 ((hcond0_2 t).mp h)))]
    rw [outsAt0_A V c t h0 h3]
    unfold sout0_A; (try dsimp only)
    rw [PhiS_castSucc V c t, PhiS_zero V c _ _ hz, PhiA0_eq]
    iintro ⟨⟨⟨HS0, HR⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_1 t).mpr h0) (fun h => h3 ((hcond0_2 t).mp h)) (blk0 V c 0 t) (blk0 V c 1 t) (blk0 V c 2 t) (blk0 V c 3 t)).2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_1 t).mpr h0) (fun h => h3 ((hcond0_2 t).mp h)) (blk0 V c 0 t) (blk0 V c 1 t) (blk0 V c 2 t) (blk0 V c 3 t))
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    by_cases h3 : t.val % 4 = 3
    · rw [show (dat0 V c).leavesExact 5 t = owns (c : Thread nD τ) (ms0_5 t) fullShare ((dat0 V c).after 5 t) from by
        unfold Dat.leavesExact; rw [liveAt0_5 t ((hcond0_2 t).mpr h3)], after0_5]
      rw [outsAt0_C V c t h0 h3]
      unfold out0_C sout0_C; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_1 t).mp h)) ((hcond0_2 t).mpr h3) (blk0 V c 0 t) (blk0 V c 1 t) (blk0 V c 2 t) (blk0 V c 3 t) (blk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_1 t).mp h)) ((hcond0_2 t).mpr h3) (blk0 V c 0 t) (blk0 V c 1 t) (blk0 V c 2 t) (blk0 V c 3 t) (blk0 V c 4 t) _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_1 t).mp h)) ((hcond0_2 t).mpr h3) (blk0 V c 0 t) (blk0 V c 1 t) (blk0 V c 2 t) (blk0 V c 3 t) (blk0 V c 4 t) _)
    · rw [Dat.leavesExact_idle (dat0 V c) 5 t (idleAt0_5 t (fun h => h3 ((hcond0_2 t).mp h))) (noFlush0_5 t (fun h => h3 ((hcond0_2 t).mp h)))]
      rw [outsAt0_B V c t h0 h3]
      unfold sout0_B; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_1 t).mp h)) (fun h => h3 ((hcond0_2 t).mp h)) (blk0 V c 0 t) (blk0 V c 1 t) (blk0 V c 2 t) (blk0 V c 3 t) _).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_1 t).mp h)) (fun h => h3 ((hcond0_2 t).mp h)) (blk0 V c 0 t) (blk0 V c 1 t) (blk0 V c 2 t) (blk0 V c 3 t) _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline's body obligation for this call, at every point. -/
theorem body_obligation0 (c : Dev nD) : BodyObligation (dat0 (F := F) V c) (defs₀ (F := F)) Variants.none () Set.univ := fun t => by
  rw [bigSep_W0, bigSep_W0]
  exact sound_body0 V c t

/-- What the call is entered with is the invariant before the first point, -/
theorem Phi0_in (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- and after the last point the invariant gives it back, the accumulator's contents forgotten. -/
theorem Phi0_out (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 4 := N_0; omega), PhiA0_eq]
  iintro ⟨⟨HS0, HR⟩, Hg⟩
  isplitl [HS0 HR]
  · isplitl [HS0]; · iexists _; iexact HS0
    iexact HR
  iexact Hg

end Cert.KernelIdeal.Fr

end
-- ==== Proof.Fr.R1.lean ====
/-
  The positive-score call (one grid point): rows p and e of 128 x 512 come in whole, and the body leaves in its
  128 x 1 output block, row by row, 0 - sqrt (sum_k (max (p - e) 0)^2).  Here: that block as a function of the two
  input blocks, the body's triple, and the pipeline's proof data at any contents `V` of the core's buffers at the
  call's entry (inputs left in place, the output block stored whole, nothing carried between points).
-/
import proofs.«161488_j35158602285671_1_alg».proof.Proof.Gen.KernelIdeal.Launch
import proofs.«161488_j35158602285671_1_alg».proof.Proof.Gen.KernelIdeal.Skeleton
import proofs.«161488_j35158602285671_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, for any proof data over `V` that leaves it in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The whole 128 x 512 rectangle the body loads, and the whole 128 x 1 rectangle it stores. -/
abbrev rIn1 : Rect S128x512 := Rect.unit (s := S128x512) ![0, 0] S128x512.size inb_S128x512_S128x512_0_0
abbrev rOut1 : Rect S128x1 := Rect.unit (s := S128x1) ![0, 0] S128x1.size inb_S128x1_S128x1_0_0

/-- What the body leaves in the output block, from the two input blocks: its one store, of the row scores. -/
def out1 (x0 x1 : Vec F S128x512 .f32) : Vec F S128x1 .f32 :=
  View.canon [⟨rOut1, k1_pay1 (View.ld x0 rIn1) (View.ld x1 rIn1)⟩]

/-- The one store covers the block. -/
theorem cover1 (p0 : Vec F S128x1 .f32) (y : S128x1.Idx) :
    ∃ pc ∈ ([⟨rOut1, p0⟩] : List (View.Piece (Elt F) S128x1 .f32)), y ∈ pc.1.set :=
  View.cover_of_tiled [⟨rOut1, p0⟩] S128x1.size (by rfl) y

set_option maxHeartbeats 1000000 in
/-- The body on whole staging memrefs: the inputs' kept, the output's at `out1` of them. -/
theorem sound_kernel1 (c : Dev nD) (E : Set ℕ) (i : grid1.Coords) (arg1 : Memref sig .tc .vmem S128x512 .f32) (harg1 : arg1.IsWhole) (arg2 : Memref sig .tc .vmem S128x512 .f32) (harg2 : arg2.IsWhole) (arg3 : Memref sig .tc .vmem S128x1 .f32) (harg3 : arg3.IsWhole)
    (x0 x1 : Vec F S128x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1 x0 x1)) -∗ K ⟨⟩))
      ⊢ wp frame (wpE (defs₀ (F := F)) Variants.none c none) E (cc1__pos_kernel i arg1 harg1 arg2 harg2 arg3 harg3) K := by
  simp only [cc1__pos_kernel_eq_skeleton]; unfold cc1__pos_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The call's proof data on core `c`: arrays as found; after the body the inputs' buffers at their blocks and the
    output's at `out1` of them; the invariant the scoped rest and the generator register, untouched. -/
def dat1 (c : Dev nD) : Dat τ (Elt F) Unit ℕ (Pipeline.UD sig nD τ) ℕ cfg1 c where
  A w := V c (Pipeline.arrRef spec1 w)
  after w t := match w with
    | ⟨0, _⟩ => blk1 V c 0 t
    | ⟨1, _⟩ => blk1 V c 1 t
    | ⟨2, _⟩ => out1 (blk1 V c 0 t) (blk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = out1 (blk1 V c 0 t) (blk1 V c 1 t) := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for this call, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.Fr.R2.lean ====
/-
  The negative-score call (grid 8 x 16): at point (i, j) a 16 x 512 block q of the embeddings and a 128 x 512 block n
  of the negatives come in, and the body leaves in its 16 x 128 output block, at (a, b),
  0 - sqrt (sum_k (max (n b k - q a k) 0)^2).  Here: that block as a function of the two input blocks, the body's
  triple, and the pipeline's proof data at any contents `V` of the core's buffers at the call's entry.
-/
import proofs.«161488_j35158602285671_1_alg».proof.Proof.Gen.KernelIdeal.Launch
import proofs.«161488_j35158602285671_1_alg».proof.Proof.Gen.KernelIdeal.Skeleton
import proofs.«161488_j35158602285671_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's staging buffer holds its block at every point, fetched there or not (the embeddings' block is fetched
    once per row of the grid and its index does not move in between). -/
theorem before2_0_of {c : Dev nD} (dat : Dat τ (Elt F) Unit ℕ (Pipeline.UD sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The whole rectangles the body loads and stores. -/
abbrev rQ2 : Rect S16x512 := Rect.unit (s := S16x512) ![0, 0] S16x512.size inb_S16x512_S16x512_0_0
abbrev rN2 : Rect S128x512 := Rect.unit (s := S128x512) ![0, 0] S128x512.size inb_S128x512_S128x512_0_0
abbrev rOut2 : Rect S16x128 := Rect.unit (s := S16x128) ![0, 0] S16x128.size inb_S16x128_S16x128_0_0

/-- What the body leaves in the output block, from the two input blocks: its one store, of the 16 x 128 scores. -/
def out2 (x0 : Vec F S16x512 .f32) (x1 : Vec F S128x512 .f32) : Vec F S16x128 .f32 :=
  View.canon [⟨rOut2, k2_pay1 (View.ld x0 rQ2) (View.ld x1 rN2)⟩]

/-- The one store covers the block. -/
theorem cover2 (p0 : Vec F S16x128 .f32) (y : S16x128.Idx) :
    ∃ pc ∈ ([⟨rOut2, p0⟩] : List (View.Piece (Elt F) S16x128 .f32)), y ∈ pc.1.set :=
  View.cover_of_tiled [⟨rOut2, p0⟩] S16x128.size (by rfl) y

set_option maxHeartbeats 1000000 in
/-- The body on whole staging memrefs: the inputs' kept, the output's at `out2` of them. -/
theorem sound_kernel2 (c : Dev nD) (E : Set ℕ) (i : grid2.Coords) (arg2 : Memref sig .tc .vmem S16x512 .f32) (harg2 : arg2.IsWhole) (arg3 : Memref sig .tc .vmem S128x512 .f32) (harg3 : arg3.IsWhole) (arg4 : Memref sig .tc .vmem S16x128 .f32) (harg4 : arg4.IsWhole)
    (x0 : Vec F S16x512 .f32) (x1 : Vec F S128x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2 x0 x1)) -∗ K ⟨⟩))
      ⊢ wp frame (wpE (defs₀ (F := F)) Variants.none c none) E (cc2__neg_kernel i arg2 harg2 arg3 harg3 arg4 harg4) K := by
  simp only [cc2__neg_kernel_eq_skeleton]; unfold cc2__neg_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The call's proof data on core `c`: arrays as found; after the body the inputs' buffers at their blocks and the
    output's at `out2` of them; the invariant the scoped rest and the generator register, untouched. -/
def dat2 (c : Dev nD) : Dat τ (Elt F) Unit ℕ (Pipeline.UD sig nD τ) ℕ cfg2 c where
  A w := V c (Pipeline.arrRef spec2 w)
  after w t := match w with
    | ⟨0, _⟩ => blk2 V c 0 t
    | ⟨1, _⟩ => blk2 V c 1 t
    | ⟨2, _⟩ => out2 (blk2 V c 0 t) (blk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = out2 (blk2 V c 0 t) (blk2 V c 1 t) := by dsimp only [dat2]
theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for this call, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.Fr.Run.lean ====
/-
  The whole program as a run: @main is a stretch of host operations (the three format changes and two reshapes), the
  three calls in order, and the final concatenate.  Here: what every unscoped buffer of a core holds at each of the six
  boundaries between these items, as a fold from the launch memory; every call's proof data at its own entry
  contents; the calls and the host stretches as segments of one launch; and the run itself — every weakly fair
  execution terminates with every unscoped buffer at the last boundary's contents.  Each argument array, read back
  through the fold, holds its launch contents.
-/
import proofs.«161488_j35158602285671_1_alg».proof.Proof.Gen.KernelIdeal.Launch
import proofs.«161488_j35158602285671_1_alg».proof.Proof.Gen.KernelIdeal.Skeleton
import proofs.«161488_j35158602285671_1_alg».proof.Proof.Gen.KernelIdeal.Points
import proofs.«161488_j35158602285671_1_alg».proof.Proof.Gen.KernelIdeal.Regions
import proofs.«161488_j35158602285671_1_alg».proof.Proof.Fr.R0
import proofs.«161488_j35158602285671_1_alg».proof.Proof.Fr.R1
import proofs.«161488_j35158602285671_1_alg».proof.Proof.Fr.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => m (c, b)
abbrev E0 : (c : Dev nD) → (b : Ref sig .tc) → Buf (Elt F) ((c : Thread nD τ).loc b) := fun c b => B0 m c b
/-- After the first host stretch (the entry of call 0). -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b

/-- After call 0: its arrays at what the pipeline leaves (the inputs as entered, the output's write-backs folded), every
    other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After call 1: its arrays at what the pipeline leaves (the inputs as entered, the output's write-backs folded), every
    other buffer as entered. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-- After call 2: its arrays at what the pipeline leaves (the inputs as entered, the output's write-backs folded), every
    other buffer as entered. -/
def B4 (c : Dev nD) : Valuation τ sig (Elt F) :=
  Pipeline.withArrays spec2 c (B3 m c) fun w => (dat2 (E3 m) c).arrAt w cfg2.N
theorem B4_arr (c : Dev nD) (w : Fin cfg2.W) :
    B4 m c (Proc.devRef .tc (Pipeline.arrRef spec2 w)) = (dat2 (E3 m) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 m c (Proc.devRef .tc b) = B3 m c (Proc.devRef .tc b) := by
  unfold B4; exact Pipeline.withArrays_of_ne spec2 c _ _ b hb
abbrev E4 : (c : Dev nD) → (b : Ref sig .tc) → Buf (Elt F) ((c : Thread nD τ).loc b) := fun c b => B4 m c b
theorem hF2 (c : Dev nD) (w : Fin cfg2.W) : (dat2 (E3 m) c).arrAt w cfg2.N = E4 m c (Pipeline.arrRef spec2 w) :=
  (B4_arr m c w).symm
theorem hrest2 (c : Dev nD) : ∀ b, b ∉ Finset.univ.image (Pipeline.arrRef spec2) → E4 m c b = E3 m c b :=
  fun b hb => B4_of_ne m c b fun w e => hb (Finset.mem_image.mpr ⟨w, Finset.mem_univ _, e⟩)

/-- After the final host stretch (the concatenate): the end. -/
abbrev B5 : Dev nD → Valuation τ sig (Elt F) := fun c => StableHlo.after hostOps3 (B4 m c)

/-! ## Each argument ends as launched: no host operation and no call writes one -/

theorem B5_main_arg0 (c : Dev nD) : B5 m c (Proc.devRef .tc main_arg0) = m ((c : Thread nD τ).loc main_arg0) :=
  calc B5 m c (Proc.devRef .tc main_arg0)
    _ = B4 m c (Proc.devRef .tc main_arg0) := StableHlo.after_of_writes_sub hostOps3 _ hostOps3_writes (by decide)
    _ = B3 m c (Proc.devRef .tc main_arg0) := B4_of_ne m c main_arg0 (by decide)
    _ = B2 m c (Proc.devRef .tc main_arg0) := B3_of_ne m c main_arg0 (by decide)
    _ = B1 m c (Proc.devRef .tc main_arg0) := B2_of_ne m c main_arg0 (by decide)
    _ = B0 m c (Proc.devRef .tc main_arg0) := StableHlo.after_of_writes_sub hostOps0 _ hostOps0_writes (by decide)
    _ = m ((c : Thread nD τ).loc main_arg0) := rfl
theorem B5_main_arg1 (c : Dev nD) : B5 m c (Proc.devRef .tc main_arg1) = m ((c : Thread nD τ).loc main_arg1) :=
  calc B5 m c (Proc.devRef .tc main_arg1)
    _ = B4 m c (Proc.devRef .tc main_arg1) := StableHlo.after_of_writes_sub hostOps3 _ hostOps3_writes (by decide)
    _ = B3 m c (Proc.devRef .tc main_arg1) := B4_of_ne m c main_arg1 (by decide)
    _ = B2 m c (Proc.devRef .tc main_arg1) := (B3_arr m c 0).trans (((dat1 (E2 m) c).arrAt_in 0 rfl _).trans (A_eq1 (E2 m) c 0))
    _ = B1 m c (Proc.devRef .tc main_arg1) := B2_of_ne m c main_arg1 (by decide)
    _ = B0 m c (Proc.devRef .tc main_arg1) := StableHlo.after_of_writes_sub hostOps0 _ hostOps0_writes (by decide)
    _ = m ((c : Thread nD τ).loc main_arg1) := rfl
theorem B5_main_arg2 (c : Dev nD) : B5 m c (Proc.devRef .tc main_arg2) = m ((c : Thread nD τ).loc main_arg2) :=
  calc B5 m c (Proc.devRef .tc main_arg2)
    _ = B4 m c (Proc.devRef .tc main_arg2) := StableHlo.after_of_writes_sub hostOps3 _ hostOps3_writes (by decide)
    _ = B3 m c (Proc.devRef .tc main_arg2) := (B4_arr m c 1).trans (((dat2 (E3 m) c).arrAt_in 1 rfl _).trans (A_eq2 (E3 m) c 1))
    _ = B2 m c (Proc.devRef .tc main_arg2) := B3_of_ne m c main_arg2 (by decide)
    _ = B1 m c (Proc.devRef .tc main_arg2) := B2_of_ne m c main_arg2 (by decide)
    _ = B0 m c (Proc.devRef .tc main_arg2) := StableHlo.after_of_writes_sub hostOps0 _ hostOps0_writes (by decide)
    _ = m ((c : Thread nD τ).loc main_arg2) := rfl
theorem B5_main_arg3 (c : Dev nD) : B5 m c (Proc.devRef .tc main_arg3) = m ((c : Thread nD τ).loc main_arg3) :=
  calc B5 m c (Proc.devRef .tc main_arg3)
    _ = B4 m c (Proc.devRef .tc main_arg3) := StableHlo.after_of_writes_sub hostOps3 _ hostOps3_writes (by decide)
    _ = B3 m c (Proc.devRef .tc main_arg3) := B4_of_ne m c main_arg3 (by decide)
    _ = B2 m c (Proc.devRef .tc main_arg3) := B3_of_ne m c main_arg3 (by decide)
    _ = B1 m c (Proc.devRef .tc main_arg3) := B2_of_ne m c main_arg3 (by decide)
    _ = B0 m c (Proc.devRef .tc main_arg3) := StableHlo.after_of_writes_sub hostOps0 _ hostOps0_writes (by decide)
    _ = m ((c : Thread nD τ).loc main_arg3) := rfl
theorem B5_main_arg4 (c : Dev nD) : B5 m c (Proc.devRef .tc main_arg4) = m ((c : Thread nD τ).loc main_arg4) :=
  calc B5 m c (Proc.devRef .tc main_arg4)
    _ = B4 m c (Proc.devRef .tc main_arg4) := StableHlo.after_of_writes_sub hostOps3 _ hostOps3_writes (by decide)
    _ = B3 m c (Proc.devRef .tc main_arg4) := B4_of_ne m c main_arg4 (by decide)
    _ = B2 m c (Proc.devRef .tc main_arg4) := B3_of_ne m c main_arg4 (by decide)
    _ = B1 m c (Proc.devRef .tc main_arg4) := B2_of_ne m c main_arg4 (by decide)
    _ = B0 m c (Proc.devRef .tc main_arg4) := StableHlo.after_of_writes_sub hostOps0 _ hostOps0_writes (by decide)
    _ = m ((c : Thread nD τ).loc main_arg4) := rfl
theorem B5_main_arg5 (c : Dev nD) : B5 m c (Proc.devRef .tc main_arg5) = m ((c : Thread nD τ).loc main_arg5) :=
  calc B5 m c (Proc.devRef .tc main_arg5)
    _ = B4 m c (Proc.devRef .tc main_arg5) := StableHlo.after_of_writes_sub hostOps3 _ hostOps3_writes (by decide)
    _ = B3 m c (Proc.devRef .tc main_arg5) := B4_of_ne m c main_arg5 (by decide)
    _ = B2 m c (Proc.devRef .tc main_arg5) := B3_of_ne m c main_arg5 (by decide)
    _ = B1 m c (Proc.devRef .tc main_arg5) := B2_of_ne m c main_arg5 (by decide)
    _ = B0 m c (Proc.devRef .tc main_arg5) := StableHlo.after_of_writes_sub hostOps0 _ hostOps0_writes (by decide)
    _ = m ((c : Thread nD τ).loc main_arg5) := rfl
theorem B5_main_arg6 (c : Dev nD) : B5 m c (Proc.devRef .tc main_arg6) = m ((c : Thread nD τ).loc main_arg6) :=
  calc B5 m c (Proc.devRef .tc main_arg6)
    _ = B4 m c (Proc.devRef .tc main_arg6) := StableHlo.after_of_writes_sub hostOps3 _ hostOps3_writes (by decide)
    _ = B3 m c (Proc.devRef .tc main_arg6) := B4_of_ne m c main_arg6 (by decide)
    _ = B2 m c (Proc.devRef .tc main_arg6) := B3_of_ne m c main_arg6 (by decide)
    _ = B1 m c (Proc.devRef .tc main_arg6) := B2_of_ne m c main_arg6 (by decide)
    _ = B0 m c (Proc.devRef .tc main_arg6) := StableHlo.after_of_writes_sub hostOps0 _ hostOps0_writes (by decide)
    _ = m ((c : Thread nD τ).loc main_arg6) := rfl

/-! ## The proof data family and the thread state -/

/-- Every call's proof data, each at its own entry contents. -/
def pdats : (p : Fin 3) → (c : Dev nD) → Dat τ (Elt F) Unit ℕ (Pipeline.UD sig nD τ) ℕ (Pipeline.pin (pcfgs (F := F)) adm p) c
  | ⟨0, _⟩ => fun c => dat0 (E1 m) c
  | ⟨1, _⟩ => fun c => dat1 (E2 m) c
  | ⟨2, _⟩ => fun c => dat2 (E3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B5 m c) ∗ ∃ r, prngReg c r)

/-! ## The calls as segments -/

set_option backward.isDefEq.respectTransparency.types false in
/-- Call 0 over the thread state: entered with every unscoped buffer at `B1`, left at `B2`: its arrays split
    out of the unscoped buffers and put back at their exit contents; the generator register into the invariant and
    out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans (Q := Pipeline.ΦA spec0 c) ?_ (Phi0_in (E1 m) c)
    unfold Pipeline.ΦA
    iintro ⟨Hp, -, Hr⟩
    isplitl [Hr]; · iexact Hr
    iexact Hp
  hout c := by
    rw [Pipeline.ownSems0_none]
    refine BIBase.Entails.trans (Phi0_out (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at `B2`, left at `B3`: its arrays split
    out of the unscoped buffers and put back at their exit contents; the generator register into the invariant and
    out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(StableHlo.held (c : Thread nD τ) (Pipeline.ucRefs τ sig) (B3 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered with every unscoped buffer at `B3`, left at `B4`: its arrays split
    out of the unscoped buffers and put back at their exit contents; the generator register into the invariant and
    out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ L lv 2 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (E3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (E3 m c) (E4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (B0 m)),
    .region (reg0 m),
    .region (reg1 m),
    .region (reg2 m),
    .host (hseg hostOps3 hostOps3_sub hostOps3_fresh (B4 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun c =>
      (show iprop(StableHlo.held (c : Thread nD τ) (Pipeline.ucRefs τ sig) (B5 m c) ∗ (∃ r, prngReg c r) ∗ ∃ W, owes (c : Thread nD τ) (0 : CellTallies nD τ sig Unit) W)
          ⊢ (iprop((StableHlo.held (c : Thread nD τ) (Pipeline.ucRefs τ sig) (B5 m c) ∗ ∃ r, prngReg c r) ∗ ∃ W, owes (c : Thread nD τ) (0 : CellTallies nD τ sig Unit) W) : sProp 𝕄) from by
        iintro ⟨Hh, Hp, Ho⟩
        isplitl [Hh Hp]
        · isplitl [Hh]; · iexact Hh
          iexact Hp
        iexact Ho)⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (B5_main_arg0 m c),
     (h c _ (mem_uc main_arg1 (by decide))).trans (B5_main_arg1 m c),
     (h c _ (mem_uc main_arg2 (by decide))).trans (B5_main_arg2 m c),
     (h c _ (mem_uc main_arg3 (by decide))).trans (B5_main_arg3 m c),
     (h c _ (mem_uc main_arg4 (by decide))).trans (B5_main_arg4 m c),
     (h c _ (mem_uc main_arg5 (by decide))).trans (B5_main_arg5 m c),
     (h c _ (mem_uc main_arg6 (by decide))).trans (B5_main_arg6 m c)⟩) (run_all m ρ)

end Cert.KernelIdeal.Fr

end
-- ==== Proof.FrB.R0Runs.lean ====
/-
  The embedding call (grid of 4 points over the hidden axis, 1024 hidden units a point).  The body keeps a 128 x 512
  accumulator in a scratch buffer across the points: at the first point it is reset to zero; at every point the
  1024-wide slab of the hidden layer  x . wh_k^T + bh_k  is formed and its product with the slab we_k^T is added to the
  accumulator; at the last point the accumulator plus the output bias is stored into the output block (the output
  window is untouched at the other points).  Here: the body's triple in each of its three cases (first point, middle
  points, last point), what the accumulator and the output block hold after each point, and the pipeline's proof data
  and body obligation at any contents `V` of the core's buffers at the call's entry, the invariant carrying the
  accumulator's contents from point to point.
-/
import proofs.«161488_j35158602285671_1_alg».proof.Proof.Gen.Kernel.Launch
import proofs.«161488_j35158602285671_1_alg».proof.Proof.Gen.Kernel.Skeleton
import proofs.«161488_j35158602285671_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, fetched there or not, for any proof data over `V`
    that leaves it in place (x and the output bias are fetched once: their block index never moves). -/
theorem before0_0_of {c : Dev nD} (dat : Dat τ (Elt F) Unit ℕ (Pipeline.UD sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = blk0 V c 3 t) (t : Fin cfg0.N) (d) : dat.before 3 t d = blk0 V c 3 t :=
  (dat.before_in_eq_fetched 3 rfl (fun _ => rfl) (fun _ _ _ => rfl) (fun t => by rw [hafter]; unfold Dat.blockOf blk0; rw [hA]; try rfl) t d).trans
    (by unfold Dat.fetched Dat.blockOf blk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = blk0 V c 4 t) (t : Fin cfg0.N) (d) : dat.before 4 t d = blk0 V c 4 t :=
  (dat.before_in_eq_fetched 4 rfl (fun _ => rfl) (fun _ _ _ => rfl) (fun t => by rw [hafter]; unfold Dat.blockOf blk0; rw [hA]; try rfl) t d).trans
    (by unfold Dat.fetched Dat.blockOf blk0; rw [hA]; try rfl)

/-! ## The body's two conditions over the grid -/

/-- "This is the first point": the accumulator is reset. -/
abbrev cond0_1 (i : grid0.Coords) : Prop := (Scalar.cmpi .ne (Scalar.extui (Scalar.cmpi .eq (BitVec.ofNat 32 (i 0).val) 0#32)) 0#32) = 1#1
theorem hcond0_1 : ∀ t : Fin cfg0.N, cond0_1 (grid0.coords t) ↔ t.val % 4 = 0 :=
  (by decide +kernel : ∀ t : Fin grid0.N, cond0_1 (grid0.coords t) ↔ t.val % 4 = 0)
/-- "This is the last point": the output block is stored. -/
abbrev cond0_2 (i : grid0.Coords) : Prop := k0_cond2 i = 1#1
theorem hcond0_2 : ∀ t : Fin cfg0.N, cond0_2 (grid0.coords t) ↔ t.val % 4 = 3 :=
  (by decide +kernel : ∀ t : Fin grid0.N, cond0_2 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Before the last point nothing is stored into the output block and it is not written back; -/
theorem idleAt0_5 : ∀ t : Fin cfg0.N, ¬cond0_2 (grid0.coords t) → cfg0.idle 5 (grid0.coords t) = true := by decide +kernel
theorem noFlush0_5 : ∀ t : Fin cfg0.N, ¬cond0_2 (grid0.coords t) → (cfg0.win 5).flush t = false := by decide +kernel
/-- at the last point it is. -/
theorem liveAt0_5 : ∀ t : Fin cfg0.N, cond0_2 (grid0.coords t) → cfg0.idle 5 (grid0.coords t) = false := by decide +kernel

/-! ## The memrefs the body is called with -/

abbrev VO0 : View sig .tc .vmem S128x512 .f32 := (Memref.whole cc0_stg5_0 : Memref sig .tc .vmem S128x512 .f32).view
abbrev ms0_0 (t : Fin cfg0.N) : Memref sig .tc .vmem S128x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x512 .f32 := win0_5.stage (cfg0.slots t 5)
abbrev hs0_5 (t : Fin cfg0.N) : (ms0_5 t).IsWhole := hstage0_5 ((cfg0.slots t 5).cast nbuf0_5)
/-- The accumulator: a whole scoped buffer of the kernel's own. -/
abbrev scM0 : Memref sig .tc .vmem S128x512 .f32 := Memref.whole cc0_scratch0
abbrev VS0 : View sig .tc .vmem S128x512 .f32 := scM0.view

/-- The core's other scoped buffers that are no staging buffer of this call (the later calls' staging buffers), each
    at some contents: the body never names them. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f))

/-- The class invariant, with the accumulator as a memref owned at some contents. -/
theorem PhiA0_eq (c : Dev nD) :
    (Pipeline.ΦA spec0 c : sProp 𝕄)
      = iprop(iprop((∃ d, owns (c : Thread nD τ) scM0 fullShare d) ∗ otherScoped0 c) ∗ (∃ r, prngReg c r)) := by
  unfold Pipeline.ΦA otherScoped0; rw [scopedRest0_eq]; simp only [scM0, owns_whole]; try rfl

/-! ## The body in each case: a subtype the run finds -/

set_option maxHeartbeats 1000000 in
/-- THE FIRST POINT (reset taken, output not stored): the inputs' buffers and the untouched output's handed back as
    they were; the accumulator, entered at anything, left with its pieces written (the reset, then the first slab's
    contribution). -/
noncomputable def kernelRun0_A (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : cond0_1 i) (hc2 : ¬cond0_2 i)
    (x0 : Vec F S128x4096 .bf16) (x1 : Vec F S1024x4096 .bf16) (x2 : Vec F S1x1024 .f32) (x3 : Vec F S512x1024 .bf16) :
    { LS0 : List (View.Piece (Elt F) S128x512 .f32) //
      ∀ (x4 : Vec F S1x512 .f32) (xi5 : Vec F S128x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__mlp_kernel i arg1 harg1 arg2 harg2 arg3 harg3 arg4 harg4 arg5 harg5 arg6 harg6 arg7 harg7) K } := by
  refine ⟨?_, fun x4 xi5 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 1000000 in
/-- A MIDDLE POINT (no reset, output not stored): as above, the accumulator entered at what the point before left. -/
noncomputable def kernelRun0_B (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : ¬cond0_1 i) (hc2 : ¬cond0_2 i)
    (x0 : Vec F S128x4096 .bf16) (x1 : Vec F S1024x4096 .bf16) (x2 : Vec F S1x1024 .f32) (x3 : Vec F S512x1024 .bf16) (xs0 : Vec F S128x512 .f32) :
    { LS0 : List (View.Piece (Elt F) S128x512 .f32) //
      ∀ (x4 : Vec F S1x512 .f32) (xi5 : Vec F S128x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc0__mlp_kernel i arg1 harg1 arg2 harg2 arg3 harg3 arg4 harg4 arg5 harg5 arg6 harg6 arg7 harg7) K } := by
  refine ⟨?_, fun x4 xi5 E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hfs0
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 1000000 in
/-- THE LAST POINT (no reset, output stored): the inputs' buffers handed back as they were; the output's, entered at
    anything, and the accumulator's, entered at what the point before left, left with their pieces written. -/
noncomputable def kernelRun0_C (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : ¬cond0_1 i) (hc2 : cond0_2 i)
    (x0 : Vec F S128x4096 .bf16) (x1 : Vec F S1024x4096 .bf16) (x2 : Vec F S1x1024 .f32) (x3 : Vec F S512x1024 .bf16) (x4 : Vec F S1x512 .f32) (xs0 : Vec F S128x512 .f32) :
    Σ' (L5 : List (View.Piece (Elt F) S128x512 .f32)), { LS0 : List (View.Piece (Elt F) S128x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__mlp_kernel i arg1 harg1 arg2 harg2 arg3 harg3 arg4 harg4 arg5 harg5 arg6 harg6 arg7 harg7) K } := by
  refine ⟨?_, ?_, fun E K => ?run⟩
  case run =>
    simp only [cc0__mlp_kernel_eq_skeleton]; unfold cc0__mlp_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2
    obtain rfl := harg4.eq_unread hf3; obtain rfl := harg5.eq_unread hf4
    obtain rfl := harg7.eq_unread hfs0
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.Fr

end
-- ==== Proof.FrB.R0.lean ====
/-
  The embedding call, continued: what the accumulator and the output block hold after each of the 4 points (the
  accumulation), the invariant that carries the accumulator from point to point, the pipeline's proof data at any
  contents `V` of the core's buffers at the call's entry, and the body obligation point by point.
-/
import proofs.«161488_j35158602285671_1_alg».proof.Proof.Gen.Kernel.Launch
import proofs.«161488_j35158602285671_1_alg».proof.Proof.Gen.Kernel.Skeleton
import proofs.«161488_j35158602285671_1_alg».proof.Proof.Gen.Kernel.Points
import proofs.«161488_j35158602285671_1_alg».proof.Proof.FrB.R0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## What each case leaves: its pieces read back -/

theorem scover0_A (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : cond0_1 i) (hc2 : ¬cond0_2 i) (x0 : Vec F S128x4096 .bf16) (x1 : Vec F S1024x4096 .bf16) (x2 : Vec F S1x1024 .f32) (x3 : Vec F S512x1024 .bf16) (y : S128x512.Idx) :
    ∃ pc ∈ (kernelRun0_A c i arg1 harg1 arg2 harg2 arg3 harg3 arg4 harg4 arg5 harg5 arg6 harg6 arg7 harg7 hc1 hc2 x0 x1 x2 x3).1, y ∈ pc.1.set :=
  View.cover_of_wholeMem (kernelRun0_A c i arg1 harg1 arg2 harg2 arg3 harg3 arg4 harg4 arg5 harg5 arg6 harg6 arg7 harg7 hc1 hc2 x0 x1 x2 x3).1 (by sl_whole_mem) y
/-- The accumulator after the first point. -/
def sout0_A (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : cond0_1 i) (hc2 : ¬cond0_2 i) (x0 : Vec F S128x4096 .bf16) (x1 : Vec F S1024x4096 .bf16) (x2 : Vec F S1x1024 .f32) (x3 : Vec F S512x1024 .bf16) : Vec F S128x512 .f32 :=
  VS0.read (Elt F) (VS0.writes (Elt F) VS0.junk (kernelRun0_A c i arg1 harg1 arg2 harg2 arg3 harg3 arg4 harg4 arg5 harg5 arg6 harg6 arg7 harg7 hc1 hc2 x0 x1 x2 x3).1)

theorem scover0_B (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : ¬cond0_1 i) (hc2 : ¬cond0_2 i) (x0 : Vec F S128x4096 .bf16) (x1 : Vec F S1024x4096 .bf16) (x2 : Vec F S1x1024 .f32) (x3 : Vec F S512x1024 .bf16) (xs0 : Vec F S128x512 .f32) (y : S128x512.Idx) :
    ∃ pc ∈ (kernelRun0_B c i arg1 harg1 arg2 harg2 arg3 harg3 arg4 harg4 arg5 harg5 arg6 harg6 arg7 harg7 hc1 hc2 x0 x1 x2 x3 xs0).1, y ∈ pc.1.set :=
  View.cover_of_wholeMem (kernelRun0_B c i arg1 harg1 arg2 harg2 arg3 harg3 arg4 harg4 arg5 harg5 arg6 harg6 arg7 harg7 hc1 hc2 x0 x1 x2 x3 xs0).1 (by sl_whole_mem) y
/-- The accumulator after a middle point, over what the point before left. -/
def sout0_B (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : ¬cond0_1 i) (hc2 : ¬cond0_2 i) (x0 : Vec F S128x4096 .bf16) (x1 : Vec F S1024x4096 .bf16) (x2 : Vec F S1x1024 .f32) (x3 : Vec F S512x1024 .bf16) (xs0 : Vec F S128x512 .f32) : Vec F S128x512 .f32 :=
  VS0.read (Elt F) (VS0.writes (Elt F) VS0.junk (kernelRun0_B c i arg1 harg1 arg2 harg2 arg3 harg3 arg4 harg4 arg5 harg5 arg6 harg6 arg7 harg7 hc1 hc2 x0 x1 x2 x3 xs0).1)

theorem cover0_C (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : ¬cond0_1 i) (hc2 : cond0_2 i) (x0 : Vec F S128x4096 .bf16) (x1 : Vec F S1024x4096 .bf16) (x2 : Vec F S1x1024 .f32) (x3 : Vec F S512x1024 .bf16) (x4 : Vec F S1x512 .f32) (xs0 : Vec F S128x512 .f32) (y : S128x512.Idx) :
    ∃ pc ∈ (kernelRun0_C c i arg1 harg1 arg2 harg2 arg3 harg3 arg4 harg4 arg5 harg5 arg6 harg6 arg7 harg7 hc1 hc2 x0 x1 x2 x3 x4 xs0).1, y ∈ pc.1.set :=
  View.cover_of_wholeMem (kernelRun0_C c i arg1 harg1 arg2 harg2 arg3 harg3 arg4 harg4 arg5 harg5 arg6 harg6 arg7 harg7 hc1 hc2 x0 x1 x2 x3 x4 xs0).1 (by sl_whole_mem) y
/-- The output block after the last point. -/
def out0_C (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : ¬cond0_1 i) (hc2 : cond0_2 i) (x0 : Vec F S128x4096 .bf16) (x1 : Vec F S1024x4096 .bf16) (x2 : Vec F S1x1024 .f32) (x3 : Vec F S512x1024 .bf16) (x4 : Vec F S1x512 .f32) (xs0 : Vec F S128x512 .f32) : Vec F S128x512 .f32 :=
  VO0.read (Elt F) (VO0.writes (Elt F) VO0.junk (kernelRun0_C c i arg1 harg1 arg2 harg2 arg3 harg3 arg4 harg4 arg5 harg5 arg6 harg6 arg7 harg7 hc1 hc2 x0 x1 x2 x3 x4 xs0).1)
theorem scover0_C (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : ¬cond0_1 i) (hc2 : cond0_2 i) (x0 : Vec F S128x4096 .bf16) (x1 : Vec F S1024x4096 .bf16) (x2 : Vec F S1x1024 .f32) (x3 : Vec F S512x1024 .bf16) (x4 : Vec F S1x512 .f32) (xs0 : Vec F S128x512 .f32) (y : S128x512.Idx) :
    ∃ pc ∈ (kernelRun0_C c i arg1 harg1 arg2 harg2 arg3 harg3 arg4 harg4 arg5 harg5 arg6 harg6 arg7 harg7 hc1 hc2 x0 x1 x2 x3 x4 xs0).2.1, y ∈ pc.1.set :=
  View.cover_of_wholeMem (kernelRun0_C c i arg1 harg1 arg2 harg2 arg3 harg3 arg4 harg4 arg5 harg5 arg6 harg6 arg7 harg7 hc1 hc2 x0 x1 x2 x3 x4 xs0).2.1 (by sl_whole_mem) y
/-- The accumulator after the last point. -/
def sout0_C (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : ¬cond0_1 i) (hc2 : cond0_2 i) (x0 : Vec F S128x4096 .bf16) (x1 : Vec F S1024x4096 .bf16) (x2 : Vec F S1x1024 .f32) (x3 : Vec F S512x1024 .bf16) (x4 : Vec F S1x512 .f32) (xs0 : Vec F S128x512 .f32) : Vec F S128x512 .f32 :=
  VS0.read (Elt F) (VS0.writes (Elt F) VS0.junk (kernelRun0_C c i arg1 harg1 arg2 harg2 arg3 harg3 arg4 harg4 arg5 harg5 arg6 harg6 arg7 harg7 hc1 hc2 x0 x1 x2 x3 x4 xs0).2.1)

/-! ## The accumulation -/

/-- What the output block (first component; a placeholder nothing consults before the last point, where the window
    is idle) and the accumulator (second component) hold after the body at position `n`: the case the position is
    in, run at the point's memrefs and input blocks over what the position before left in the accumulator. -/
def outsAt0 (c : Dev nD) : (n : ℕ) → n < cfg0.N → Vec F S128x512 .f32 × Vec F S128x512 .f32
  | 0, hn => (VO0.read (Elt F) VO0.junk,
      sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0 (Memref.isWhole_whole _) ((hcond0_1 ⟨0, hn⟩).mpr (Nat.zero_mod _)) (fun h => (fun h => by (try dsimp only at h); omega) ((hcond0_2 ⟨0, hn⟩).mp h)) (blk0 V c 0 ⟨0, hn⟩) (blk0 V c 1 ⟨0, hn⟩) (blk0 V c 2 ⟨0, hn⟩) (blk0 V c 3 ⟨0, hn⟩))
  | n + 1, hn =>
    if h3 : (n + 1) % 4 = 3 then
      (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => by have h' := (hcond0_1 ⟨n + 1, hn⟩).mp h; (try dsimp only at h'); omega) ((hcond0_2 ⟨n + 1, hn⟩).mpr h3) (blk0 V c 0 ⟨n + 1, hn⟩) (blk0 V c 1 ⟨n + 1, hn⟩) (blk0 V c 2 ⟨n + 1, hn⟩) (blk0 V c 3 ⟨n + 1, hn⟩) (blk0 V c 4 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => by have h' := (hcond0_1 ⟨n + 1, hn⟩).mp h; (try dsimp only at h'); omega) ((hcond0_2 ⟨n + 1, hn⟩).mpr h3) (blk0 V c 0 ⟨n + 1, hn⟩) (blk0 V c 1 ⟨n + 1, hn⟩) (blk0 V c 2 ⟨n + 1, hn⟩) (blk0 V c 3 ⟨n + 1, hn⟩) (blk0 V c 4 ⟨n + 1, hn⟩) (outsAt0 c n (Nat.lt_of_succ_lt hn)).2)
    else
      (VO0.read (Elt F) VO0.junk,
       sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0 (Memref.isWhole_whole _) (fun h => by have h' := (hcond0_1 ⟨n + 1, hn⟩).mp h; have hN : n + 1 < 4 := lt_of_lt_of_eq hn (show cfg0.N = 4 from N_0); (try dsimp only at h'); omega) (fun h => h3 ((hcond0_2 ⟨n + 1, hn⟩).mp h)) (blk0 V c 0 ⟨n + 1, hn⟩) (blk0 V c 1 ⟨n + 1, hn⟩) (blk0 V c 2 ⟨n + 1, hn⟩) (blk0 V c 3 ⟨n + 1, hn⟩) (outsAt0 c n (Nat.lt_of_succ_lt hn)).2)

theorem outsAt0_A (c : Dev nD) (t : Fin cfg0.N) (h0 : t.val % 4 = 0) (h3 : ¬t.val % 4 = 3) :
    outsAt0 V c t.val t.isLt = (VO0.read (Elt F) VO0.junk,
      sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_1 t).mpr h0) (fun h => h3 ((hcond0_2 t).mp h)) (blk0 V c 0 t) (blk0 V c 1 t) (blk0 V c 2 t) (blk0 V c 3 t)) := by
  obtain ⟨n, hn⟩ := t
  cases n with
  | zero => exact rfl
  | succ n => exact (by exfalso; have hN : n + 1 < 4 := lt_of_lt_of_eq hn (show cfg0.N = 4 from N_0); (try dsimp only at h0); omega)

theorem outsAt0_B (c : Dev nD) (t : Fin cfg0.N) (h0 : ¬t.val % 4 = 0) (h3 : ¬t.val % 4 = 3) :
    outsAt0 V c t.val t.isLt = (VO0.read (Elt F) VO0.junk,
      sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_1 t).mp h)) (fun h => h3 ((hcond0_2 t).mp h)) (blk0 V c 0 t) (blk0 V c 1 t) (blk0 V c 2 t) (blk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h3).trans rfl

theorem outsAt0_C (c : Dev nD) (t : Fin cfg0.N) (h0 : ¬t.val % 4 = 0) (h3 : t.val % 4 = 3) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_1 t).mp h)) ((hcond0_2 t).mpr h3) (blk0 V c 0 t) (blk0 V c 1 t) (blk0 V c 2 t) (blk0 V c 3 t) (blk0 V c 4 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_1 t).mp h)) ((hcond0_2 t).mpr h3) (blk0 V c 0 t) (blk0 V c 1 t) (blk0 V c 2 t) (blk0 V c 3 t) (blk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h3).trans rfl

/-! ## The invariant -/

/-- Before position `n`: before the first point the class's (the accumulator at anything); afterwards the accumulator
    at what the point before left, the other scoped buffers and the generator register as they were. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ otherScoped0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2) ∗ otherScoped0 c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2) ∗ otherScoped0 c) ∗ (∃ r, prngReg c r)) := by
  cases n with
  | zero => exact absurd rfl hz
  | succ n => rfl

/-! ## The proof data -/

def dat0 (c : Dev nD) : Dat τ (Elt F) Unit ℕ (Pipeline.UD sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = blk0 V c 2 t := by dsimp only [dat0]
theorem after0_3 (c : Dev nD) (t : Fin cfg0.N) : (dat0 V c).after 3 t = blk0 V c 3 t := by dsimp only [dat0]
theorem after0_4 (c : Dev nD) (t : Fin cfg0.N) : (dat0 V c).after 4 t = blk0 V c 4 t := by dsimp only [dat0]
theorem after0_5 (c : Dev nD) (t : Fin cfg0.N) : (dat0 V c).after 5 t = (outsAt0 V c t.val t.isLt).1 := by dsimp only [dat0]
theorem before0_0 (c : Dev nD) (t : Fin cfg0.N) (d) : (dat0 V c).before 0 t d = blk0 V c 0 t :=
  before0_0_of V (dat0 V c) (A_eq0 V c 0) (after0_0 V c) t d
theorem before0_1 (c : Dev nD) (t : Fin cfg0.N) (d) : (dat0 V c).before 1 t d = blk0 V c 1 t :=
  before0_1_of V (dat0 V c) (A_eq0 V c 1) (after0_1 V c) t d
theorem before0_2 (c : Dev nD) (t : Fin cfg0.N) (d) : (dat0 V c).before 2 t d = blk0 V c 2 t :=
  before0_2_of V (dat0 V c) (A_eq0 V c 2) (after0_2 V c) t d
theorem before0_3 (c : Dev nD) (t : Fin cfg0.N) (d) : (dat0 V c).before 3 t d = blk0 V c 3 t :=
  before0_3_of V (dat0 V c) (A_eq0 V c 3) (after0_3 V c) t d
theorem before0_4 (c : Dev nD) (t : Fin cfg0.N) (d) : (dat0 V c).before 4 t d = blk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks; the position says which case the point is in; the
    invariant hands the body the accumulator (at anything at the first point, else at what the point before left) and
    takes it back at this point's contents; before the last point the output's buffer goes in and comes back untouched;
    the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 4 := lt_of_lt_of_eq t.isLt (show cfg0.N = 4 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 4 = 0
  · have h3 : ¬t.val % 4 = 3 := by omega
    have hz : t.val = 0 := by omega
    rw [Dat.leavesExact_idle (dat0 V c) 5 t (idleAt0_5 t (fun h => h3 ((hcond0_2 t).mp h))) (noFlush0_5 t (fun h => h3 ((hcond0_2 t).mp h)))]
    rw [outsAt0_A V c t h0 h3]
    unfold sout0_A; (try dsimp only)
    rw [PhiS_castSucc V c t, PhiS_zero V c _ _ hz, PhiA0_eq]
    iintro ⟨⟨⟨HS0, HR⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_1 t).mpr h0) (fun h => h3 ((hcond0_2 t).mp h)) (blk0 V c 0 t) (blk0 V c 1 t) (blk0 V c 2 t) (blk0 V c 3 t)).2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_1 t).mpr h0) (fun h => h3 ((hcond0_2 t).mp h)) (blk0 V c 0 t) (blk0 V c 1 t) (blk0 V c 2 t) (blk0 V c 3 t))
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := by omega
    by_cases h3 : t.val % 4 = 3
    · rw [show (dat0 V c).leavesExact 5 t = owns (c : Thread nD τ) (ms0_5 t) fullShare ((dat0 V c).after 5 t) from by
        unfold Dat.leavesExact; rw [liveAt0_5 t ((hcond0_2 t).mpr h3)], after0_5]
      rw [outsAt0_C V c t h0 h3]
      unfold out0_C sout0_C; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_1 t).mp h)) ((hcond0_2 t).mpr h3) (blk0 V c 0 t) (blk0 V c 1 t) (blk0 V c 2 t) (blk0 V c 3 t) (blk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_1 t).mp h)) ((hcond0_2 t).mpr h3) (blk0 V c 0 t) (blk0 V c 1 t) (blk0 V c 2 t) (blk0 V c 3 t) (blk0 V c 4 t) _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_1 t).mp h)) ((hcond0_2 t).mpr h3) (blk0 V c 0 t) (blk0 V c 1 t) (blk0 V c 2 t) (blk0 V c 3 t) (blk0 V c 4 t) _)
    · rw [Dat.leavesExact_idle (dat0 V c) 5 t (idleAt0_5 t (fun h => h3 ((hcond0_2 t).mp h))) (noFlush0_5 t (fun h => h3 ((hcond0_2 t).mp h)))]
      rw [outsAt0_B V c t h0 h3]
      unfold sout0_B; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_1 t).mp h)) (fun h => h3 ((hcond0_2 t).mp h)) (blk0 V c 0 t) (blk0 V c 1 t) (blk0 V c 2 t) (blk0 V c 3 t) _).2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_1 t).mp h)) (fun h => h3 ((hcond0_2 t).mp h)) (blk0 V c 0 t) (blk0 V c 1 t) (blk0 V c 2 t) (blk0 V c 3 t) _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline's body obligation for this call, at every point. -/
theorem body_obligation0 (c : Dev nD) : BodyObligation (dat0 (F := F) V c) (defs₀ (F := F)) Variants.none () Set.univ := fun t => by
  rw [bigSep_W0, bigSep_W0]
  exact sound_body0 V c t

/-- What the call is entered with is the invariant before the first point, -/
theorem Phi0_in (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- and after the last point the invariant gives it back, the accumulator's contents forgotten. -/
theorem Phi0_out (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 4 := N_0; omega), PhiA0_eq]
  iintro ⟨⟨HS0, HR⟩, Hg⟩
  isplitl [HS0 HR]
  · isplitl [HS0]; · iexists _; iexact HS0
    iexact HR
  iexact Hg

end Cert.Kernel.Fr

end
-- ==== Proof.FrB.R1.lean ====
/-
  The positive-score call (one grid point): rows p and e of 128 x 512 come in whole, and the body leaves in its
  128 x 1 output block, row by row, 0 - sqrt (sum_k (max (p - e) 0)^2).  Here: that block as a function of the two
  input blocks, the body's triple, and the pipeline's proof data at any contents `V` of the core's buffers at the
  call's entry (inputs left in place, the output block stored whole, nothing carried between points).
-/
import proofs.«161488_j35158602285671_1_alg».proof.Proof.Gen.Kernel.Launch
import proofs.«161488_j35158602285671_1_alg».proof.Proof.Gen.Kernel.Skeleton
import proofs.«161488_j35158602285671_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, for any proof data over `V` that leaves it in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The whole 128 x 512 rectangle the body loads, and the whole 128 x 1 rectangle it stores. -/
abbrev rIn1 : Rect S128x512 := Rect.unit (s := S128x512) ![0, 0] S128x512.size inb_S128x512_S128x512_0_0
abbrev rOut1 : Rect S128x1 := Rect.unit (s := S128x1) ![0, 0] S128x1.size inb_S128x1_S128x1_0_0

/-- What the body leaves in the output block, from the two input blocks: its one store, of the row scores. -/
def out1 (x0 x1 : Vec F S128x512 .f32) : Vec F S128x1 .f32 :=
  View.canon [⟨rOut1, k1_pay1 (View.ld x0 rIn1) (View.ld x1 rIn1)⟩]

/-- The one store covers the block. -/
theorem cover1 (p0 : Vec F S128x1 .f32) (y : S128x1.Idx) :
    ∃ pc ∈ ([⟨rOut1, p0⟩] : List (View.Piece (Elt F) S128x1 .f32)), y ∈ pc.1.set :=
  View.cover_of_tiled [⟨rOut1, p0⟩] S128x1.size (by rfl) y

set_option maxHeartbeats 1000000 in
/-- The body on whole staging memrefs: the inputs' kept, the output's at `out1` of them. -/
theorem sound_kernel1 (c : Dev nD) (E : Set ℕ) (i : grid1.Coords) (arg1 : Memref sig .tc .vmem S128x512 .f32) (harg1 : arg1.IsWhole) (arg2 : Memref sig .tc .vmem S128x512 .f32) (harg2 : arg2.IsWhole) (arg3 : Memref sig .tc .vmem S128x1 .f32) (harg3 : arg3.IsWhole)
    (x0 x1 : Vec F S128x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1 x0 x1)) -∗ K ⟨⟩))
      ⊢ wp frame (wpE (defs₀ (F := F)) Variants.none c none) E (cc1__pos_kernel i arg1 harg1 arg2 harg2 arg3 harg3) K := by
  simp only [cc1__pos_kernel_eq_skeleton]; unfold cc1__pos_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-- The call's proof data on core `c`: arrays as found; after the body the inputs' buffers at their blocks and the
    output's at `out1` of them; the invariant the scoped rest and the generator register, untouched. -/
def dat1 (c : Dev nD) : Dat τ (Elt F) Unit ℕ (Pipeline.UD sig nD τ) ℕ cfg1 c where
  A w := V c (Pipeline.arrRef spec1 w)
  after w t := match w with
    | ⟨0, _⟩ => blk1 V c 0 t
    | ⟨1, _⟩ => blk1 V c 1 t
    | ⟨2, _⟩ => out1 (blk1 V c 0 t) (blk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = out1 (blk1 V c 0 t) (blk1 V c 1 t) := by dsimp only [dat1]
theorem before1_0 (c : Dev nD) (t : Fin cfg1.N) (d) : (dat1 V c).before 0 t d = blk1 V c 0 t :=
  before1_0_of V (dat1 V c) (A_eq1 V c 0) (after1_0 V c) t d
theorem before1_1 (c : Dev nD) (t : Fin cfg1.N) (d) : (dat1 V c).before 1 t d = blk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for this call, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.FrB.R2.lean ====
/-
  The negative-score call (grid 8 x 16): at point (i, j) a 16 x 512 block q of the embeddings and a 128 x 512 block n
  of the negatives come in, and the body leaves in its 16 x 128 output block, at (a, b),
  0 - sqrt (sum_k (max (n b k - q a k) 0)^2).  Here: that block as a function of the two input blocks, the body's
  triple, and the pipeline's proof data at any contents `V` of the core's buffers at the call's entry.
-/
import proofs.«161488_j35158602285671_1_alg».proof.Proof.Gen.Kernel.Launch
import proofs.«161488_j35158602285671_1_alg».proof.Proof.Gen.Kernel.Skeleton
import proofs.«161488_j35158602285671_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's staging buffer holds its block at every point, fetched there or not (the embeddings' block is fetched
    once per row of the grid and its index does not move in between). -/
theorem before2_0_of {c : Dev nD} (dat : Dat τ (Elt F) Unit ℕ (Pipeline.UD sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The whole rectangles the body loads and stores. -/
abbrev rQ2 : Rect S16x512 := Rect.unit (s := S16x512) ![0, 0] S16x512.size inb_S16x512_S16x512_0_0
abbrev rN2 : Rect S128x512 := Rect.unit (s := S128x512) ![0, 0] S128x512.size inb_S128x512_S128x512_0_0
abbrev rOut2 : Rect S16x128 := Rect.unit (s := S16x128) ![0, 0] S16x128.size inb_S16x128_S16x128_0_0

/-- What the body leaves in the output block, from the two input blocks: its one store, of the 16 x 128 scores. -/
def out2 (x0 : Vec F S16x512 .f32) (x1 : Vec F S128x512 .f32) : Vec F S16x128 .f32 :=
  View.canon [⟨rOut2, k2_pay1 (View.ld x0 rQ2) (View.ld x1 rN2)⟩]

/-- The one store covers the block. -/
theorem cover2 (p0 : Vec F S16x128 .f32) (y : S16x128.Idx) :
    ∃ pc ∈ ([⟨rOut2, p0⟩] : List (View.Piece (Elt F) S16x128 .f32)), y ∈ pc.1.set :=
  View.cover_of_tiled [⟨rOut2, p0⟩] S16x128.size (by rfl) y

set_option maxHeartbeats 1000000 in
/-- The body on whole staging memrefs: the inputs' kept, the output's at `out2` of them. -/
theorem sound_kernel2 (c : Dev nD) (E : Set ℕ) (i : grid2.Coords) (arg2 : Memref sig .tc .vmem S16x512 .f32) (harg2 : arg2.IsWhole) (arg3 : Memref sig .tc .vmem S128x512 .f32) (harg3 : arg3.IsWhole) (arg4 : Memref sig .tc .vmem S16x128 .f32) (harg4 : arg4.IsWhole)
    (x0 : Vec F S16x512 .f32) (x1 : Vec F S128x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2 x0 x1)) -∗ K ⟨⟩))
      ⊢ wp frame (wpE (defs₀ (F := F)) Variants.none c none) E (cc2__neg_kernel i arg2 harg2 arg3 harg3 arg4 harg4) K := by
  simp only [cc2__neg_kernel_eq_skeleton]; unfold cc2__neg_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-- The call's proof data on core `c`: arrays as found; after the body the inputs' buffers at their blocks and the
    output's at `out2` of them; the invariant the scoped rest and the generator register, untouched. -/
def dat2 (c : Dev nD) : Dat τ (Elt F) Unit ℕ (Pipeline.UD sig nD τ) ℕ cfg2 c where
  A w := V c (Pipeline.arrRef spec2 w)
  after w t := match w with
    | ⟨0, _⟩ => blk2 V c 0 t
    | ⟨1, _⟩ => blk2 V c 1 t
    | ⟨2, _⟩ => out2 (blk2 V c 0 t) (blk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = out2 (blk2 V c 0 t) (blk2 V c 1 t) := by dsimp only [dat2]
theorem before2_0 (c : Dev nD) (t : Fin cfg2.N) (d) : (dat2 V c).before 0 t d = blk2 V c 0 t :=
  before2_0_of V (dat2 V c) (A_eq2 V c 0) (after2_0 V c) t d
theorem before2_1 (c : Dev nD) (t : Fin cfg2.N) (d) : (dat2 V c).before 1 t d = blk2 V c 1 t :=
  before2_1_of V (dat2 V c) (A_eq2 V c 1) (after2_1 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation for this call, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.FrB.Run.lean ====
/-
  The whole program as a run: @main is a stretch of host operations (the three format changes and two reshapes), the
  three calls in order, and the final concatenate.  Here: what every unscoped buffer of a core holds at each of the six
  boundaries between these items, as a fold from the launch memory; every call's proof data at its own entry
  contents; the calls and the host stretches as segments of one launch; and the run itself — every weakly fair
  execution terminates with every unscoped buffer at the last boundary's contents.  Each argument array, read back
  through the fold, holds its launch contents.
-/
import proofs.«161488_j35158602285671_1_alg».proof.Proof.Gen.Kernel.Launch
import proofs.«161488_j35158602285671_1_alg».proof.Proof.Gen.Kernel.Skeleton
import proofs.«161488_j35158602285671_1_alg».proof.Proof.Gen.Kernel.Points
import proofs.«161488_j35158602285671_1_alg».proof.Proof.Gen.Kernel.Regions
import proofs.«161488_j35158602285671_1_alg».proof.Proof.FrB.R0
import proofs.«161488_j35158602285671_1_alg».proof.Proof.FrB.R1
import proofs.«161488_j35158602285671_1_alg».proof.Proof.FrB.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- At launch. -/
abbrev B0 : Dev nD → Valuation τ sig (Elt F) := fun c b => m (c, b)
abbrev E0 : (c : Dev nD) → (b : Ref sig .tc) → Buf (Elt F) ((c : Thread nD τ).loc b) := fun c b => B0 m c b
/-- After the first host stretch (the entry of call 0). -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b

/-- After call 0: its arrays at what the pipeline leaves (the inputs as entered, the output's write-backs folded), every
    other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After call 1: its arrays at what the pipeline leaves (the inputs as entered, the output's write-backs folded), every
    other buffer as entered. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-- After call 2: its arrays at what the pipeline leaves (the inputs as entered, the output's write-backs folded), every
    other buffer as entered. -/
def B4 (c : Dev nD) : Valuation τ sig (Elt F) :=
  Pipeline.withArrays spec2 c (B3 m c) fun w => (dat2 (E3 m) c).arrAt w cfg2.N
theorem B4_arr (c : Dev nD) (w : Fin cfg2.W) :
    B4 m c (Proc.devRef .tc (Pipeline.arrRef spec2 w)) = (dat2 (E3 m) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 m c (Proc.devRef .tc b) = B3 m c (Proc.devRef .tc b) := by
  unfold B4; exact Pipeline.withArrays_of_ne spec2 c _ _ b hb
abbrev E4 : (c : Dev nD) → (b : Ref sig .tc) → Buf (Elt F) ((c : Thread nD τ).loc b) := fun c b => B4 m c b
theorem hF2 (c : Dev nD) (w : Fin cfg2.W) : (dat2 (E3 m) c).arrAt w cfg2.N = E4 m c (Pipeline.arrRef spec2 w) :=
  (B4_arr m c w).symm
theorem hrest2 (c : Dev nD) : ∀ b, b ∉ Finset.univ.image (Pipeline.arrRef spec2) → E4 m c b = E3 m c b :=
  fun b hb => B4_of_ne m c b fun w e => hb (Finset.mem_image.mpr ⟨w, Finset.mem_univ _, e⟩)

/-- After the final host stretch (the concatenate): the end. -/
abbrev B5 : Dev nD → Valuation τ sig (Elt F) := fun c => StableHlo.after hostOps3 (B4 m c)

/-! ## Each argument ends as launched: no host operation and no call writes one -/

theorem B5_main_arg0 (c : Dev nD) : B5 m c (Proc.devRef .tc main_arg0) = m ((c : Thread nD τ).loc main_arg0) :=
  calc B5 m c (Proc.devRef .tc main_arg0)
    _ = B4 m c (Proc.devRef .tc main_arg0) := StableHlo.after_of_writes_sub hostOps3 _ hostOps3_writes (by decide)
    _ = B3 m c (Proc.devRef .tc main_arg0) := B4_of_ne m c main_arg0 (by decide)
    _ = B2 m c (Proc.devRef .tc main_arg0) := B3_of_ne m c main_arg0 (by decide)
    _ = B1 m c (Proc.devRef .tc main_arg0) := B2_of_ne m c main_arg0 (by decide)
    _ = B0 m c (Proc.devRef .tc main_arg0) := StableHlo.after_of_writes_sub hostOps0 _ hostOps0_writes (by decide)
    _ = m ((c : Thread nD τ).loc main_arg0) := rfl
theorem B5_main_arg1 (c : Dev nD) : B5 m c (Proc.devRef .tc main_arg1) = m ((c : Thread nD τ).loc main_arg1) :=
  calc B5 m c (Proc.devRef .tc main_arg1)
    _ = B4 m c (Proc.devRef .tc main_arg1) := StableHlo.after_of_writes_sub hostOps3 _ hostOps3_writes (by decide)
    _ = B3 m c (Proc.devRef .tc main_arg1) := B4_of_ne m c main_arg1 (by decide)
    _ = B2 m c (Proc.devRef .tc main_arg1) := (B3_arr m c 0).trans (((dat1 (E2 m) c).arrAt_in 0 rfl _).trans (A_eq1 (E2 m) c 0))
    _ = B1 m c (Proc.devRef .tc main_arg1) := B2_of_ne m c main_arg1 (by decide)
    _ = B0 m c (Proc.devRef .tc main_arg1) := StableHlo.after_of_writes_sub hostOps0 _ hostOps0_writes (by decide)
    _ = m ((c : Thread nD τ).loc main_arg1) := rfl
theorem B5_main_arg2 (c : Dev nD) : B5 m c (Proc.devRef .tc main_arg2) = m ((c : Thread nD τ).loc main_arg2) :=
  calc B5 m c (Proc.devRef .tc main_arg2)
    _ = B4 m c (Proc.devRef .tc main_arg2) := StableHlo.after_of_writes_sub hostOps3 _ hostOps3_writes (by decide)
    _ = B3 m c (Proc.devRef .tc main_arg2) := (B4_arr m c 1).trans (((dat2 (E3 m) c).arrAt_in 1 rfl _).trans (A_eq2 (E3 m) c 1))
    _ = B2 m c (Proc.devRef .tc main_arg2) := B3_of_ne m c main_arg2 (by decide)
    _ = B1 m c (Proc.devRef .tc main_arg2) := B2_of_ne m c main_arg2 (by decide)
    _ = B0 m c (Proc.devRef .tc main_arg2) := StableHlo.after_of_writes_sub hostOps0 _ hostOps0_writes (by decide)
    _ = m ((c : Thread nD τ).loc main_arg2) := rfl
theorem B5_main_arg3 (c : Dev nD) : B5 m c (Proc.devRef .tc main_arg3) = m ((c : Thread nD τ).loc main_arg3) :=
  calc B5 m c (Proc.devRef .tc main_arg3)
    _ = B4 m c (Proc.devRef .tc main_arg3) := StableHlo.after_of_writes_sub hostOps3 _ hostOps3_writes (by decide)
    _ = B3 m c (Proc.devRef .tc main_arg3) := B4_of_ne m c main_arg3 (by decide)
    _ = B2 m c (Proc.devRef .tc main_arg3) := B3_of_ne m c main_arg3 (by decide)
    _ = B1 m c (Proc.devRef .tc main_arg3) := B2_of_ne m c main_arg3 (by decide)
    _ = B0 m c (Proc.devRef .tc main_arg3) := StableHlo.after_of_writes_sub hostOps0 _ hostOps0_writes (by decide)
    _ = m ((c : Thread nD τ).loc main_arg3) := rfl
theorem B5_main_arg4 (c : Dev nD) : B5 m c (Proc.devRef .tc main_arg4) = m ((c : Thread nD τ).loc main_arg4) :=
  calc B5 m c (Proc.devRef .tc main_arg4)
    _ = B4 m c (Proc.devRef .tc main_arg4) := StableHlo.after_of_writes_sub hostOps3 _ hostOps3_writes (by decide)
    _ = B3 m c (Proc.devRef .tc main_arg4) := B4_of_ne m c main_arg4 (by decide)
    _ = B2 m c (Proc.devRef .tc main_arg4) := B3_of_ne m c main_arg4 (by decide)
    _ = B1 m c (Proc.devRef .tc main_arg4) := B2_of_ne m c main_arg4 (by decide)
    _ = B0 m c (Proc.devRef .tc main_arg4) := StableHlo.after_of_writes_sub hostOps0 _ hostOps0_writes (by decide)
    _ = m ((c : Thread nD τ).loc main_arg4) := rfl
theorem B5_main_arg5 (c : Dev nD) : B5 m c (Proc.devRef .tc main_arg5) = m ((c : Thread nD τ).loc main_arg5) :=
  calc B5 m c (Proc.devRef .tc main_arg5)
    _ = B4 m c (Proc.devRef .tc main_arg5) := StableHlo.after_of_writes_sub hostOps3 _ hostOps3_writes (by decide)
    _ = B3 m c (Proc.devRef .tc main_arg5) := B4_of_ne m c main_arg5 (by decide)
    _ = B2 m c (Proc.devRef .tc main_arg5) := B3_of_ne m c main_arg5 (by decide)
    _ = B1 m c (Proc.devRef .tc main_arg5) := B2_of_ne m c main_arg5 (by decide)
    _ = B0 m c (Proc.devRef .tc main_arg5) := StableHlo.after_of_writes_sub hostOps0 _ hostOps0_writes (by decide)
    _ = m ((c : Thread nD τ).loc main_arg5) := rfl
theorem B5_main_arg6 (c : Dev nD) : B5 m c (Proc.devRef .tc main_arg6) = m ((c : Thread nD τ).loc main_arg6) :=
  calc B5 m c (Proc.devRef .tc main_arg6)
    _ = B4 m c (Proc.devRef .tc main_arg6) := StableHlo.after_of_writes_sub hostOps3 _ hostOps3_writes (by decide)
    _ = B3 m c (Proc.devRef .tc main_arg6) := B4_of_ne m c main_arg6 (by decide)
    _ = B2 m c (Proc.devRef .tc main_arg6) := B3_of_ne m c main_arg6 (by decide)
    _ = B1 m c (Proc.devRef .tc main_arg6) := B2_of_ne m c main_arg6 (by decide)
    _ = B0 m c (Proc.devRef .tc main_arg6) := StableHlo.after_of_writes_sub hostOps0 _ hostOps0_writes (by decide)
    _ = m ((c : Thread nD τ).loc main_arg6) := rfl

/-! ## The proof data family and the thread state -/

/-- Every call's proof data, each at its own entry contents. -/
def pdats : (p : Fin 3) → (c : Dev nD) → Dat τ (Elt F) Unit ℕ (Pipeline.UD sig nD τ) ℕ (Pipeline.pin (pcfgs (F := F)) adm p) c
  | ⟨0, _⟩ => fun c => dat0 (E1 m) c
  | ⟨1, _⟩ => fun c => dat1 (E2 m) c
  | ⟨2, _⟩ => fun c => dat2 (E3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B5 m c) ∗ ∃ r, prngReg c r)

/-! ## The calls as segments -/

set_option backward.isDefEq.respectTransparency.types false in
/-- Call 0 over the thread state: entered with every unscoped buffer at `B1`, left at `B2`: its arrays split
    out of the unscoped buffers and put back at their exit contents; the generator register into the invariant and
    out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans (Q := Pipeline.ΦA spec0 c) ?_ (Phi0_in (E1 m) c)
    unfold Pipeline.ΦA
    iintro ⟨Hp, -, Hr⟩
    isplitl [Hr]; · iexact Hr
    iexact Hp
  hout c := by
    rw [Pipeline.ownSems0_none]
    refine BIBase.Entails.trans (Phi0_out (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at `B2`, left at `B3`: its arrays split
    out of the unscoped buffers and put back at their exit contents; the generator register into the invariant and
    out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(StableHlo.held (c : Thread nD τ) (Pipeline.ucRefs τ sig) (B3 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered with every unscoped buffer at `B3`, left at `B4`: its arrays split
    out of the unscoped buffers and put back at their exit contents; the generator register into the invariant and
    out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ L lv 2 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (E3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (E3 m c) (E4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (B0 m)),
    .region (reg0 m),
    .region (reg1 m),
    .region (reg2 m),
    .host (hseg hostOps3 hostOps3_sub hostOps3_fresh (B4 m)) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun c =>
      (show iprop(StableHlo.held (c : Thread nD τ) (Pipeline.ucRefs τ sig) (B5 m c) ∗ (∃ r, prngReg c r) ∗ ∃ W, owes (c : Thread nD τ) (0 : CellTallies nD τ sig Unit) W)
          ⊢ (iprop((StableHlo.held (c : Thread nD τ) (Pipeline.ucRefs τ sig) (B5 m c) ∗ ∃ r, prngReg c r) ∗ ∃ W, owes (c : Thread nD τ) (0 : CellTallies nD τ sig Unit) W) : sProp 𝕄) from by
        iintro ⟨Hh, Hp, Ho⟩
        isplitl [Hh Hp]
        · isplitl [Hh]; · iexact Hh
          iexact Hp
        iexact Ho)⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (B5_main_arg0 m c),
     (h c _ (mem_uc main_arg1 (by decide))).trans (B5_main_arg1 m c),
     (h c _ (mem_uc main_arg2 (by decide))).trans (B5_main_arg2 m c),
     (h c _ (mem_uc main_arg3 (by decide))).trans (B5_main_arg3 m c),
     (h c _ (mem_uc main_arg4 (by decide))).trans (B5_main_arg4 m c),
     (h c _ (mem_uc main_arg5 (by decide))).trans (B5_main_arg5 m c),
     (h c _ (mem_uc main_arg6 (by decide))).trans (B5_main_arg6 m c)⟩) (run_all m ρ)

end Cert.Kernel.Fr

end
-- ==== Proof.Val.Spec.lean ====
/-
  What the program computes, as plain functions of arrays over the extended reals.

  * the embedding: for a batch row b and an output feature e,
        emb b e = (sum_h ((sum_j x b j * wh h j) + bh 0 h) * we e h) + be 0 e
    (two affine layers with no nonlinearity between them; wh is 4096 x 4096, we is 512 x 4096, both indexed
    [output, input]);
  * the positive score of row b against its own target p:  - sqrt (sum_k (max (p b k - emb b k) 0)^2);
  * the negative score of row b against negative s:        - sqrt (sum_k (max (n s k - emb b k) 0)^2).
  The result array is the positive score in column 0 followed by the 2048 negative scores.
-/
import Idealize.ShloMosaic.PureOps.Ideal
import Idealize.ShloMosaic.Lib.ValueIdx

noncomputable section

namespace Cert.Spec

open Idealize.ShloMosaic Idealize.ShloMosaic.ValueIdx

abbrev T128x4096 : Shape := ⟨2, ![128, 4096]⟩
abbrev T4096x4096 : Shape := ⟨2, ![4096, 4096]⟩
abbrev T1x4096 : Shape := ⟨2, ![1, 4096]⟩
abbrev T512x4096 : Shape := ⟨2, ![512, 4096]⟩
abbrev T1x512 : Shape := ⟨2, ![1, 512]⟩
abbrev T128x512 : Shape := ⟨2, ![128, 512]⟩
abbrev T2048x512 : Shape := ⟨2, ![2048, 512]⟩
abbrev T128x1 : Shape := ⟨2, ![128, 1]⟩
abbrev T128x2048 : Shape := ⟨2, ![128, 2048]⟩

/-- The hidden layer at (b, h): the row of x against row h of wh, plus the bias. -/
def hiddenAt (x : T128x4096.Idx → EReal) (wh : T4096x4096.Idx → EReal) (bh : T1x4096.Idx → EReal)
    (b : Fin 128) (h : Fin 4096) : EReal :=
  (∑ j : Fin 4096, x (ix2 b j) * wh (ix2 h j)) + bh (ix2 (0 : Fin 1) h)

/-- The embedding at (b, e): the hidden row against row e of we, plus the bias. -/
def embAt (x : T128x4096.Idx → EReal) (wh : T4096x4096.Idx → EReal) (bh : T1x4096.Idx → EReal)
    (we : T512x4096.Idx → EReal) (be : T1x512.Idx → EReal) (b : Fin 128) (e : Fin 512) : EReal :=
  (∑ h : Fin 4096, hiddenAt x wh bh b h * we (ix2 e h)) + be (ix2 (0 : Fin 1) e)

/-- The embedding as an array. -/
def embSpec (x : T128x4096.Idx → EReal) (wh : T4096x4096.Idx → EReal) (bh : T1x4096.Idx → EReal)
    (we : T512x4096.Idx → EReal) (be : T1x512.Idx → EReal) : T128x512.Idx → EReal :=
  fun i => embAt x wh bh we be ⟨(i 0).val, (i 0).isLt⟩ ⟨(i 1).val, (i 1).isLt⟩

/-- The squared positive part of a difference. -/
def hinge2 (z : EReal) : EReal := max z 0 * max z 0

/-- Minus the norm of the positive part of u - v over 512 features, u read at row r and v at row b. -/
def scoreAt (u : Fin 512 → EReal) (v : Fin 512 → EReal) : EReal :=
  -(Ideal.sqrt (∑ k : Fin 512, hinge2 (u k - v k)))

/-- The positive scores, a 128 x 1 column. -/
def posSpec (p e : T128x512.Idx → EReal) : T128x1.Idx → EReal :=
  fun i => scoreAt (fun k => p (ix2 (⟨(i 0).val, (i 0).isLt⟩ : Fin 128) k)) (fun k => e (ix2 (⟨(i 0).val, (i 0).isLt⟩ : Fin 128) k))

/-- The negative scores, 128 x 2048: row b of the embedding against negative s. -/
def negSpec (e : T128x512.Idx → EReal) (n : T2048x512.Idx → EReal) : T128x2048.Idx → EReal :=
  fun i => scoreAt (fun k => n (ix2 (⟨(i 1).val, (i 1).isLt⟩ : Fin 2048) k)) (fun k => e (ix2 (⟨(i 0).val, (i 0).isLt⟩ : Fin 128) k))

end Cert.Spec

end
-- ==== Proof.Val.Pos.lean ====
/-
  The positive-score call, read at the extended reals.

  The call's body takes the two 128 x 512 arrays p and e whole and stores, for each row b,
        0 - sqrt (sum_k (max (p b k - e b k) 0)^2)
  in a 128 x 1 column: a pointwise difference, its positive part against the zero splat, the square, the sum along the
  512 lanes, the vector of 128 sums read as a column, the root, and zero minus it.  Here:

  * that arithmetic is the specification's positive score, row by row (`pos_payload`): the lane sum at row b is the sum
    over k of the entries (b, k), the column cast reads entry (b, 0) at b, the zero word is 0 and 0 - s = -s;
  * the call has one grid point and each of its three blocks is its whole array, so what the point writes back is the
    score of the two arrays as the call finds them, and the output array ends holding it (`pos_final`).
-/
import proofs.«161488_j35158602285671_1_alg».proof.Proof.Fr.R1
import proofs.«161488_j35158602285671_1_alg».proof.Proof.Val.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Cert.KernelIdeal.Fr
open Idealize.ShloMosaic Idealize.ShloMosaic.ValueIdx Idealize.ShloMosaic.TcCoe
open Idealize.ShloMosaic.Pipeline (Dat Cfg Window)

/-! ## The body's arithmetic -/

/-- An `[a]` array cast to `[a, 1]` reads, at `(i, u)`, the operand at `i`, whatever the unit coordinate `u`:
    both have row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index the lane sum reads for row `b` at lane `k` is `(b, k)`. -/
theorem pos_lift_row (b : Fin 128) (k : Fin 512) : reduces_S128x512_S128.lift (ix1 b) k = ix2 b k := by
  funext a; apply Fin.ext
  match a with
  | ⟨0, _⟩ => rfl
  | ⟨1, _⟩ => rfl

/-- The f32 zero word is the extended real `0`. -/
theorem pos_zero_word : (FloatOps.ofBits FTy.f32 0x00000000#32 : Ideal .f32) = 0 := Ideal.ofBits_zero_f32

/-- The lane sum of a 128 x 512 array at row `b` is the sum of the row's 512 entries. -/
theorem pos_lane_sum (v : FVec Ideal S128x512 .f32) (hφ : FKind.Formats .f32)
    (hacc : (0x00000000#32 : BitVec 32) = FKind.add.neutral .f32 hφ) (b : Fin 128) :
    multiReduction .add [1] S128 v 0x00000000#32 reduces_S128x512_S128 hφ hacc (ix1 b) = ∑ k : Fin 512, v (ix2 b k) := by
  refine (Ideal.multiReduction_add_single v _ reduces_S128x512_S128 hφ hacc (ix1 b)).trans ?_
  exact Finset.sum_congr rfl fun k _ => congrArg v (pos_lift_row b k)

/-- THE PAYLOAD IS THE SPECIFICATION: row by row, minus the root of the summed squared positive parts of `p - e`. -/
theorem pos_payload (p e : Vec Ideal S128x512 .f32) : k1_pay1 (F := Ideal) p e = Cert.Spec.posSpec p e := by
  funext i
  obtain ⟨b, u, rfl⟩ : ∃ (b : Fin 128) (u : Fin 1), i = ix2 b u := ⟨i 0, i 1, eq_ix2 i⟩
  unfold k1_pay1
  -- zero minus the root is minus the root; the cast of `e` to its own shape is `e`
  rw [subf_apply, broadcast_apply, pos_zero_word, zero_sub, shapeCast_self]
  show -(Ideal.sqrt (shapeCast S128x1 _ shapeCasts_S128_S128x1 (ix2 b u))) = _
  -- the column at (b, 0) is the vector of sums at b, and that sum runs over the entries (b, k)
  rw [shapeCast_a_a1_apply]
  refine (congrArg (fun z => -(Ideal.sqrt z)) (pos_lane_sum _ _ _ b)).trans ?_
  unfold Cert.Spec.posSpec Cert.Spec.scoreAt
  refine congrArg (fun z => -(Ideal.sqrt z)) (Finset.sum_congr rfl fun k _ => ?_)
  -- term by term: the square of the positive part of the difference at (b, k)
  rw [mulf_apply, maximumf_apply, subf_apply, broadcast_apply]
  rfl

/-! ## The call's output array -/

variable (V : (c : Dev nD) → (b : Ref sig .tc) → Buf (Elt Ideal) ((c : Thread nD τ).loc b))

/-- The whole-array rectangles start at the origin. -/
theorem pos_hz : (![0, 0] : Fin 2 → Nat) = fun _ => 0 := funext fun a => by fin_cases a <;> rfl

/-- The one block of `p` is the whole array: its block index is `(0, 0)`, so entry `y` of the block is entry `y`. -/
theorem pos_blk_p (c : Dev nD) (t : Fin cfg1.N) (y : S128x512.Idx) : blk1 V c 0 t y = V c main_arg1 y := by
  show V c main_arg1 (((cfg1.win 0).blk t).view.emb y) = V c main_arg1 y
  refine congrArg (V c main_arg1) (funext fun a => Fin.ext ?_)
  match a with
  | ⟨0, _⟩ => show win1_0.index t (0 : Fin 2) * 128 + 1 * (y 0).val = (y 0).val; rw [show win1_0.index t (0 : Fin 2) = 0 from rfl]; omega
  | ⟨1, _⟩ => show win1_0.index t (1 : Fin 2) * 512 + 1 * (y 1).val = (y 1).val; rw [show win1_0.index t (1 : Fin 2) = 0 from rfl]; omega

/-- The one block of the embedding is the whole array. -/
theorem pos_blk_e (c : Dev nD) (t : Fin cfg1.N) (y : S128x512.Idx) : blk1 V c 1 t y = V c main_v5 y := by
  show V c main_v5 (((cfg1.win 1).blk t).view.emb y) = V c main_v5 y
  refine congrArg (V c main_v5) (funext fun a => Fin.ext ?_)
  match a with
  | ⟨0, _⟩ => show win1_1.index t (0 : Fin 2) * 128 + 1 * (y 0).val = (y 0).val; rw [show win1_1.index t (0 : Fin 2) = 0 from rfl]; omega
  | ⟨1, _⟩ => show win1_1.index t (1 : Fin 2) * 512 + 1 * (y 1).val = (y 1).val; rw [show win1_1.index t (1 : Fin 2) = 0 from rfl]; omega

/-- The one block of the output is the whole 128 x 1 array: entry `j` of the block sits at index `j`. -/
theorem pos_emb_out (t : Fin cfg1.N) (j : S128x1.Idx) : ((cfg1.win 2).blk t).view.emb j = j := by
  funext a; apply Fin.ext
  match a with
  | ⟨0, _⟩ => show win1_2.index t (0 : Fin 2) * 128 + 1 * (j 0).val = (j 0).val; rw [show win1_2.index t (0 : Fin 2) = 0 from rfl]; omega
  | ⟨1, _⟩ => show win1_2.index t (1 : Fin 2) * 1 + 1 * (j 1).val = (j 1).val; rw [show win1_2.index t (1 : Fin 2) = 0 from rfl]; omega

/-- WHAT THE ONE POINT WRITES BACK is the block of the positive scores of the two arrays the call reads. -/
theorem pos_flushed_eq (c : Dev nD) (t : Fin cfg1.N) :
    (dat1 (F := Ideal) V c).flushed 2 t
      = ((cfg1.win 2).blk t).view.read (Elt Ideal) (Cert.Spec.posSpec (V c main_arg1) (V c main_v5)) := by
  show (cfg1.win 2).cut (grid1.coords t) ((dat1 V c).after 2 t) = _
  rw [after1_2]
  unfold out1
  rw [View.canon_unit_zero pos_hz]
  simp only [View.ld_unit_zero (S := S128x512) pos_hz]
  rw [pos_payload]
  funext j
  show Cert.Spec.posSpec (blk1 V c 0 t) (blk1 V c 1 t) j
    = Cert.Spec.posSpec (V c main_arg1) (V c main_v5) (((cfg1.win 2).blk t).view.emb j)
  rw [pos_emb_out t j, show blk1 V c 0 t = V c main_arg1 from funext (pos_blk_p V c t),
    show blk1 V c 1 t = V c main_v5 from funext (pos_blk_e V c t)]

/-- THE OUTPUT ARRAY AFTER THE CALL: the positive scores of the two arrays it reads (the one point's block is the
    whole 128 x 1 array, so every index is covered). -/
theorem pos_final (c : Dev nD) :
    (dat1 (F := Ideal) V c).arrAt 2 cfg1.N = Cert.Spec.posSpec (V c main_arg1) (V c main_v5) :=
  (dat1 (F := Ideal) V c).arrAt_eq_of_cover 2 (Cert.Spec.posSpec (V c main_arg1) (V c main_v5))
    (fun t _ => pos_flushed_eq V c t) fun i =>
    ⟨t1_0, flush1_2 t1_0, by
      have h := ((cfg1.win 2).blk t1_0).view.emb_mem_set i
      rwa [pos_emb_out t1_0 i] at h⟩

end Cert.KernelIdeal.Val

end
-- ==== Proof.Val.Neg.lean ====
/-
  The negative-score call, read as values. At grid point (i, j) its body holds the 16 x 512 block i of the embeddings
  and the 128 x 512 block j of the negatives and stores the 16 x 128 block (i, j) of the result. Here:
  * the body's arithmetic at one position (a, b) of its block: the two blocks are laid over a common 16 x 128 x 512
    index space (the negatives repeated over the rows, the embeddings over the negatives), subtracted, cut at zero
    from below, squared, summed over the 512 features, and the result is zero minus the square root of that sum — the
    specification's score of negative b against row a (`neg_payload`);
  * the array after all 128 points: block (i, j) sits at rows i*16 … and columns j*128 … of the 128 x 2048 result, the
    blocks tile it, and each point writes its block of ONE function of the two arrays read, so the array ends
    holding that function — the specification's negative scores (`neg_final`).
-/
import proofs.«161488_j35158602285671_1_alg».proof.Proof.Fr.R2
import proofs.«161488_j35158602285671_1_alg».proof.Proof.Val.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

section Layout
variable {α : Type}

/-- The 128 x 512 block viewed 1 x 128 x 512 and repeated over the 16 rows reads, at (a, b, k), the block at (b, k). -/
theorem bcastN_apply (x : S128x512.Idx → α) (a : Fin 16) (b : Fin 128) (k : Fin 512) :
    broadcastTo S16x128x512 (shapeCast S1x128x512 x shapeCasts_S128x512_S1x128x512) broadcasts_S1x128x512_S16x128x512 (ix3 a b k)
      = x (ix2 b k) := by
  refine (broadcastTo_apply _ _ (ix3 a b k) (ix3 (0 : Fin 1) b k) fun ax => ?_).trans ?_
  · match ax with
    | ⟨0, _⟩ => rfl
    | ⟨1, _⟩ => rfl
    | ⟨2, _⟩ => rfl
  · exact shapeCast_ab_1ab_apply x _ 0 b k

/-- The 16 x 512 block viewed 16 x 1 x 512 and repeated over the 128 negatives reads, at (a, b, k), the block at (a, k). -/
theorem bcastQ_apply (x : S16x512.Idx → α) (a : Fin 16) (b : Fin 128) (k : Fin 512) :
    broadcastTo S16x128x512 (shapeCast S16x1x512 (shapeCast S16x512 x shapeCasts_S16x512_S16x512) shapeCasts_S16x512_S16x1x512)
        broadcasts_S16x1x512_S16x128x512 (ix3 a b k)
      = x (ix2 a k) := by
  rw [shapeCast_self]
  refine (broadcastTo_apply _ _ (ix3 a b k) (ix3 a (0 : Fin 1) k) fun ax => ?_).trans ?_
  · match ax with
    | ⟨0, _⟩ => rfl
    | ⟨1, _⟩ => rfl
    | ⟨2, _⟩ => rfl
  · refine shapeCast_apply x _ _ _ ?_
    rw [Shape.rowMajor_val_three, Shape.rowMajor_val_two]
    show a.val * 512 + k.val = (a.val * 1 + 0) * 512 + k.val
    omega

end Layout

/-- The index the lane sum inserts: position (a, b) of the result and lane k give (a, b, k). -/
theorem lift_ix (a : Fin 16) (b : Fin 128) (k : Fin 512) :
    reduces_S16x128x512_S16x128.lift (ix2 a b) k = ix3 a b k := by
  funext ax
  match ax with
  | ⟨0, _⟩ => rfl
  | ⟨1, _⟩ => rfl
  | ⟨2, _⟩ => rfl

/-- THE BODY'S ARITHMETIC AT AN INDEX: position (a, b) of the block the body stores is the score of negative b of its
    128 x 512 block against row a of its 16 x 512 block — zero minus the square root of the lane sum of the squared
    positive parts of the differences. -/
theorem neg_payload (q : Vec Ideal S16x512 .f32) (nb : Vec Ideal S128x512 .f32) (a : Fin 16) (b : Fin 128) :
    k2_pay1 (F := Ideal) q nb (ix2 a b) = Cert.Spec.scoreAt (fun k => nb (ix2 b k)) (fun k => q (ix2 a k)) := by
  unfold k2_pay1 Cert.Spec.scoreAt Cert.Spec.hinge2
  show Ideal.ofBits .f32 0x00000000#32 - Ideal.sqrt (multiReduction (F := Ideal) .add [2] S16x128 _ 0x00000000#32 reduces_S16x128x512_S16x128 (.inl rfl) rfl (ix2 a b)) = _
  rw [Ideal.ofBits_zero_f32, zero_sub]
  refine congrArg (fun z => -(Ideal.sqrt z)) ?_
  refine (Ideal.multiReduction_add_single _ _ reduces_S16x128x512_S16x128 _ _ (ix2 a b)).trans ?_
  refine Finset.sum_congr rfl fun (k : Fin 512) _ => ?_
  rw [show reduces_S16x128x512_S16x128.lift (ix2 a b) k = ix3 a b k from lift_ix a b k]
  show max (_ - _) (Ideal.ofBits .f32 0x00000000#32) * max (_ - _) (Ideal.ofBits .f32 0x00000000#32) = _
  rw [Ideal.ofBits_zero_f32, bcastN_apply, bcastQ_apply]

/-! ## From the blocks to the array -/

/-- WHAT ONE POINT LEAVES, OVER PLAIN BLOCKS. If the 16 x 512 block is rows i0*16 … of the embeddings, the 128 x 512 block
    is rows i1*128 … of the negatives and position y of the output block sits in the array at (i0*16 + y 0, i1*128 + y 1),
    the body's block is the array of negative scores read there. -/
theorem block_eq (e : S128x512.Idx → EReal) (n : S2048x512.Idx → EReal)
    (x0 : Vec Ideal S16x512 .f32) (x1 : Vec Ideal S128x512 .f32) (pos : S16x128.Idx → S128x2048.Idx) (i0 i1 : Nat)
    (h0 : ∀ (a : Fin 16) (k : Fin 512) (r : Fin 128), r.val = i0 * 16 + a.val → x0 (ix2 a k) = e (ix2 r k))
    (h1 : ∀ (b : Fin 128) (k : Fin 512) (s : Fin 2048), s.val = i1 * 128 + b.val → x1 (ix2 b k) = n (ix2 s k))
    (h2 : ∀ y : S16x128.Idx, (pos y 0).val = i0 * 16 + (y 0).val ∧ (pos y 1).val = i1 * 128 + (y 1).val) :
    k2_pay1 (F := Ideal) x0 x1 = fun y => Cert.Spec.negSpec e n (pos y) := by
  funext y
  obtain ⟨a, b, rfl⟩ : ∃ (a : Fin 16) (b : Fin 128), y = ix2 a b := ⟨y 0, y 1, eq_ix2 y⟩
  rw [neg_payload]
  unfold Cert.Spec.negSpec
  obtain ⟨p0, p1⟩ := h2 (ix2 a b)
  congr 1
  · funext k; exact h1 b k _ p1
  · funext k; exact h0 a k _ p0

theorem hz2 : (![0, 0] : Fin 2 → Nat) = fun _ => 0 := funext fun a => by fin_cases a <;> rfl

/-- The printed index maps, decided once over the 128 points: the embeddings' block moves with the output's row block,
    the negatives' with its column block, neither moves along the features, and the output's block at point t is
    (t / 16, t % 16). -/
theorem idx_facts2 : ∀ t : Fin cfg2.N, win2_0.index t (0 : Fin 2) = win2_2.index t (0 : Fin 2)
    ∧ win2_0.index t (1 : Fin 2) = 0
    ∧ win2_1.index t (0 : Fin 2) = win2_2.index t (1 : Fin 2)
    ∧ win2_1.index t (1 : Fin 2) = 0
    ∧ win2_2.index t (0 : Fin 2) = t.val / 16
    ∧ win2_2.index t (1 : Fin 2) = t.val % 16 :=
  (by decide +kernel : ∀ t : Fin grid2.N, _)

variable (V : (c : Dev nD) → (b : Ref sig .tc) → Buf (Elt Ideal) ((c : Thread nD τ).loc b))

/-- WHAT POINT t WRITES BACK is block t of the array of negative scores of the two arrays the call reads. -/
theorem flushed2_eq (c : Dev nD) (t : Fin cfg2.N) :
    (dat2 (F := Ideal) V c).flushed 2 t
      = ((cfg2.win 2).blk t).view.read (Elt Ideal) (Cert.Spec.negSpec (V c main_v5) (V c main_arg2)) := by
  show (cfg2.win 2).cut (grid2.coords t) ((dat2 (F := Ideal) V c).after 2 t) = _
  rw [after2_2]
  unfold out2
  rw [View.canon_unit_zero hz2]
  simp only [View.ld_unit_zero (S := S16x512) hz2, View.ld_unit_zero (S := S128x512) hz2]
  obtain ⟨e0, e1, e2, e3, e4, e5⟩ := idx_facts2 t
  refine block_eq (V c main_v5) (V c main_arg2) (blk2 V c 0 t) (blk2 V c 1 t)
    (fun y => ((cfg2.win 2).blk t).view.emb y) (win2_2.index t (0 : Fin 2)) (win2_2.index t (1 : Fin 2)) ?_ ?_ ?_
  · intro a k r hr
    show V c main_v5 (((cfg2.win 0).blk t).view.emb (ix2 a k)) = V c main_v5 (ix2 r k)
    refine congrArg (V c main_v5) (funext fun ax => Fin.ext ?_)
    match ax with
    | ⟨0, _⟩ => show win2_0.index t (0 : Fin 2) * 16 + 1 * a.val = r.val; omega
    | ⟨1, _⟩ => show win2_0.index t (1 : Fin 2) * 512 + 1 * k.val = k.val; omega
  · intro b k s hs
    show V c main_arg2 (((cfg2.win 1).blk t).view.emb (ix2 b k)) = V c main_arg2 (ix2 s k)
    refine congrArg (V c main_arg2) (funext fun ax => Fin.ext ?_)
    match ax with
    | ⟨0, _⟩ => show win2_1.index t (0 : Fin 2) * 128 + 1 * b.val = s.val; omega
    | ⟨1, _⟩ => show win2_1.index t (1 : Fin 2) * 512 + 1 * k.val = k.val; omega
  · intro y
    constructor
    · show win2_2.index t (0 : Fin 2) * 16 + 1 * (y 0).val = win2_2.index t (0 : Fin 2) * 16 + (y 0).val; omega
    · show win2_2.index t (1 : Fin 2) * 128 + 1 * (y 1).val = win2_2.index t (1 : Fin 2) * 128 + (y 1).val; omega

/-- An index of the output array is in point t's block iff each coordinate is in the block's range on its axis. -/
theorem mem_blk2 (t : Fin cfg2.N) (i : S128x2048.Idx) :
    i ∈ ((cfg2.win 2).blk t).view.set ↔ ∀ a : Fin 2, win2_2.index t a * S16x128.size a ≤ (i a).val ∧ (i a).val < win2_2.index t a * S16x128.size a + S16x128.size a := by
  show i ∈ ((View.whole main_v7).slice (win2_2.rect t)).set ↔ _
  rw [View.set_slice_whole, Rect.mem_set_unit]
  exact Iff.rfl

/-- THE BLOCKS TILE THE ARRAY: position (r, s) is in the block of the point with coordinates (r / 16, s / 128). -/
theorem covered2 (i : S128x2048.Idx) :
    ∃ t : Fin cfg2.N, (cfg2.win 2).flush t = true ∧ i ∈ ((cfg2.win 2).blk t).view.set := by
  have hi0 : (i 0).val < 128 := (i 0).isLt
  have hi1 : (i 1).val < 2048 := (i 1).isLt
  have hN : cfg2.N = 128 := N_2
  obtain ⟨t, ht⟩ : ∃ t : Fin cfg2.N, t.val = (i 0).val / 16 * 16 + (i 1).val / 128 :=
    ⟨⟨(i 0).val / 16 * 16 + (i 1).val / 128, by rw [hN]; omega⟩, rfl⟩
  obtain ⟨e0, e1, e2, e3, e4, e5⟩ := idx_facts2 t
  refine ⟨t, flush2_2 t, ?_⟩
  rw [mem_blk2]
  intro a
  match a with
  | ⟨0, _⟩ => show win2_2.index t (0 : Fin 2) * 16 ≤ (i 0).val ∧ (i 0).val < win2_2.index t (0 : Fin 2) * 16 + 16; omega
  | ⟨1, _⟩ => show win2_2.index t (1 : Fin 2) * 128 ≤ (i 1).val ∧ (i 1).val < win2_2.index t (1 : Fin 2) * 128 + 128; omega

/-- THE CALL'S OUTPUT ARRAY AFTER THE RUN: the negative scores of the embeddings array against the negatives array, as the
    call finds the two. -/
theorem neg_final (c : Dev nD) :
    (dat2 (F := Ideal) V c).arrAt 2 cfg2.N = Cert.Spec.negSpec (V c main_v5) (V c main_arg2) :=
  (dat2 (F := Ideal) V c).arrAt_eq_of_cover 2 _ (fun t _ => flushed2_eq V c t) covered2

end Cert.KernelIdeal.Val

end
-- ==== Proof.Val.EmbPieces.lean ====
/-
  The embedding call's pieces, opened.  At each of its three kinds of point the body leaves the accumulator holding
  the slab update of what it held before: acc + (x . wh_k^T + bh_k) . we_k^T, read off the blocks the point is given.
  At the first point the accumulator it updates is the zero block the reset has just stored; at the last point the
  output block is, besides, the updated accumulator plus the output bias.  Stated for any float values.
-/
import proofs.«161488_j35158602285671_1_alg».proof.Proof.Fr.R0
import Idealize.ShloMosaic.Lib.Pipeline.Value
import Idealize.ShloMosaic.Lib.Tactic

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.SL.Sem

variable {F : FTy → Type} [FloatOps F]

/-- The offsets of a whole 2-d rectangle are zero on every axis. -/
theorem emb_hz : (![0, 0] : Fin 2 → Nat) = fun _ => 0 := funext fun a => by fin_cases a <;> rfl

/-- A MIDDLE POINT: the accumulator is left at the slab update of what the point before left. -/
theorem sout0_B_eq (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : ¬cond0_1 i) (hc2 : ¬cond0_2 i) (x0 : Vec F S128x4096 .bf16) (x1 : Vec F S1024x4096 .bf16) (x2 : Vec F S1x1024 .f32) (x3 : Vec F S512x1024 .bf16) (xs0 : Vec F S128x512 .f32) :
    sout0_B c i arg1 harg1 arg2 harg2 arg3 harg3 arg4 harg4 arg5 harg5 arg6 harg6 arg7 harg7 hc1 hc2 x0 x1 x2 x3 xs0 = k0_pay2 x0 x1 x2 x3 xs0 := by
  unfold sout0_B
  rw [View.read_writes_eq_canon _ _ _ (scover0_B c i arg1 harg1 arg2 harg2 arg3 harg3 arg4 harg4 arg5 harg5 arg6 harg6 arg7 harg7 hc1 hc2 x0 x1 x2 x3 xs0)]
  unfold kernelRun0_B
  dsimp only
  sl_unfold_words
  rw [View.canon_unit_zero emb_hz]
  simp only [View.readAt_eq_ld, harg1.read_unread, harg2.read_unread, harg3.read_unread, harg4.read_unread, harg5.read_unread, harg7.read_unread,
    View.ld_unit_zero (S := S128x4096) emb_hz, View.ld_unit_zero (S := S1024x4096) emb_hz, View.ld_unit_zero (S := S1x1024) emb_hz,
    View.ld_unit_zero (S := S512x1024) emb_hz, View.ld_unit_zero (S := S1x512) emb_hz, View.ld_unit_zero (S := S128x512) emb_hz,
    View.readCov_unit_zero (S := S128x512) _ emb_hz]

/-- THE FIRST POINT: the reset stores the zero block, the update reads it back, so the accumulator is left at the
    slab update of the zero block. -/
theorem sout0_A_eq (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : cond0_1 i) (hc2 : ¬cond0_2 i) (x0 : Vec F S128x4096 .bf16) (x1 : Vec F S1024x4096 .bf16) (x2 : Vec F S1x1024 .f32) (x3 : Vec F S512x1024 .bf16) :
    sout0_A c i arg1 harg1 arg2 harg2 arg3 harg3 arg4 harg4 arg5 harg5 arg6 harg6 arg7 harg7 hc1 hc2 x0 x1 x2 x3 = k0_pay2 x0 x1 x2 x3 (k0_pay1 (F := F)) := by
  unfold sout0_A
  rw [View.read_writes_eq_canon _ _ _ (scover0_A c i arg1 harg1 arg2 harg2 arg3 harg3 arg4 harg4 arg5 harg5 arg6 harg6 arg7 harg7 hc1 hc2 x0 x1 x2 x3)]
  unfold kernelRun0_A
  dsimp only
  sl_unfold_words
  rw [View.canon_cons_unit_zero (S := S128x512) emb_hz, View.readCov_unit_zero (S := S128x512) _ emb_hz]
  simp only [View.readAt_eq_ld, harg1.read_unread, harg2.read_unread, harg3.read_unread, harg4.read_unread, harg5.read_unread, harg7.read_unread,
    View.ld_unit_zero (S := S128x4096) emb_hz, View.ld_unit_zero (S := S1024x4096) emb_hz, View.ld_unit_zero (S := S1x1024) emb_hz,
    View.ld_unit_zero (S := S512x1024) emb_hz, View.ld_unit_zero (S := S1x512) emb_hz, View.ld_unit_zero (S := S128x512) emb_hz,
    View.readCov_unit_zero (S := S128x512) _ emb_hz]

/-- THE LAST POINT, the accumulator: as at a middle point. -/
theorem sout0_C_eq (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : ¬cond0_1 i) (hc2 : cond0_2 i) (x0 : Vec F S128x4096 .bf16) (x1 : Vec F S1024x4096 .bf16) (x2 : Vec F S1x1024 .f32) (x3 : Vec F S512x1024 .bf16) (x4 : Vec F S1x512 .f32) (xs0 : Vec F S128x512 .f32) :
    sout0_C c i arg1 harg1 arg2 harg2 arg3 harg3 arg4 harg4 arg5 harg5 arg6 harg6 arg7 harg7 hc1 hc2 x0 x1 x2 x3 x4 xs0 = k0_pay2 x0 x1 x2 x3 xs0 := by
  unfold sout0_C
  rw [View.read_writes_eq_canon _ _ _ (scover0_C c i arg1 harg1 arg2 harg2 arg3 harg3 arg4 harg4 arg5 harg5 arg6 harg6 arg7 harg7 hc1 hc2 x0 x1 x2 x3 x4 xs0)]
  unfold kernelRun0_C
  dsimp only
  sl_unfold_words
  rw [View.canon_unit_zero emb_hz]
  simp only [View.readAt_eq_ld, harg1.read_unread, harg2.read_unread, harg3.read_unread, harg4.read_unread, harg5.read_unread, harg7.read_unread,
    View.ld_unit_zero (S := S128x4096) emb_hz, View.ld_unit_zero (S := S1024x4096) emb_hz, View.ld_unit_zero (S := S1x1024) emb_hz,
    View.ld_unit_zero (S := S512x1024) emb_hz, View.ld_unit_zero (S := S1x512) emb_hz, View.ld_unit_zero (S := S128x512) emb_hz,
    View.readCov_unit_zero (S := S128x512) _ emb_hz]

/-- THE LAST POINT, the output block: the updated accumulator, read back, plus the output bias. -/
theorem out0_C_eq (c : Dev nD) (i : grid0.Coords) (arg1 : Memref sig .tc .vmem S128x4096 .bf16) (harg1 : arg1.IsWhole) (arg2 : Memref sig .tc .vmem S1024x4096 .bf16) (harg2 : arg2.IsWhole) (arg3 : Memref sig .tc .vmem S1x1024 .f32) (harg3 : arg3.IsWhole) (arg4 : Memref sig .tc .vmem S512x1024 .bf16) (harg4 : arg4.IsWhole) (arg5 : Memref sig .tc .vmem S1x512 .f32) (harg5 : arg5.IsWhole) (arg6 : Memref sig .tc .vmem S128x512 .f32) (harg6 : arg6.IsWhole) (arg7 : Memref sig .tc .vmem S128x512 .f32) (harg7 : arg7.IsWhole) (hc1 : ¬cond0_1 i) (hc2 : cond0_2 i) (x0 : Vec F S128x4096 .bf16) (x1 : Vec F S1024x4096 .bf16) (x2 : Vec F S1x1024 .f32) (x3 : Vec F S512x1024 .bf16) (x4 : Vec F S1x512 .f32) (xs0 : Vec F S128x512 .f32) :
    out0_C c i arg1 harg1 arg2 harg2 arg3 harg3 arg4 harg4 arg5 harg5 arg6 harg6 arg7 harg7 hc1 hc2 x0 x1 x2 x3 x4 xs0 = k0_pay3 (k0_pay2 x0 x1 x2 x3 xs0) x4 := by
  unfold out0_C
  rw [View.read_writes_eq_canon _ _ _ (cover0_C c i arg1 harg1 arg2 harg2 arg3 harg3 arg4 harg4 arg5 harg5 arg6 harg6 arg7 harg7 hc1 hc2 x0 x1 x2 x3 x4 xs0)]
  unfold kernelRun0_C
  dsimp only
  sl_unfold_words
  rw [View.canon_unit_zero emb_hz, View.readCov_unit_zero (S := S128x512) _ emb_hz]
  simp only [View.readAt_eq_ld, harg1.read_unread, harg2.read_unread, harg3.read_unread, harg4.read_unread, harg5.read_unread, harg7.read_unread,
    View.ld_unit_zero (S := S128x4096) emb_hz, View.ld_unit_zero (S := S1024x4096) emb_hz, View.ld_unit_zero (S := S1x1024) emb_hz,
    View.ld_unit_zero (S := S512x1024) emb_hz, View.ld_unit_zero (S := S1x512) emb_hz, View.ld_unit_zero (S := S128x512) emb_hz,
    View.readCov_unit_zero (S := S128x512) _ emb_hz]

end Cert.KernelIdeal.Val

end
-- ==== Proof.Val.EmbPay.lean ====
/-
  The three values the embedding call stores, read at one element over the extended reals.

  * the reset value of the carried accumulator is 0 everywhere;
  * one step of the carried accumulation over a slab of 1024 hidden features: the old accumulator at (b, e) plus
        sum_h ((sum_j x b j * wh h j) + bh 0 h) * we e h,
    the inner sum over the 4096 input features and the outer one over the slab's 1024 hidden features (a product
    of a row against a row, twice; the narrowing of the hidden layer to the 16-bit format is the identity on the
    extended reals);
  * the last step adds the output bias: the accumulator at (b, e) plus be 0 e.
  The four slabs of 1024 hidden features, summed one after the other from 0, are the sum over all 4096.
-/
import proofs.«161488_j35158602285671_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

noncomputable section

namespace Cert.KernelIdeal.Val

open Cert.KernelIdeal Cert.KernelIdeal.Gen Idealize.ShloMosaic Idealize.ShloMosaic.ValueIdx

/-! ## The reset value -/

/-- The accumulator is reset to the zero word at every element, and the zero word is the extended real 0. -/
theorem pay1_apply (i : S128x512.Idx) : k0_pay1 (F := Ideal) i = (0 : EReal) := by
  unfold k0_pay1
  rw [shapeCast_self]
  exact Ideal.ofBits_zero_f32

/-! ## The first product: a row of x against a row of wh -/

/-- The left operand's row coordinate is the result's row. -/
theorem lhs_mm1_0 (i : S128x1024.Idx) (q : dot_S128x4096_S1024x4096_S128x1024_1_1_0_0_n_n.contr.Idx) :
    (dot_S128x4096_S1024x4096_S128x1024_1_1_0_0_n_n.lhsIdx i q 0).val = (i 0).val := by
  unfold DotDims.lhsIdx
  rw [dif_neg (show ¬(0 : Fin S128x4096.rank) ∈ dot_S128x4096_S1024x4096_S128x1024_1_1_0_0_n_n.lhsBatch by decide), dif_pos (show (0 : Fin S128x4096.rank) ∈ dot_S128x4096_S1024x4096_S128x1024_1_1_0_0_n_n.lhsNonContracting by decide)]
  rfl
/-- The left operand's column coordinate is the summation index. -/
theorem lhs_mm1_1 (i : S128x1024.Idx) (q : dot_S128x4096_S1024x4096_S128x1024_1_1_0_0_n_n.contr.Idx) :
    (dot_S128x4096_S1024x4096_S128x1024_1_1_0_0_n_n.lhsIdx i q 1).val = (q ⟨0, by decide⟩).val :=
  dot_S128x4096_S1024x4096_S128x1024_1_1_0_0_n_n.lhsIdx_val_of_single rfl i q
/-- The right operand's row coordinate is the result's column. -/
theorem rhs_mm1_0 (i : S128x1024.Idx) (q : dot_S128x4096_S1024x4096_S128x1024_1_1_0_0_n_n.contr.Idx) :
    (dot_S128x4096_S1024x4096_S128x1024_1_1_0_0_n_n.rhsIdx i q 0).val = (i 1).val := by
  unfold DotDims.rhsIdx
  rw [dif_neg (show ¬(0 : Fin S1024x4096.rank) ∈ dot_S128x4096_S1024x4096_S128x1024_1_1_0_0_n_n.rhsBatch by decide), dif_pos (show (0 : Fin S1024x4096.rank) ∈ dot_S128x4096_S1024x4096_S128x1024_1_1_0_0_n_n.rhsNonContracting by decide)]
  rfl
/-- The right operand's column coordinate is the summation index. -/
theorem rhs_mm1_1 (i : S128x1024.Idx) (q : dot_S128x4096_S1024x4096_S128x1024_1_1_0_0_n_n.contr.Idx) :
    (dot_S128x4096_S1024x4096_S128x1024_1_1_0_0_n_n.rhsIdx i q 1).val = (q ⟨0, by decide⟩).val :=
  dot_S128x4096_S1024x4096_S128x1024_1_1_0_0_n_n.rhsIdx_val_of_single rfl i q

/-- The first product from 0, at (b, h): the sum over the 4096 input features of x b j * wh h j. -/
theorem mm1_apply (x : FVec Ideal S128x4096 .bf16) (wh : FVec Ideal S1024x4096 .bf16) (b : Fin 128) (h : Fin 1024) :
    FloatOps.matmul dot_S128x4096_S1024x4096_S128x1024_1_1_0_0_n_n none x wh (constant S128x1024 .f32 0x00000000#32) (ix2 b h)
      = ∑ j : Fin 4096, x (ix2 b j) * wh (ix2 h j) := by
  rw [Ideal.matmul_constant_zero_apply, ← Equiv.sum_comp (ValueIdx.contrEquiv1 dot_S128x4096_S1024x4096_S128x1024_1_1_0_0_n_n 4096 rfl rfl).symm]
  refine Finset.sum_congr rfl fun k _ => ?_
  have hk := ValueIdx.contrEquiv1_symm_val dot_S128x4096_S1024x4096_S128x1024_1_1_0_0_n_n 4096 rfl rfl k
  have el : dot_S128x4096_S1024x4096_S128x1024_1_1_0_0_n_n.lhsIdx (ix2 b h) ((ValueIdx.contrEquiv1 dot_S128x4096_S1024x4096_S128x1024_1_1_0_0_n_n 4096 rfl rfl).symm k) = ix2 b k := funext fun a => Fin.ext (by
    match a with
    | ⟨0, _⟩ => exact lhs_mm1_0 _ _
    | ⟨1, _⟩ => exact (lhs_mm1_1 _ _).trans hk)
  have er : dot_S128x4096_S1024x4096_S128x1024_1_1_0_0_n_n.rhsIdx (ix2 b h) ((ValueIdx.contrEquiv1 dot_S128x4096_S1024x4096_S128x1024_1_1_0_0_n_n 4096 rfl rfl).symm k) = ix2 h k := funext fun a => Fin.ext (by
    match a with
    | ⟨0, _⟩ => exact rhs_mm1_0 _ _
    | ⟨1, _⟩ => exact (rhs_mm1_1 _ _).trans hk)
  rw [el, er]

/-! ## The second product: a row of the hidden layer against a row of we -/

/-- The left operand's row coordinate is the result's row. -/
theorem lhs_mm2_0 (i : S128x512.Idx) (q : dot_S128x1024_S512x1024_S128x512_1_1_0_0_n_n.contr.Idx) :
    (dot_S128x1024_S512x1024_S128x512_1_1_0_0_n_n.lhsIdx i q 0).val = (i 0).val := by
  unfold DotDims.lhsIdx
  rw [dif_neg (show ¬(0 : Fin S128x1024.rank) ∈ dot_S128x1024_S512x1024_S128x512_1_1_0_0_n_n.lhsBatch by decide), dif_pos (show (0 : Fin S128x1024.rank) ∈ dot_S128x1024_S512x1024_S128x512_1_1_0_0_n_n.lhsNonContracting by decide)]
  rfl
/-- The left operand's column coordinate is the summation index. -/
theorem lhs_mm2_1 (i : S128x512.Idx) (q : dot_S128x1024_S512x1024_S128x512_1_1_0_0_n_n.contr.Idx) :
    (dot_S128x1024_S512x1024_S128x512_1_1_0_0_n_n.lhsIdx i q 1).val = (q ⟨0, by decide⟩).val :=
  dot_S128x1024_S512x1024_S128x512_1_1_0_0_n_n.lhsIdx_val_of_single rfl i q
/-- The right operand's row coordinate is the result's column. -/
theorem rhs_mm2_0 (i : S128x512.Idx) (q : dot_S128x1024_S512x1024_S128x512_1_1_0_0_n_n.contr.Idx) :
    (dot_S128x1024_S512x1024_S128x512_1_1_0_0_n_n.rhsIdx i q 0).val = (i 1).val := by
  unfold DotDims.rhsIdx
  rw [dif_neg (show ¬(0 : Fin S512x1024.rank) ∈ dot_S128x1024_S512x1024_S128x512_1_1_0_0_n_n.rhsBatch by decide), dif_pos (show (0 : Fin S512x1024.rank) ∈ dot_S128x1024_S512x1024_S128x512_1_1_0_0_n_n.rhsNonContracting by decide)]
  rfl
/-- The right operand's column coordinate is the summation index. -/
theorem rhs_mm2_1 (i : S128x512.Idx) (q : dot_S128x1024_S512x1024_S128x512_1_1_0_0_n_n.contr.Idx) :
    (dot_S128x1024_S512x1024_S128x512_1_1_0_0_n_n.rhsIdx i q 1).val = (q ⟨0, by decide⟩).val :=
  dot_S128x1024_S512x1024_S128x512_1_1_0_0_n_n.rhsIdx_val_of_single rfl i q

/-- The second product from 0, at (b, e): the sum over the slab's 1024 hidden features of y b h * we e h. -/
theorem mm2_apply (y : FVec Ideal S128x1024 .bf16) (we : FVec Ideal S512x1024 .bf16) (b : Fin 128) (e : Fin 512) :
    FloatOps.matmul dot_S128x1024_S512x1024_S128x512_1_1_0_0_n_n none y we (constant S128x512 .f32 0x00000000#32) (ix2 b e)
      = ∑ h : Fin 1024, y (ix2 b h) * we (ix2 e h) := by
  rw [Ideal.matmul_constant_zero_apply, ← Equiv.sum_comp (ValueIdx.contrEquiv1 dot_S128x1024_S512x1024_S128x512_1_1_0_0_n_n 1024 rfl rfl).symm]
  refine Finset.sum_congr rfl fun k _ => ?_
  have hk := ValueIdx.contrEquiv1_symm_val dot_S128x1024_S512x1024_S128x512_1_1_0_0_n_n 1024 rfl rfl k
  have el : dot_S128x1024_S512x1024_S128x512_1_1_0_0_n_n.lhsIdx (ix2 b e) ((ValueIdx.contrEquiv1 dot_S128x1024_S512x1024_S128x512_1_1_0_0_n_n 1024 rfl rfl).symm k) = ix2 b k := funext fun a => Fin.ext (by
    match a with
    | ⟨0, _⟩ => exact lhs_mm2_0 _ _
    | ⟨1, _⟩ => exact (lhs_mm2_1 _ _).trans hk)
  have er : dot_S128x1024_S512x1024_S128x512_1_1_0_0_n_n.rhsIdx (ix2 b e) ((ValueIdx.contrEquiv1 dot_S128x1024_S512x1024_S128x512_1_1_0_0_n_n 1024 rfl rfl).symm k) = ix2 e k := funext fun a => Fin.ext (by
    match a with
    | ⟨0, _⟩ => exact rhs_mm2_0 _ _
    | ⟨1, _⟩ => exact (rhs_mm2_1 _ _).trans hk)
  rw [el, er]

/-! ## One step of the carried accumulation -/

/-- One step at (b, e): the old accumulator plus, over the slab's hidden features, the hidden layer (the row of x
    against the row of wh, plus the bias row) times the row of we. -/
theorem pay2_apply (x : Vec Ideal S128x4096 .bf16) (wh : Vec Ideal S1024x4096 .bf16) (bh : Vec Ideal S1x1024 .f32)
    (we : Vec Ideal S512x1024 .bf16) (acc : Vec Ideal S128x512 .f32) (b : Fin 128) (e : Fin 512) :
    k0_pay2 (F := Ideal) x wh bh we acc (ix2 b e)
      = acc (ix2 b e) + ∑ h : Fin 1024, ((∑ j : Fin 4096, x (ix2 b j) * wh (ix2 h j)) + bh (ix2 (0 : Fin 1) h)) * we (ix2 e h) := by
  unfold k0_pay2
  simp only [shapeCast_self]
  rw [addf_apply]
  refine congrArg (acc (ix2 b e) + ·) ?_
  refine (mm2_apply _ we b e).trans ?_
  refine Finset.sum_congr rfl fun h _ => ?_
  refine congrArg (· * we (ix2 e h)) ?_
  rw [truncf_apply, addf_apply, broadcastTo_1b_ab_apply]
  exact congrArg (· + bh (ix2 (0 : Fin 1) h)) (mm1_apply x wh b h)

/-! ## The last step -/

/-- The last step at (b, e): the accumulator plus the output bias row at e. -/
theorem pay3_apply (acc : Vec Ideal S128x512 .f32) (be : Vec Ideal S1x512 .f32) (b : Fin 128) (e : Fin 512) :
    k0_pay3 (F := Ideal) acc be (ix2 b e) = acc (ix2 b e) + be (ix2 (0 : Fin 1) e) := by
  unfold k0_pay3
  simp only [shapeCast_self]
  rw [addf_apply, broadcastTo_1b_ab_apply]

/-! ## Four slabs make the whole -/

/-- A sum over n + m terms is the sum of the first n plus the sum of the last m. -/
theorem sum_fin_split (n m N : ℕ) (hN : n + m = N) (f : Fin N → EReal) :
    ∑ i : Fin N, f i = (∑ i : Fin n, f ⟨i.val, by omega⟩) + ∑ i : Fin m, f ⟨n + i.val, by omega⟩ := by
  subst hN
  exact Fin.sum_univ_add f

/-- The four slabs of 1024, added one after the other starting from 0, are the sum over all 4096: addition of
    extended reals is associative and commutative with unit 0, so nothing about finiteness is needed. -/
theorem sum_four_slabs (f : Fin 4096 → EReal) :
    ((((0 : EReal) + ∑ h : Fin 1024, f ⟨0 * 1024 + h.val, by omega⟩) + ∑ h : Fin 1024, f ⟨1 * 1024 + h.val, by omega⟩) + ∑ h : Fin 1024, f ⟨2 * 1024 + h.val, by omega⟩) + ∑ h : Fin 1024, f ⟨3 * 1024 + h.val, by omega⟩
      = ∑ h : Fin 4096, f h := by
  have h4 := sum_fin_split 3072 1024 4096 rfl f
  have h3 := sum_fin_split 2048 1024 3072 rfl (fun i : Fin 3072 => f ⟨i.val, by omega⟩)
  have h2 := sum_fin_split 1024 1024 2048 rfl (fun i : Fin 2048 => f ⟨i.val, by omega⟩)
  rw [zero_add, h4, h3, h2]
  refine congrArg₂ (· + ·) (congrArg₂ (· + ·) (congrArg₂ (· + ·) ?_ ?_) ?_) ?_ <;>
    exact Finset.sum_congr rfl fun h _ => congrArg f (Fin.ext (by simp))

end Cert.KernelIdeal.Val

end
-- ==== Proof.Val.Emb.lean ====
/-
  The embedding call, read at the extended reals.

  The call runs over four points k = 0 .. 3 of the hidden axis.  At point k it is given x whole, rows 1024 k ..
  1024 k + 1023 of wh, columns 1024 k .. 1024 k + 1023 of bh and of we, and the output bias whole; it adds to a carried
  128 x 512 accumulator, at (b, e),
        sum over the slab's hidden features h of ((sum_j x b j * wh h j) + bh 0 h) * we e h,
  the accumulator having been reset to zero at point 0; at point 3 it stores the accumulator plus the output bias into
  the output block, which is the whole output array and is written back there only.  Here:

  * each block read off its array is the slab of the whole array the point's block index names (`emb_blk_*`);
  * so one point's update adds slab k of the outer sum over all 4096 hidden features (`emb_step`), and after
    position n the accumulator holds slabs 0 .. n added one after the other from zero (`emb_acc`, by induction on
    the position);
  * the four slabs are the whole sum, so the output block after point 3 is the specification's embedding
    (`emb_out`), and the output array ends holding it (`emb_final`).
-/
import proofs.«161488_j35158602285671_1_alg».proof.Proof.Val.EmbPieces
import proofs.«161488_j35158602285671_1_alg».proof.Proof.Val.EmbPay
import proofs.«161488_j35158602285671_1_alg».proof.Proof.Val.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Cert.KernelIdeal.Fr
open Idealize.ShloMosaic Idealize.ShloMosaic.ValueIdx Idealize.ShloMosaic.TcCoe
open Idealize.ShloMosaic.Pipeline (Dat Cfg Window)

/-! ## The blocks, read off the whole arrays -/

variable (V : (c : Dev nD) → (b : Ref sig .tc) → Buf (Elt Ideal) ((c : Thread nD τ).loc b))

/-- The index maps, decided once over the four points: x, the output bias and the output stay at block (0, 0);
    wh moves down its rows with the point, bh and we move along their columns with it. -/
theorem emb_idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The grid has four points. -/
theorem emb_lt4 (t : Fin cfg0.N) : t.val < 4 := lt_of_lt_of_eq t.isLt (show cfg0.N = 4 from N_0)

/-- The block of x is the whole array at every point. -/
theorem emb_blk_x (c : Dev nD) (t : Fin cfg0.N) (y : S128x4096.Idx) : blk0 V c 0 t y = V c main_v0 y := by
  obtain ⟨e0, e1, -⟩ := emb_idx_facts t
  show V c main_v0 (((cfg0.win 0).blk t).view.emb y) = V c main_v0 y
  refine congrArg (V c main_v0) (funext fun a => Fin.ext ?_)
  match a with
  | ⟨0, _⟩ => show win0_0.index t (0 : Fin 2) * 128 + 1 * (y 0).val = (y 0).val; rw [e0]; omega
  | ⟨1, _⟩ => show win0_0.index t (1 : Fin 2) * 4096 + 1 * (y 1).val = (y 1).val; rw [e1]; omega

/-- The block of wh at point t is rows 1024 t .. 1024 t + 1023. -/
theorem emb_blk_wh (c : Dev nD) (t : Fin cfg0.N) (h : Fin 1024) (j : Fin 4096) :
    blk0 V c 1 t (ix2 h j) = V c main_v1 (ix2 (⟨t.val * 1024 + h.val, by have := emb_lt4 t; omega⟩ : Fin 4096) j) := by
  obtain ⟨-, -, e0, e1, -⟩ := emb_idx_facts t
  show V c main_v1 (((cfg0.win 1).blk t).view.emb (ix2 h j)) = V c main_v1 _
  refine congrArg (V c main_v1) (funext fun a => Fin.ext ?_)
  match a with
  | ⟨0, _⟩ => show win0_1.index t (0 : Fin 2) * 1024 + 1 * h.val = t.val * 1024 + h.val; rw [e0]; omega
  | ⟨1, _⟩ => show win0_1.index t (1 : Fin 2) * 4096 + 1 * j.val = j.val; rw [e1]; omega

/-- The block of bh at point t is columns 1024 t .. 1024 t + 1023. -/
theorem emb_blk_bh (c : Dev nD) (t : Fin cfg0.N) (h : Fin 1024) :
    blk0 V c 2 t (ix2 (0 : Fin 1) h) = V c main_v3 (ix2 (0 : Fin 1) (⟨t.val * 1024 + h.val, by have := emb_lt4 t; omega⟩ : Fin 4096)) := by
  obtain ⟨-, -, -, -, e0, e1, -⟩ := emb_idx_facts t
  show V c main_v3 (((cfg0.win 2).blk t).view.emb (ix2 (0 : Fin 1) h)) = V c main_v3 _
  refine congrArg (V c main_v3) (funext fun a => Fin.ext ?_)
  match a with
  | ⟨0, _⟩ => show win0_2.index t (0 : Fin 2) * 1 + 1 * (0 : Fin 1).val = (0 : Fin 1).val; rw [e0]; omega
  | ⟨1, _⟩ => show win0_2.index t (1 : Fin 2) * 1024 + 1 * h.val = t.val * 1024 + h.val; rw [e1]; omega

/-- The block of we at point t is columns 1024 t .. 1024 t + 1023. -/
theorem emb_blk_we (c : Dev nD) (t : Fin cfg0.N) (e : Fin 512) (h : Fin 1024) :
    blk0 V c 3 t (ix2 e h) = V c main_v2 (ix2 e (⟨t.val * 1024 + h.val, by have := emb_lt4 t; omega⟩ : Fin 4096)) := by
  obtain ⟨-, -, -, -, -, -, e0, e1, -⟩ := emb_idx_facts t
  show V c main_v2 (((cfg0.win 3).blk t).view.emb (ix2 e h)) = V c main_v2 _
  refine congrArg (V c main_v2) (funext fun a => Fin.ext ?_)
  match a with
  | ⟨0, _⟩ => show win0_3.index t (0 : Fin 2) * 512 + 1 * e.val = e.val; rw [e0]; omega
  | ⟨1, _⟩ => show win0_3.index t (1 : Fin 2) * 1024 + 1 * h.val = t.val * 1024 + h.val; rw [e1]; omega

/-- The block of the output bias is the whole array at every point. -/
theorem emb_blk_be (c : Dev nD) (t : Fin cfg0.N) (y : S1x512.Idx) : blk0 V c 4 t y = V c main_v4 y := by
  obtain ⟨-, -, -, -, -, -, -, -, e0, e1, -⟩ := emb_idx_facts t
  show V c main_v4 (((cfg0.win 4).blk t).view.emb y) = V c main_v4 y
  refine congrArg (V c main_v4) (funext fun a => Fin.ext ?_)
  match a with
  | ⟨0, _⟩ => show win0_4.index t (0 : Fin 2) * 1 + 1 * (y 0).val = (y 0).val; rw [e0]; omega
  | ⟨1, _⟩ => show win0_4.index t (1 : Fin 2) * 512 + 1 * (y 1).val = (y 1).val; rw [e1]; omega

/-- The one block of the output is the whole 128 x 512 array: entry j of the block sits at index j. -/
theorem emb_emb_out (t : Fin cfg0.N) (j : S128x512.Idx) : ((cfg0.win 5).blk t).view.emb j = j := by
  obtain ⟨-, -, -, -, -, -, -, -, -, -, e0, e1⟩ := emb_idx_facts t
  funext a; apply Fin.ext
  match a with
  | ⟨0, _⟩ => show win0_5.index t (0 : Fin 2) * 128 + 1 * (j 0).val = (j 0).val; rw [e0]; omega
  | ⟨1, _⟩ => show win0_5.index t (1 : Fin 2) * 512 + 1 * (j 1).val = (j 1).val; rw [e1]; omega

/-! ## One point's update, over the whole arrays -/

/-- The arrays the call reads, as the call finds them, named at their literal types. -/
abbrev embX (c : Dev nD) : Cert.Spec.T128x4096.Idx → EReal := V c main_v0
abbrev embWh (c : Dev nD) : Cert.Spec.T4096x4096.Idx → EReal := V c main_v1
abbrev embBh (c : Dev nD) : Cert.Spec.T1x4096.Idx → EReal := V c main_v3
abbrev embWe (c : Dev nD) : Cert.Spec.T512x4096.Idx → EReal := V c main_v2
abbrev embBe (c : Dev nD) : Cert.Spec.T1x512.Idx → EReal := V c main_v4

/-- The term of the embedding's outer sum at hidden feature h, for row b and output feature e. -/
abbrev embTerm (c : Dev nD) (b : Fin 128) (e : Fin 512) (h : Fin 4096) : EReal :=
  Cert.Spec.hiddenAt (embX V c) (embWh V c) (embBh V c) b h * embWe V c (ix2 e h)

/-- Slab k of a sum over the 4096 hidden features: features 1024 k .. 1024 k + 1023. -/
abbrev embSlab (f : Fin 4096 → EReal) (k : ℕ) (hk : k < 4) : EReal :=
  ∑ h : Fin 1024, f ⟨k * 1024 + h.val, by omega⟩

/-- The slabs summed one after the other from 0, up to slab n. -/
def embPartial (f : Fin 4096 → EReal) : (n : ℕ) → n < 4 → EReal
  | 0, hn => 0 + embSlab f 0 hn
  | n + 1, hn => embPartial f n (Nat.lt_of_succ_lt hn) + embSlab f (n + 1) hn

/-- AT POINT t the update leaves, at (b, e), the accumulator it found plus slab t of the outer sum: the blocks of wh,
    bh and we at point t are the slab's rows and columns of the whole arrays. -/
theorem emb_step (c : Dev nD) (t : Fin cfg0.N) (acc : Vec Ideal S128x512 .f32) (b : Fin 128) (e : Fin 512) :
    k0_pay2 (F := Ideal) (blk0 V c 0 t) (blk0 V c 1 t) (blk0 V c 2 t) (blk0 V c 3 t) acc (ix2 b e)
      = acc (ix2 b e) + embSlab (embTerm V c b e) t.val (emb_lt4 t) := by
  refine (pay2_apply (blk0 V c 0 t) (blk0 V c 1 t) (blk0 V c 2 t) (blk0 V c 3 t) acc b e).trans ?_
  refine congrArg (fun z => acc (ix2 b e) + z) (Finset.sum_congr rfl fun h _ => ?_)
  rw [emb_blk_bh V c t h, emb_blk_we V c t e h]
  refine congrArg (fun z => (z + _) * _) (Finset.sum_congr rfl fun j _ => ?_)
  rw [emb_blk_x V c t (ix2 b j), emb_blk_wh V c t h j]

/-! ## The accumulator after each point -/

/-- After position n the accumulator holds, at (b, e), the slabs 0 .. n of the outer sum added one after the other
    from the reset's zero: by induction on the position, each case of the body being the same update. -/
theorem emb_acc (c : Dev nD) (b : Fin 128) (e : Fin 512) : ∀ (n : ℕ) (hn : n < cfg0.N),
    (outsAt0 V c n hn).2 (ix2 b e) = embPartial (embTerm V c b e) n (lt_of_lt_of_eq hn N_0)
  | 0, hn => by
    rw [outsAt0_A V c ⟨0, hn⟩ rfl (by show ¬(0 % 4 = 3); decide)]; dsimp only
    rw [sout0_A_eq, emb_step V c ⟨0, hn⟩ (k0_pay1 (F := Ideal)) b e, pay1_apply]
    rfl
  | n + 1, hn => by
    have hN : n + 1 < 4 := lt_of_lt_of_eq hn N_0
    have h0 : ¬(⟨n + 1, hn⟩ : Fin cfg0.N).val % 4 = 0 := by dsimp only; omega
    have ih := emb_acc c b e n (Nat.lt_of_succ_lt hn)
    by_cases h3 : (⟨n + 1, hn⟩ : Fin cfg0.N).val % 4 = 3
    · rw [outsAt0_C V c ⟨n + 1, hn⟩ h0 h3]; dsimp only
      rw [sout0_C_eq, emb_step V c ⟨n + 1, hn⟩ _ b e]
      exact congrArg (fun z => z + embSlab (embTerm V c b e) (n + 1) hN) ih
    · rw [outsAt0_B V c ⟨n + 1, hn⟩ h0 h3]; dsimp only
      rw [sout0_B_eq, emb_step V c ⟨n + 1, hn⟩ _ b e]
      exact congrArg (fun z => z + embSlab (embTerm V c b e) (n + 1) hN) ih

/-- The four slabs added one after the other from 0 are the whole sum. -/
theorem emb_partial_three (f : Fin 4096 → EReal) (h : 3 < 4) : embPartial f 3 h = ∑ k : Fin 4096, f k :=
  sum_four_slabs f

/-- One more slab. -/
theorem embPartial_succ (f : Fin 4096 → EReal) (n : ℕ) (hn : n + 1 < 4) :
    embPartial f (n + 1) hn = embPartial f n (Nat.lt_of_succ_lt hn) + embSlab f (n + 1) hn := rfl

/-! ## The output block at the last point, and the output array -/

/-- Position 3 is a point of the grid. -/
theorem emb_three_lt : 3 < cfg0.N := by rw [show cfg0.N = 4 from N_0]; decide

/-- AFTER THE LAST POINT the output block holds, at (b, e), the embedding: the accumulator the point before left plus
    the last slab is the whole outer sum, and the body adds the output bias to it. -/
theorem emb_out (c : Dev nD) (b : Fin 128) (e : Fin 512) (hn : 3 < cfg0.N) :
    (outsAt0 V c 3 hn).1 (ix2 b e)
      = Cert.Spec.embAt (embX V c) (embWh V c) (embBh V c) (embWe V c) (embBe V c) b e := by
  rw [outsAt0_C V c ⟨3, hn⟩ (by show ¬(3 % 4 = 0); decide) rfl]; dsimp only
  rw [out0_C_eq, pay3_apply, emb_step V c ⟨3, hn⟩ _ b e, emb_blk_be V c ⟨3, hn⟩]
  have ih := emb_acc V c b e 2 (Nat.lt_of_succ_lt hn)
  refine (congrArg (fun z => z + embSlab (embTerm V c b e) 3 (by decide) + embBe V c (ix2 (0 : Fin 1) e)) ih).trans ?_
  unfold Cert.Spec.embAt
  refine congrArg (fun z => z + embBe V c (ix2 (0 : Fin 1) e)) ?_
  exact (embPartial_succ (embTerm V c b e) 2 (by decide)).symm.trans (emb_partial_three (embTerm V c b e) (by decide))

/-- WHAT THE LAST POINT WRITES BACK is the block of the embedding of the arrays the call reads (its one block is the
    whole array). -/
theorem emb_flushed_eq (c : Dev nD) (t : Fin cfg0.N) (hf : (cfg0.win 5).flush t = true) :
    (dat0 (F := Ideal) V c).flushed 5 t
      = ((cfg0.win 5).blk t).view.read (Elt Ideal)
          (Cert.Spec.embSpec (V c main_v0) (V c main_v1) (V c main_v3) (V c main_v2) (V c main_v4)) := by
  have h3 : t.val = 3 := by have := (flush0_5 t).mp hf; have := emb_lt4 t; omega
  obtain rfl : t = ⟨3, emb_three_lt⟩ := Fin.ext h3
  show (cfg0.win 5).cut (grid0.coords _) ((dat0 V c).after 5 _) = _
  rw [after0_5]
  refine funext fun (j : S128x512.Idx) => ?_
  obtain ⟨b, e, rfl⟩ : ∃ (b : Fin 128) (e : Fin 512), j = ix2 b e := ⟨j 0, j 1, eq_ix2 j⟩
  show (outsAt0 V c 3 _).1 (ix2 b e)
    = Cert.Spec.embSpec (V c main_v0) (V c main_v1) (V c main_v3) (V c main_v2) (V c main_v4)
        (((cfg0.win 5).blk ⟨3, emb_three_lt⟩).view.emb (ix2 b e))
  rw [emb_emb_out ⟨3, emb_three_lt⟩ (ix2 b e), emb_out V c b e]
  rfl

/-- THE OUTPUT ARRAY AFTER THE CALL: the embedding of the five arrays it reads (the last point's block is the whole
    128 x 512 array, so every index is covered). -/
theorem emb_final (c : Dev nD) :
    (dat0 (F := Ideal) V c).arrAt 5 cfg0.N
      = Cert.Spec.embSpec (V c main_v0) (V c main_v1) (V c main_v3) (V c main_v2) (V c main_v4) :=
  (dat0 (F := Ideal) V c).arrAt_eq_of_cover 5
    (Cert.Spec.embSpec (V c main_v0) (V c main_v1) (V c main_v3) (V c main_v2) (V c main_v4))
    (emb_flushed_eq V c) fun i =>
    ⟨⟨3, emb_three_lt⟩, (flush0_5 ⟨3, emb_three_lt⟩).mpr rfl, by
      have h := ((cfg0.win 5).blk ⟨3, emb_three_lt⟩).view.emb_mem_set i
      rwa [emb_emb_out ⟨3, emb_three_lt⟩ i] at h⟩

end Cert.KernelIdeal.Val

end
-- ==== Proof.Val.Out.lean ====
/-
  The kernel program's result array at the ideal instance, as a function of the launch arrays.  The boundary
  contents are folded back call by call: the concatenate's two operands are the positive scores (call 1's output)
  and the negative scores (call 2's output); both read the embedding, which is call 0's output; and call 0 reads
  the launch arrays through the first host stretch, whose format changes are the identity on extended reals and whose
  two reshapes only add a unit axis.
-/
import proofs.«161488_j35158602285671_1_alg».proof.Proof.Fr.Run
import proofs.«161488_j35158602285671_1_alg».proof.Proof.Val.Spec
import proofs.«161488_j35158602285671_1_alg».proof.Proof.Val.Pos
import proofs.«161488_j35158602285671_1_alg».proof.Proof.Val.Neg
import proofs.«161488_j35158602285671_1_alg».proof.Proof.Val.Emb
import Idealize.ShloMosaic.Lib.StableHlo.Run
import Idealize.ShloMosaic.Lib.Pipeline.Value
import Idealize.ShloMosaic.Lib.ValueIdx

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## The first host stretch at the ideal instance -/

theorem entry_v0 (c : Dev nD) : (E1 m c main_v0 : S128x4096.Idx → EReal) = (m ((c : Thread nD τ).loc main_arg0)) := by
  show StableHlo.after hostOps0 (B0 m c) (Proc.devRef .tc main_v0) = _
  after_results; rfl
theorem entry_v1 (c : Dev nD) : (E1 m c main_v1 : S4096x4096.Idx → EReal) = (m ((c : Thread nD τ).loc main_arg3)) := by
  show StableHlo.after hostOps0 (B0 m c) (Proc.devRef .tc main_v1) = _
  after_results; rfl
theorem entry_v2 (c : Dev nD) : (E1 m c main_v2 : S512x4096.Idx → EReal) = (m ((c : Thread nD τ).loc main_arg5)) := by
  show StableHlo.after hostOps0 (B0 m c) (Proc.devRef .tc main_v2) = _
  after_results; rfl
/-- The hidden bias as a 1 x 4096 row: entry (0, h) is entry h of the vector. -/
theorem entry_v3 (c : Dev nD) : (E1 m c main_v3 : S1x4096.Idx → EReal) = fun i => (m ((c : Thread nD τ).loc main_arg4)) (ix1 (⟨(i 1).val, (i 1).isLt⟩ : Fin 4096)) := by
  have e : (E1 m c main_v3 : S1x4096.Idx → EReal) = shapeCast S1x4096 (m ((c : Thread nD τ).loc main_arg4)) shapeCasts_S4096_S1x4096 := by
    show StableHlo.after hostOps0 (B0 m c) (Proc.devRef .tc main_v3) = _
    after_results; rfl
  rw [e]; funext i
  refine (shapeCast_addUnit_apply (![4096]) _ _ i).trans (congrArg _ ?_)
  funext a; match a with | ⟨0, _⟩ => rfl
/-- The output bias as a 1 x 512 row. -/
theorem entry_v4 (c : Dev nD) : (E1 m c main_v4 : S1x512.Idx → EReal) = fun i => (m ((c : Thread nD τ).loc main_arg6)) (ix1 (⟨(i 1).val, (i 1).isLt⟩ : Fin 512)) := by
  have e : (E1 m c main_v4 : S1x512.Idx → EReal) = shapeCast S1x512 (m ((c : Thread nD τ).loc main_arg6)) shapeCasts_S512_S1x512 := by
    show StableHlo.after hostOps0 (B0 m c) (Proc.devRef .tc main_v4) = _
    after_results; rfl
  rw [e]; funext i
  refine (shapeCast_addUnit_apply (![512]) _ _ i).trans (congrArg _ ?_)
  funext a; match a with | ⟨0, _⟩ => rfl

/-! ## The embedding, where the two score calls find it -/

/-- Call 0 leaves the embedding of the launch arrays in its output array. -/
theorem emb_after0 (c : Dev nD) : (E2 m c main_v5 : S128x512.Idx → EReal) = (Cert.Spec.embSpec (m ((c : Thread nD τ).loc main_arg0)) (m ((c : Thread nD τ).loc main_arg3)) (fun i => (m ((c : Thread nD τ).loc main_arg4)) (ix1 (⟨(i 1).val, (i 1).isLt⟩ : Fin 4096))) (m ((c : Thread nD τ).loc main_arg5)) (fun i => (m ((c : Thread nD τ).loc main_arg6)) (ix1 (⟨(i 1).val, (i 1).isLt⟩ : Fin 512)))) := by
  refine (B2_arr m c 5).trans ((emb_final (E1 m) c).trans ?_)
  rw [entry_v0, entry_v1, entry_v2, entry_v3, entry_v4]; rfl
/-- Call 1 reads it and leaves it in place. -/
theorem emb_after1 (c : Dev nD) : (E3 m c main_v5 : S128x512.Idx → EReal) = (Cert.Spec.embSpec (m ((c : Thread nD τ).loc main_arg0)) (m ((c : Thread nD τ).loc main_arg3)) (fun i => (m ((c : Thread nD τ).loc main_arg4)) (ix1 (⟨(i 1).val, (i 1).isLt⟩ : Fin 4096))) (m ((c : Thread nD τ).loc main_arg5)) (fun i => (m ((c : Thread nD τ).loc main_arg6)) (ix1 (⟨(i 1).val, (i 1).isLt⟩ : Fin 512)))) :=
  (B3_arr m c 1).trans ((((dat1 (E2 m) c).arrAt_in 1 rfl _).trans (A_eq1 (E2 m) c 1)).trans (emb_after0 m c))
/-- The targets and the negatives are still the launch arrays when the score calls read them. -/
theorem targets_at1 (c : Dev nD) : (E2 m c main_arg1 : S128x512.Idx → EReal) = (m ((c : Thread nD τ).loc main_arg1)) :=
  (B2_of_ne m c main_arg1 (by decide)).trans (StableHlo.after_of_writes_sub hostOps0 _ hostOps0_writes (by decide))
theorem negatives_at2 (c : Dev nD) : (E3 m c main_arg2 : S2048x512.Idx → EReal) = (m ((c : Thread nD τ).loc main_arg2)) :=
  (B3_of_ne m c main_arg2 (by decide)).trans ((B2_of_ne m c main_arg2 (by decide)).trans (StableHlo.after_of_writes_sub hostOps0 _ hostOps0_writes (by decide)))

/-! ## The two score arrays and the result -/

theorem pos_at_end (c : Dev nD) : (B4 m c (Proc.devRef .tc main_v6) : S128x1.Idx → EReal) = Cert.Spec.posSpec (m ((c : Thread nD τ).loc main_arg1)) (Cert.Spec.embSpec (m ((c : Thread nD τ).loc main_arg0)) (m ((c : Thread nD τ).loc main_arg3)) (fun i => (m ((c : Thread nD τ).loc main_arg4)) (ix1 (⟨(i 1).val, (i 1).isLt⟩ : Fin 4096))) (m ((c : Thread nD τ).loc main_arg5)) (fun i => (m ((c : Thread nD τ).loc main_arg6)) (ix1 (⟨(i 1).val, (i 1).isLt⟩ : Fin 512)))) := by
  refine (B4_of_ne m c main_v6 (by decide)).trans ((B3_arr m c 2).trans ((pos_final (E2 m) c).trans ?_))
  rw [targets_at1, emb_after0]
theorem neg_at_end (c : Dev nD) : (B4 m c (Proc.devRef .tc main_v7) : S128x2048.Idx → EReal) = Cert.Spec.negSpec (Cert.Spec.embSpec (m ((c : Thread nD τ).loc main_arg0)) (m ((c : Thread nD τ).loc main_arg3)) (fun i => (m ((c : Thread nD τ).loc main_arg4)) (ix1 (⟨(i 1).val, (i 1).isLt⟩ : Fin 4096))) (m ((c : Thread nD τ).loc main_arg5)) (fun i => (m ((c : Thread nD τ).loc main_arg6)) (ix1 (⟨(i 1).val, (i 1).isLt⟩ : Fin 512)))) (m ((c : Thread nD τ).loc main_arg2)) := by
  refine (B4_arr m c 2).trans ((neg_final (E3 m) c).trans ?_)
  rw [emb_after1, negatives_at2]

/-- THE RESULT: the last boundary's contents of the result array are the positive-score column followed by the
    negative scores, of the embedding of the launch arrays. -/
theorem out_final (c : Dev nD) :
    (B5 m c (Proc.devRef .tc main_v8) : S128x2049.Idx → EReal)
      = concatenate S128x2049 1 [⟨S128x1, Cert.Spec.posSpec (m ((c : Thread nD τ).loc main_arg1)) (Cert.Spec.embSpec (m ((c : Thread nD τ).loc main_arg0)) (m ((c : Thread nD τ).loc main_arg3)) (fun i => (m ((c : Thread nD τ).loc main_arg4)) (ix1 (⟨(i 1).val, (i 1).isLt⟩ : Fin 4096))) (m ((c : Thread nD τ).loc main_arg5)) (fun i => (m ((c : Thread nD τ).loc main_arg6)) (ix1 (⟨(i 1).val, (i 1).isLt⟩ : Fin 512))))⟩, ⟨S128x2048, Cert.Spec.negSpec (Cert.Spec.embSpec (m ((c : Thread nD τ).loc main_arg0)) (m ((c : Thread nD τ).loc main_arg3)) (fun i => (m ((c : Thread nD τ).loc main_arg4)) (ix1 (⟨(i 1).val, (i 1).isLt⟩ : Fin 4096))) (m ((c : Thread nD τ).loc main_arg5)) (fun i => (m ((c : Thread nD τ).loc main_arg6)) (ix1 (⟨(i 1).val, (i 1).isLt⟩ : Fin 512)))) (m ((c : Thread nD τ).loc main_arg2))⟩] concatenates_S128x1_S128x2048_S128x2049_d1 := by
  have e : (B5 m c (Proc.devRef .tc main_v8) : S128x2049.Idx → EReal)
      = concatenate S128x2049 1 [⟨S128x1, (B4 m c (Proc.devRef .tc main_v6) : S128x1.Idx → EReal)⟩, ⟨S128x2048, (B4 m c (Proc.devRef .tc main_v7) : S128x2048.Idx → EReal)⟩] concatenates_S128x1_S128x2048_S128x2049_d1 := by
    show StableHlo.after hostOps3 (B4 m c) (Proc.devRef .tc main_v8) = _
    after_results
  rw [e, pos_at_end, neg_at_end]

end Cert.KernelIdeal.Val

end
-- ==== Proof.Val.Ref.lean ====
/-
  The reference program read against the neutral specification.

  The reference computes the embedding  emb = (x · whᵀ + bh) · weᵀ + be  with two contractions, each a sum over the
  4096 inputs of a product of one element of each operand, then the positive column  -sqrt (sum_k max (p - emb, 0)^2)
  and the negative block  -sqrt (sum_k max (n - emb, 0)^2), and joins the two along the second axis. Every step is an
  operation read at one index, so each stage is the specification's formula with the index functions composed; the
  sums agree term by term, with no rearrangement.
-/
import proofs.«161488_j35158602285671_1_alg».proof.Proof.Gen.ReferenceIdeal.Read
import proofs.«161488_j35158602285671_1_alg».proof.Proof.Val.Spec
import Idealize.ShloMosaic.Lib.ValueIdx
import Idealize.ShloMosaic.PureOps.Ideal
import Idealize.ShloMosaic.PureOps.Ideal.Laws

noncomputable section

namespace Cert.RefSide

open Cert.ReferenceIdeal Cert.ReferenceIdeal.Gen Cert.ReferenceIdeal.Read Idealize.ShloMosaic Idealize.ShloMosaic.ValueIdx

/-- The hidden layer at (b, h): row b of x against row h of wh (the transposed operand read back), plus the bias. -/
theorem ref_hidden (x0 : (⟨S128x4096, .f32⟩ : BufTy).Contents (Elt Ideal)) (x3 : (⟨S4096x4096, .f32⟩ : BufTy).Contents (Elt Ideal))
    (x4 : (⟨S4096, .f32⟩ : BufTy).Contents (Elt Ideal)) (b : Fin 128) (h : Fin 4096) :
    val_main_v4 (F := Ideal) x0 x3 x4 (ix2 b h)
      = Cert.Spec.hiddenAt x0 x3 (fun i => x4 (ix1 (⟨(i 1).val, (i 1).isLt⟩ : Fin 4096))) b h := by
  rw [val_main_v4_apply, val_main_v1_apply, val_main_v3_apply, val_main_v2_apply, Ideal.addf_def]
  unfold Cert.Spec.hiddenAt
  refine congrArg₂ (· + ·) (Finset.sum_congr rfl fun j _ => ?_) ?_
  · rw [val_main_v0_apply]
    have e1 : lidx_main_v1 (ix2 b h) j = ix2 b j :=
      funext fun a => by match a with | ⟨0, _⟩ => rfl | ⟨1, _⟩ => rfl
    have e2 : idx_main_v0 (ridx_main_v1 (ix2 b h) j) = ix2 h j :=
      funext fun a => by match a with | ⟨0, _⟩ => rfl | ⟨1, _⟩ => rfl
    rw [e1, e2]
  · exact congrArg x4 (funext fun a => by match a with | ⟨0, _⟩ => rfl)

/-- The embedding: the hidden row against row e of we (the transposed operand read back), plus the bias. -/
theorem ref_emb (x0 : (⟨S128x4096, .f32⟩ : BufTy).Contents (Elt Ideal)) (x3 : (⟨S4096x4096, .f32⟩ : BufTy).Contents (Elt Ideal))
    (x4 : (⟨S4096, .f32⟩ : BufTy).Contents (Elt Ideal)) (x5 : (⟨S512x4096, .f32⟩ : BufTy).Contents (Elt Ideal))
    (x6 : (⟨S512, .f32⟩ : BufTy).Contents (Elt Ideal)) :
    val_main_v9 (F := Ideal) x0 x3 x4 x5 x6
      = Cert.Spec.embSpec x0 x3 (fun i => x4 (ix1 (⟨(i 1).val, (i 1).isLt⟩ : Fin 4096))) x5
          (fun i => x6 (ix1 (⟨(i 1).val, (i 1).isLt⟩ : Fin 512))) := by
  funext i
  obtain ⟨b, e, rfl⟩ : ∃ (b : Fin 128) (e : Fin 512), i = ix2 b e := ⟨i 0, i 1, eq_ix2 i⟩
  rw [val_main_v9_apply, val_main_v6_apply, val_main_v8_apply, val_main_v7_apply, Ideal.addf_def]
  unfold Cert.Spec.embSpec Cert.Spec.embAt
  refine congrArg₂ (· + ·) (Finset.sum_congr rfl fun h _ => ?_) ?_
  · rw [val_main_v5_apply]
    have e1 : lidx_main_v6 (ix2 b e) h = ix2 b h :=
      funext fun a => by match a with | ⟨0, _⟩ => rfl | ⟨1, _⟩ => rfl
    have e2 : idx_main_v5 (ridx_main_v6 (ix2 b e) h) = ix2 e h :=
      funext fun a => by match a with | ⟨0, _⟩ => rfl | ⟨1, _⟩ => rfl
    rw [e1, e2, ref_hidden]
  · exact congrArg x6 (funext fun a => by match a with | ⟨0, _⟩ => rfl)

/-- The positive column: the sum starts from the zero word, each term is the squared positive part of p - emb at
    (b, k), and the square root and the sign are the specification's. -/
theorem ref_pos (x0 : (⟨S128x4096, .f32⟩ : BufTy).Contents (Elt Ideal)) (x1 : (⟨S128x512, .f32⟩ : BufTy).Contents (Elt Ideal))
    (x3 : (⟨S4096x4096, .f32⟩ : BufTy).Contents (Elt Ideal)) (x4 : (⟨S4096, .f32⟩ : BufTy).Contents (Elt Ideal))
    (x5 : (⟨S512x4096, .f32⟩ : BufTy).Contents (Elt Ideal)) (x6 : (⟨S512, .f32⟩ : BufTy).Contents (Elt Ideal)) :
    val_main_v26 (F := Ideal) x0 x1 x3 x4 x5 x6
      = Cert.Spec.posSpec x1 (val_main_v9 (F := Ideal) x0 x3 x4 x5 x6) := by
  funext i
  obtain ⟨b, z, rfl⟩ : ∃ (b : Fin 128) (z : Fin 1), i = ix2 b z := ⟨i 0, i 1, eq_ix2 i⟩
  rw [val_main_v26_apply, val_main_v15_apply, val_main_v14_apply, val_main_v13_apply, val_main_cst_apply,
    Ideal.hostNegf_def, Ideal.negf_def, Ideal.hostUnary_sqrt_def, Ideal.ofBits_def, Ideal.ofBits_zero_f32, zero_add]
  unfold Cert.Spec.posSpec Cert.Spec.scoreAt
  refine congrArg (fun t => -(Ideal.sqrt t)) (Finset.sum_congr rfl fun k _ => ?_)
  rw [val_main_v12_apply, val_main_v11_apply, val_main_v10_apply, val_main_call0_v0_apply, val_main_call0_cst_apply,
    Ideal.mulf_def, Ideal.maximumf_def, Ideal.subf_def, Ideal.ofBits_def, Ideal.ofBits_zero_f32]
  have e1 : idx_main_v13 (idx_main_v26 (ix2 b z)) k = ix2 b k :=
    funext fun a => by match a with | ⟨0, _⟩ => rfl | ⟨1, _⟩ => rfl
  rw [e1]
  rfl

/-- The negative block: the same sum with n at row s in place of p, the embedding read at row b whatever s. -/
theorem ref_neg (x0 : (⟨S128x4096, .f32⟩ : BufTy).Contents (Elt Ideal)) (x2 : (⟨S2048x512, .f32⟩ : BufTy).Contents (Elt Ideal))
    (x3 : (⟨S4096x4096, .f32⟩ : BufTy).Contents (Elt Ideal)) (x4 : (⟨S4096, .f32⟩ : BufTy).Contents (Elt Ideal))
    (x5 : (⟨S512x4096, .f32⟩ : BufTy).Contents (Elt Ideal)) (x6 : (⟨S512, .f32⟩ : BufTy).Contents (Elt Ideal)) :
    val_main_v25 (F := Ideal) x0 x2 x3 x4 x5 x6
      = Cert.Spec.negSpec (val_main_v9 (F := Ideal) x0 x3 x4 x5 x6) x2 := by
  funext i
  obtain ⟨b, s, rfl⟩ : ∃ (b : Fin 128) (s : Fin 2048), i = ix2 b s := ⟨i 0, i 1, eq_ix2 i⟩
  rw [val_main_v25_apply, val_main_v24_apply, val_main_v23_apply, val_main_cst_0_apply,
    Ideal.hostNegf_def, Ideal.negf_def, Ideal.hostUnary_sqrt_def, Ideal.ofBits_def, Ideal.ofBits_zero_f32, zero_add]
  unfold Cert.Spec.negSpec Cert.Spec.scoreAt
  refine congrArg (fun t => -(Ideal.sqrt t)) (Finset.sum_congr rfl fun k _ => ?_)
  rw [val_main_v22_apply, val_main_v21_apply, val_main_v20_apply, val_main_v18_apply, val_main_v16_apply,
    val_main_v19_apply, val_main_v17_apply, val_main_call1_v0_apply, val_main_call1_cst_apply,
    Ideal.mulf_def, Ideal.maximumf_def, Ideal.subf_def, Ideal.ofBits_def, Ideal.ofBits_zero_f32]
  have e1 : idx_main_v16 (idx_main_v18 (idx_main_v23 (ix2 b s) k)) = ix2 s k :=
    funext fun a => by match a with | ⟨0, _⟩ => rfl | ⟨1, _⟩ => rfl
  have e2 : idx_main_v17 (idx_main_v19 (idx_main_v23 (ix2 b s) k)) = ix2 b k :=
    funext fun a => by match a with | ⟨0, _⟩ => rfl | ⟨1, _⟩ => rfl
  rw [e1, e2]
  rfl

open Idealize.ShloMosaic.TcCoe Idealize.SL.Sem in
/-- The whole result: the positive column of the specification's embedding joined with its negative block along the
    second axis, every array being @main's argument at launch. -/
theorem ref_out (m : (ℓ : Loc nD τ sig) → Buf (Elt Ideal) ℓ) (c : Dev nD) :
    Cert.ReferenceIdeal.Value.res_main_v27 (F := Ideal) m c
      = concatenate S128x2049 1
          [⟨S128x1, Cert.Spec.posSpec (m ((c.tc : Thread nD τ).loc main_arg1))
              (Cert.Spec.embSpec (m ((c.tc : Thread nD τ).loc main_arg0)) (m ((c.tc : Thread nD τ).loc main_arg3))
                (fun i => m ((c.tc : Thread nD τ).loc main_arg4) (ix1 (⟨(i 1).val, (i 1).isLt⟩ : Fin 4096)))
                (m ((c.tc : Thread nD τ).loc main_arg5))
                (fun i => m ((c.tc : Thread nD τ).loc main_arg6) (ix1 (⟨(i 1).val, (i 1).isLt⟩ : Fin 512))))⟩,
           ⟨S128x2048, Cert.Spec.negSpec
              (Cert.Spec.embSpec (m ((c.tc : Thread nD τ).loc main_arg0)) (m ((c.tc : Thread nD τ).loc main_arg3))
                (fun i => m ((c.tc : Thread nD τ).loc main_arg4) (ix1 (⟨(i 1).val, (i 1).isLt⟩ : Fin 4096)))
                (m ((c.tc : Thread nD τ).loc main_arg5))
                (fun i => m ((c.tc : Thread nD τ).loc main_arg6) (ix1 (⟨(i 1).val, (i 1).isLt⟩ : Fin 512))))
              (m ((c.tc : Thread nD τ).loc main_arg2))⟩]
          concatenates_S128x1_S128x2048_S128x2049_d1 := by
  rw [val_main_v27_eq]
  unfold val_main_v27
  rw [ref_pos, ref_neg, ref_emb]

end Cert.RefSide

end
-- ==== Proof.lean ====
/-
  The certificate of `Cert.Claim`: a two-layer embedding  emb = (x . wh^T + bh) . we^T + be  followed by hinge
  distances to a positive target and to 2048 negatives,  score(u, v) = - sqrt (sum_k (max (u k - v k) 0)^2),
  computed by three pallas_calls (the embedding with a 128 x 512 accumulator carried over four slabs of the hidden
  axis; the positive scores; the negative scores on an 8 x 16 grid) against the plain jnp reference.

  * The frames of the two kernel programs are one text, generic in the float instance: each call's body obligation,
    the buffer contents folded through @main's segments, and one launch of the whole program (Proof/Fr for the
    idealized program, Proof/FrB the same text over the word-level program).
  * The idealization rewrote nothing, so `preserves` asks nothing.
  * At the ideal instance the kernel program's result array is the concatenation of the positive and negative scores of
    the embedding of the launch arrays (Proof/Val/Out.lean: each call's output as the specification of its inputs,
    Proof/Val/Pos.lean, Neg.lean, Emb.lean), and so is the reference's (Proof/Val/Ref.lean, over its generated run):
    the four slabs of the hidden axis add up to the reference's one sum over 4096 hidden units because addition of
    extended reals is associative and commutative; 0 - s is - s; a format change is the identity.  No input need
    be finite for any of this.
-/
import proofs.«161488_j35158602285671_1_alg».proof.Defs
import proofs.«161488_j35158602285671_1_alg».proof.Proof.Gen.Kernel
import proofs.«161488_j35158602285671_1_alg».proof.Proof.Gen.KernelIdeal
import proofs.«161488_j35158602285671_1_alg».proof.Proof.Gen.ReferenceIdeal
import proofs.«161488_j35158602285671_1_alg».proof.Proof.Gen.Pre_finite_inputs
import proofs.«161488_j35158602285671_1_alg».proof.Proof.Gen.ReferenceIdeal.Run
import proofs.«161488_j35158602285671_1_alg».proof.Proof.Gen.ReferenceIdeal.Read
import proofs.«161488_j35158602285671_1_alg».proof.Proof.Fr.Run
import proofs.«161488_j35158602285671_1_alg».proof.Proof.FrB.Run
import proofs.«161488_j35158602285671_1_alg».proof.Proof.Val.Out
import proofs.«161488_j35158602285671_1_alg».proof.Proof.Val.Ref
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ => Cert.Kernel.Fr.frame m ρ
/-- So does the idealized program. -/
theorem frame_ki : Cert.frame_KernelIdeal := fun m ρ _ => Cert.KernelIdeal.Fr.frame m ρ
/-- The reference is host operations only: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- The ideal pass rewrote no operation. -/
theorem preserves : Cert.preserves_Kernel_KernelIdeal := trivial

/-- From memories agreeing on the arguments both programs end with the same result array: the positive-score column
    followed by the negative scores, of the embedding of the arguments. -/
theorem algebraic : Cert.algebraic_KernelIdeal_ReferenceIdeal := by
  intro m ρ m' ρ' _ hagree
  refine ⟨fun c => Cert.KernelIdeal.Fr.B5 (F := Ideal) m c (Proc.devRef .tc Cert.KernelIdeal.main_v8), ?_, ?_⟩
  · exact (θ_run Cert.KernelIdeal.defs _ _).mono (fun _ h c =>
      ⟨h c _ (Cert.KernelIdeal.Fr.mem_uc Cert.KernelIdeal.main_v8 (by decide)),
        (h c _ (Cert.KernelIdeal.Fr.mem_uc Cert.KernelIdeal.main_arg0 (by decide))).trans (Cert.KernelIdeal.Fr.B5_main_arg0 m c),
        (h c _ (Cert.KernelIdeal.Fr.mem_uc Cert.KernelIdeal.main_arg1 (by decide))).trans (Cert.KernelIdeal.Fr.B5_main_arg1 m c),
        (h c _ (Cert.KernelIdeal.Fr.mem_uc Cert.KernelIdeal.main_arg2 (by decide))).trans (Cert.KernelIdeal.Fr.B5_main_arg2 m c),
        (h c _ (Cert.KernelIdeal.Fr.mem_uc Cert.KernelIdeal.main_arg3 (by decide))).trans (Cert.KernelIdeal.Fr.B5_main_arg3 m c),
        (h c _ (Cert.KernelIdeal.Fr.mem_uc Cert.KernelIdeal.main_arg4 (by decide))).trans (Cert.KernelIdeal.Fr.B5_main_arg4 m c),
        (h c _ (Cert.KernelIdeal.Fr.mem_uc Cert.KernelIdeal.main_arg5 (by decide))).trans (Cert.KernelIdeal.Fr.B5_main_arg5 m c),
        (h c _ (Cert.KernelIdeal.Fr.mem_uc Cert.KernelIdeal.main_arg6 (by decide))).trans (Cert.KernelIdeal.Fr.B5_main_arg6 m c)⟩) (Cert.KernelIdeal.Fr.run_all (F := Ideal) m ρ)
  · refine (θ_run Cert.ReferenceIdeal.defs _ _).mono (fun _ h c =>
        ⟨(h c).1.trans (((Cert.RefSide.ref_out m' c).trans ?_).trans (Cert.KernelIdeal.Val.out_final m c).symm), (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
